-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x250 .f32 .bf16
  ∧ IdealRules.truncf_extf.Statement Cert.KernelIdeal.S1024x2048 .f32 .bf16
  ∧ IdealRules.truncf_extf.Statement Cert.KernelIdeal.S1024x2048 .f32 .bf16
  ∧ IdealRules.truncf_extf.Statement Cert.KernelIdeal.S1024x250 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v100)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v58)) (v3 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v58) = v2 c
          ∧ r.2.mem ((c.tc : Thread Cert.KernelIdeal.nD Cert.KernelIdeal.τ).loc Cert.KernelIdeal.main_v96) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v126) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x250 : Shape := ⟨2, ![16384, 250]⟩
abbrev S16384 : Shape := ⟨1, ![16384]⟩
abbrev S16384x2048 : Shape := ⟨2, ![16384, 2048]⟩
abbrev S250x250 : Shape := ⟨2, ![250, 250]⟩
abbrev S_ : Shape := ⟨0, ![]⟩

class Facts : Prop where
  bcast_S_S16384x250 : S_.BroadcastsInDim S16384x250 (![] : Fin 0 → Fin S16384x250.rank)
  reducesTo_S16384x250_S_d0_1 : S16384x250.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S250x250 : S_.BroadcastsInDim S250x250 (![] : Fin 0 → Fin S250x250.rank)
  reducesTo_S250x250_S_d0_1 : S250x250.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : IVec S16384 32) (main_v13 : IVec S_ 1) (main_v15 : IVec S16384 1) (main_c_5 : IVec S_ 1) : IVec S_ 1 :=
  let main_v16 : IVec S_ 1 := (fun x v => Host.reduce IntOp.andi x v reducesTo_S16384_S_d0 h_S_) main_v15 main_c_5
  let main_v17 : IVec S_ 1 := andi main_v13 main_v16
  let main_c_6 : IVec S_ 32 := constantI S_ 32 250#32
  let main_v18 : IVec S16384 32 := broadcastInDim S16384 ![] bcast_S_S16384 main_c_6
  let main_v19 : IVec S16384 1 := cmpi .slt main_arg1 main_v18
  let main_c_7 : IVec S_ 1 := constantI S_ 1 1#1
  let main_v20 : IVec S_ 1 := (fun x v => Host.reduce IntOp.andi x v reducesTo_S16384_S_d0 h_S_) main_v19 main_c_7
  let main_v21 : IVec S_ 1 := andi main_v17 main_v20
  main_v21

def fn {F : FTy → Type} [FloatOps F] (main_arg0 : FVec F S16384x250 .f32) (main_arg1 : IVec S16384 32) (main_arg2 : FVec F S16384x2048 .f32) (main_arg3 : FVec F S250x250 .f32) : IVec S_ 1 :=
  let main_v0 : FVec F S16384x250 .f32 := Host.absf main_arg0
  let main_cst : FVec F S_ .f32 := constant S_ .f32 0x7F800000#32
  let main_v1 : FVec F S16384x250 .f32 := broadcastInDim S16384x250 ![] bcast_S_S16384x250 main_cst
  let main_v2 : IVec S16384x250 1 := cmpf .olt main_v0 main_v1
  let main_c : IVec S_ 1 := constantI S_ 1 1#1
  let main_v3 : IVec S_ 1 := (fun x v => Host.reduce IntOp.andi x v reducesTo_S16384x250_S_d0_1 h_S_) main_v2 main_c
  let main_v4 : FVec F S16384x2048 .f32 := Host.absf main_arg2
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S250x250 .f32 := Host.absf main_arg3
  let main_cst_2 : FVec F S_ .f32 := constant S_ .f32 0x7F800000#32
  let main_v10 : FVec F S250x250 .f32 := broadcastInDim S250x250 ![] bcast_S_S250x250 main_cst_2
  let main_v11 : IVec S250x250 1 := cmpf .olt main_v9 main_v10
  let main_c_3 : IVec S_ 1 := constantI S_ 1 1#1
  let main_v12 : IVec S_ 1 := (fun x v => Host.reduce IntOp.andi x v reducesTo_S250x250_S_d0_1 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg1 main_v14
  let main_c_5 : IVec S_ 1 := constantI S_ 1 1#1
  fn_part1 (F := F) main_arg1 main_v13 main_v15 main_c_5
-- ==== Kernel.lean ====
abbrev S16384x250 : Shape := ⟨2, ![16384, 250]⟩
abbrev S16384 : Shape := ⟨1, ![16384]⟩
abbrev S16384x2048 : Shape := ⟨2, ![16384, 2048]⟩
abbrev S250x250 : Shape := ⟨2, ![250, 250]⟩
abbrev S1x16384 : Shape := ⟨2, ![1, 16384]⟩
abbrev S2x1x1 : Shape := ⟨3, ![2, 1, 1]⟩
abbrev S2x250x2048 : Shape := ⟨3, ![2, 250, 2048]⟩
abbrev S2x250x1 : Shape := ⟨3, ![2, 250, 1]⟩
abbrev S1024x250 : Shape := ⟨2, ![1024, 250]⟩
abbrev S1x1024 : Shape := ⟨2, ![1, 1024]⟩
abbrev S1024x2048 : Shape := ⟨2, ![1024, 2048]⟩
abbrev S1x1x1 : Shape := ⟨3, ![1, 1, 1]⟩
abbrev S1x250x2048 : Shape := ⟨3, ![1, 250, 2048]⟩
abbrev S1x250x1 : Shape := ⟨3, ![1, 250, 1]⟩
abbrev S1x1 : Shape := ⟨2, ![1, 1]⟩
abbrev S250x2048 : Shape := ⟨2, ![250, 2048]⟩
abbrev S250x1 : Shape := ⟨2, ![250, 1]⟩
abbrev S1024 : Shape := ⟨1, ![1024]⟩
abbrev S1024x1 : Shape := ⟨2, ![1024, 1]⟩
abbrev S250x1024 : Shape := ⟨2, ![250, 1024]⟩
abbrev S1x250x250 : Shape := ⟨3, ![1, 250, 250]⟩
abbrev S1 : Shape := ⟨1, ![1]⟩
abbrev S1x1024x1 : Shape := ⟨3, ![1, 1024, 1]⟩
abbrev S250 : Shape := ⟨1, ![250]⟩
abbrev S_ : Shape := ⟨0, ![]⟩
abbrev S1x250 : Shape := ⟨2, ![1, 250]⟩
abbrev S2048x250 : Shape := ⟨2, ![2048, 250]⟩
abbrev S2x250x250 : Shape := ⟨3, ![2, 250, 250]⟩

abbrev nBuf : Space → Nat
  | .hbm => 162
  | .vmem => 20
  | .smem => 0
  | _ => 0

abbrev hbmTy0_0 (i : Nat) : BufTy := match i % 128 with
  | 0 => ⟨S16384x250, .f32⟩
  | 1 => ⟨S16384, .i32⟩
  | 2 => ⟨S16384x2048, .f32⟩
  | 3 => ⟨S250x250, .f32⟩
  | 4 => ⟨S1x16384, .i32⟩
  | 5 => ⟨S2x1x1, .f32⟩
  | 6 => ⟨S2x250x2048, .f32⟩
  | 7 => ⟨S2x250x1, .f32⟩
  | 8 => ⟨S_, .f32⟩
  | 9 => ⟨S_, .f32⟩
  | 10 => ⟨S_, .f32⟩
  | 11 => ⟨S_, .f32⟩
  | 12 => ⟨S_, .f32⟩
  | 13 => ⟨S250x2048, .f32⟩
  | 14 => ⟨S_, .f32⟩
  | 15 => ⟨S250x1, .f32⟩
  | 16 => ⟨S250, .f32⟩
  | 17 => ⟨S_, .f32⟩
  | 18 => ⟨S250, .f32⟩
  | 19 => ⟨S250, .i1⟩
  | 20 => ⟨S_, .f32⟩
  | 21 => ⟨S250, .f32⟩
  | 22 => ⟨S250, .f32⟩
  | 23 => ⟨S250x1, .f32⟩
  | 24 => ⟨S250x2048, .f32⟩
  | 25 => ⟨S250x2048, .f32⟩
  | 26 => ⟨S250x1, .i1⟩
  | 27 => ⟨S1x250, .i1⟩
  | 28 => ⟨S250x250, .i1⟩
  | 29 => ⟨S250x250, .i1⟩
  | 30 => ⟨S250x250, .i1⟩
  | 31 => ⟨S250, .i32⟩
  | 32 => ⟨S_, .i32⟩
  | 33 => ⟨S_, .i32⟩
  | 34 => ⟨S_, .i32⟩
  | 35 => ⟨S_, .i1⟩
  | 36 => ⟨S_, .f32⟩
  | 37 => ⟨S_, .f32⟩
  | 38 => ⟨S250x250, .f32⟩
  | 39 => ⟨S250x250, .f32⟩
  | 40 => ⟨S250x2048, .f32⟩
  | 41 => ⟨S_, .f32⟩
  | 42 => ⟨S250, .f32⟩
  | 43 => ⟨S250x2048, .f32⟩
  | 44 => ⟨S_, .f32⟩
  | 45 => ⟨S250, .f32⟩
  | 46 => ⟨S250x1, .f32⟩
  | 47 => ⟨S1x250, .f32⟩
  | 48 => ⟨S250x250, .f32⟩
  | 49 => ⟨S250x250, .f32⟩
  | 50 => ⟨S250x250, .f32⟩
  | 51 => ⟨S2048x250, .f32⟩
  | 52 => ⟨S250x250, .f32⟩
  | 53 => ⟨S_, .f32⟩
  | 54 => ⟨S250x250, .f32⟩
  | 55 => ⟨S250x250, .f32⟩
  | 56 => ⟨S250x250, .f32⟩
  | 57 => ⟨S_, .f32⟩
  | 58 => ⟨S_, .f32⟩
  | 59 => ⟨S250x250, .f32⟩
  | 60 => ⟨S250x250, .f32⟩
  | 61 => ⟨S_, .f32⟩
  | 62 => ⟨S250x250, .f32⟩
  | 63 => ⟨S250x250, .f32⟩
  | 64 => ⟨S250x250, .f32⟩
  | 65 => ⟨S_, .f32⟩
  | 66 => ⟨S_, .f32⟩
  | 67 => ⟨S250x250, .f32⟩
  | 68 => ⟨S250x250, .f32⟩
  | 69 => ⟨S_, .f32⟩
  | 70 => ⟨S_, .f32⟩
  | 71 => ⟨S250x250, .f32⟩
  | 72 => ⟨S250x250, .f32⟩
  | 73 => ⟨S_, .i1⟩
  | 74 => ⟨S250x250, .i1⟩
  | 75 => ⟨S250x250, .i32⟩
  | 76 => ⟨S_, .i32⟩
  | 77 => ⟨S250x250, .i32⟩
  | 78 => ⟨S250x250, .i32⟩
  | 79 => ⟨S250x250, .i32⟩
  | 80 => ⟨S250x250, .i1⟩
  | 81 => ⟨S_, .i1⟩
  | 82 => ⟨S250x250, .i1⟩
  | 83 => ⟨S250x250, .i1⟩
  | 84 => ⟨S250x250, .i1⟩
  | 85 => ⟨S250x250, .f32⟩
  | 86 => ⟨S_, .f32⟩
  | 87 => ⟨S_, .f32⟩
  | 88 => ⟨S250x250, .f32⟩
  | 89 => ⟨S250x250, .f32⟩
  | 90 => ⟨S_, .f32⟩
  | 91 => ⟨S_, .f32⟩
  | 92 => ⟨S250x250, .f32⟩
  | 93 => ⟨S250x250, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S250x2048, .f32⟩
  | 103 => ⟨S_, .f32⟩
  | 104 => ⟨S250, .f32⟩
  | 105 => ⟨S250x1, .f32⟩
  | 106 => ⟨S250x1, .f32⟩
  | 107 => ⟨S_, .f32⟩
  | 108 => ⟨S250x1, .f32⟩
  | 109 => ⟨S250x1, .f32⟩
  | 110 => ⟨S250x2048, .f32⟩
  | 111 => ⟨S250x2048, .f32⟩
  | 112 => ⟨S250x2048, .f32⟩
  | 113 => ⟨S_, .f32⟩
  | 114 => ⟨S250, .f32⟩
  | 115 => ⟨S250x1, .f32⟩
  | 116 => ⟨S1x250, .f32⟩
  | 117 => ⟨S2x250x250, .f32⟩
  | 118 => ⟨S_, .f32⟩
  | 119 => ⟨S250x250, .f32⟩
  | 120 => ⟨S_, .f32⟩
  | 121 => ⟨S250, .f32⟩
  | 122 => ⟨S250, .f32⟩
  | 123 => ⟨S250x1, .f32⟩
  | 124 => ⟨S250x250, .f32⟩
  | 125 => ⟨S250x250, .f32⟩
  | 126 => ⟨S250x250, .i32⟩
  | 127 => ⟨S250x250, .i32⟩
  | _ => ⟨S16384x250, .f32⟩

abbrev hbmTy0_1 (i : Nat) : BufTy := match i % 128 with
  | 0 => ⟨S_, .i32⟩
  | 1 => ⟨S250x250, .i32⟩
  | 2 => ⟨S250x250, .i32⟩
  | 3 => ⟨S250x250, .i1⟩
  | 4 => ⟨S250x250, .i1⟩
  | 5 => ⟨S250x250, .i1⟩
  | 6 => ⟨S_, .f32⟩
  | 7 => ⟨S250x250, .f32⟩
  | 8 => ⟨S250x250, .i1⟩
  | 9 => ⟨S250x250, .i1⟩
  | 10 => ⟨S250x250, .f32⟩
  | 11 => ⟨S_, .f32⟩
  | 12 => ⟨S_, .f32⟩
  | 13 => ⟨S_, .f32⟩
  | 14 => ⟨S_, .f32⟩
  | 15 => ⟨S250x250, .f32⟩
  | 16 => ⟨S250x250, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .i1⟩
  | 24 => ⟨S_, .i1⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | _ => ⟨S16384x250, .f32⟩

abbrev hbmTy (i : Nat) : BufTy := match i / 128 with
  | 0 => hbmTy0_0 i
  | 1 => hbmTy0_1 i
  | _ => ⟨S16384x250, .f32⟩

abbrev bufTy : (tb : Table) → Fin (tcTables nBuf tb) → BufTy
  | .hbm, ⟨i, _⟩ => hbmTy i
  | .local _ .vmem, ⟨0, _⟩ => ⟨S1024x250, .f32⟩
  | .local _ .vmem, ⟨1, _⟩ => ⟨S1024x250, .f32⟩
  | .local _ .vmem, ⟨2, _⟩ => ⟨S1x1024, .i32⟩
  | .local _ .vmem, ⟨3, _⟩ => ⟨S1x1024, .i32⟩
  | .local _ .vmem, ⟨4, _⟩ => ⟨S1024x2048, .f32⟩
  | .local _ .vmem, ⟨5, _⟩ => ⟨S1024x2048, .f32⟩
  | .local _ .vmem, ⟨6, _⟩ => ⟨S1x1x1, .f32⟩
  | .local _ .vmem, ⟨7, _⟩ => ⟨S1x1x1, .f32⟩
  | .local _ .vmem, ⟨8, _⟩ => ⟨S1x250x2048, .f32⟩
  | .local _ .vmem, ⟨9, _⟩ => ⟨S1x250x2048, .f32⟩
  | .local _ .vmem, ⟨10, _⟩ => ⟨S1x250x1, .f32⟩
  | .local _ .vmem, ⟨11, _⟩ => ⟨S1x250x1, .f32⟩
  | .local _ .vmem, ⟨12, _⟩ => ⟨S1024x2048, .f32⟩
  | .local _ .vmem, ⟨13, _⟩ => ⟨S1024x2048, .f32⟩
  | .local _ .vmem, ⟨14, _⟩ => ⟨S1x1024, .i32⟩
  | .local _ .vmem, ⟨15, _⟩ => ⟨S1x1024, .i32⟩
  | .local _ .vmem, ⟨16, _⟩ => ⟨S250x2048, .f32⟩
  | .local _ .vmem, ⟨17, _⟩ => ⟨S1x250, .f32⟩
  | .local _ .vmem, ⟨18, _⟩ => ⟨S1x250x250, .f32⟩
  | .local _ .vmem, ⟨19, _⟩ => ⟨S1x250x250, .f32⟩
  | _, _ => ⟨S16384x250, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_cst_4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_call0_v0 : Ref sig .tc := ⟨.hbm, 58, rfl⟩
abbrev main_call0_v1 : Ref sig .tc := ⟨.hbm, 59, rfl⟩
abbrev main_v39 : Ref sig .tc := ⟨.hbm, 60, rfl⟩
abbrev main_cst_11 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_12 : Ref sig .tc := ⟨.hbm, 65, rfl⟩
abbrev main_call1_v0 : Ref sig .tc := ⟨.hbm, 66, rfl⟩
abbrev main_call1_v1 : Ref sig .tc := ⟨.hbm, 67, rfl⟩
abbrev main_v43 : Ref sig .tc := ⟨.hbm, 68, rfl⟩
abbrev main_cst_13 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_14 : Ref sig .tc := ⟨.hbm, 73, rfl⟩
abbrev main_v47 : Ref sig .tc := ⟨.hbm, 74, rfl⟩
abbrev main_call2_v0 : Ref sig .tc := ⟨.hbm, 75, rfl⟩
abbrev main_call2_c : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_c_0 : Ref sig .tc := ⟨.hbm, 81, rfl⟩
abbrev main_call2_v5 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_15 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_16 : Ref sig .tc := ⟨.hbm, 90, rfl⟩
abbrev main_call3_v0 : Ref sig .tc := ⟨.hbm, 91, rfl⟩
abbrev main_call3_v1 : Ref sig .tc := ⟨.hbm, 92, rfl⟩
abbrev main_v54 : Ref sig .tc := ⟨.hbm, 93, rfl⟩
abbrev main_cst_17 : Ref sig .tc := ⟨.hbm, 94, rfl⟩
abbrev main_v55 : Ref sig .tc := ⟨.hbm, 95, rfl⟩
abbrev main_cst_18 : Ref sig .tc := ⟨.hbm, 96, rfl⟩
abbrev main_v56 : Ref sig .tc := ⟨.hbm, 97, rfl⟩
abbrev main_v57 : Ref sig .tc := ⟨.hbm, 98, rfl⟩
abbrev main_cst_19 : Ref sig .tc := ⟨.hbm, 99, rfl⟩
abbrev main_call4_v0 : Ref sig .tc := ⟨.hbm, 100, rfl⟩
abbrev main_v58 : Ref sig .tc := ⟨.hbm, 101, rfl⟩
abbrev main_v59 : Ref sig .tc := ⟨.hbm, 102, rfl⟩
abbrev main_cst_20 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_21 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_22 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_23 : Ref sig .tc := ⟨.hbm, 118, rfl⟩
abbrev main_v72 : Ref sig .tc := ⟨.hbm, 119, rfl⟩
abbrev main_cst_24 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_c_25 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_26 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_27 : Ref sig .tc := ⟨.hbm, 139, rfl⟩
abbrev main_v89 : Ref sig .tc := ⟨.hbm, 140, rfl⟩
abbrev main_cst_28 : Ref sig .tc := ⟨.hbm, 141, rfl⟩
abbrev main_call5_v0 : Ref sig .tc := ⟨.hbm, 142, rfl⟩
abbrev main_call5_v1 : Ref sig .tc := ⟨.hbm, 143, rfl⟩
abbrev main_v90 : Ref sig .tc := ⟨.hbm, 144, rfl⟩
abbrev main_cst_29 : Ref sig .tc := ⟨.hbm, 145, rfl⟩
abbrev main_v91 : Ref sig .tc := ⟨.hbm, 146, rfl⟩
abbrev main_cst_30 : Ref sig .tc := ⟨.hbm, 147, rfl⟩
abbrev main_v92 : Ref sig .tc := ⟨.hbm, 148, rfl⟩
abbrev main_v93 : Ref sig .tc := ⟨.hbm, 149, rfl⟩
abbrev main_cst_31 : Ref sig .tc := ⟨.hbm, 150, rfl⟩
abbrev main_v94 : Ref sig .tc := ⟨.hbm, 151, rfl⟩
abbrev main_v95 : Ref sig .tc := ⟨.hbm, 152, rfl⟩
abbrev main_cst_32 : Ref sig .tc := ⟨.hbm, 153, rfl⟩
abbrev main_call6_v0 : Ref sig .tc := ⟨.hbm, 154, rfl⟩
abbrev main_v96 : Ref sig .tc := ⟨.hbm, 155, rfl⟩
abbrev main_cst_33 : Ref sig .tc := ⟨.hbm, 156, rfl⟩
abbrev main_v97 : Ref sig .tc := ⟨.hbm, 157, rfl⟩
abbrev main_v98 : Ref sig .tc := ⟨.hbm, 158, rfl⟩
abbrev main_cst_34 : Ref sig .tc := ⟨.hbm, 159, rfl⟩
abbrev main_v99 : Ref sig .tc := ⟨.hbm, 160, rfl⟩
abbrev main_v100 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x250 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x250x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x250x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S250x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x250 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x250x250 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S16384_S1x16384 : S16384.ShapeCasts S1x16384
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x250x2048_S1x250x2048_0_0_0 : ∀ a, (![0, 0, 0] : Fin 3 → Nat) a + S1x250x2048.size a ≤ S1x250x2048.size a
  h_S1x250x2048 : 0 < S1x250x2048.numel
  shapeCasts_S1x250x2048_S250x2048 : S1x250x2048.ShapeCasts S250x2048
  shapeCasts_S250x2048_S1x250x2048 : S250x2048.ShapeCasts S1x250x2048
  inb_S1x250x1_S1x250x1_0_0_0 : ∀ a, (![0, 0, 0] : Fin 3 → Nat) a + S1x250x1.size a ≤ S1x250x1.size a
  h_S1x250x1 : 0 < S1x250x1.numel
  shapeCasts_S1x250x1_S250x1 : S1x250x1.ShapeCasts S250x1
  shapeCasts_S250x1_S1x250x1 : S250x1.ShapeCasts S1x250x1
  inb_S1024x250_S1024x250_0_0 : ∀ a, (![0, 0] : Fin 2 → Nat) a + S1024x250.size a ≤ S1024x250.size a
  h_S1024x250 : 0 < S1024x250.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1024x250_S1024 : S1024x250.Reduces [1] S1024
  shapeCasts_S1024_S1024x1 : S1024.ShapeCasts S1024x1
  broadcasts_S1024x1_S1024x250 : S1024x1.Broadcasts S1024x250
  iota_S250x1024_d0_w32 : S250x1024.Iotas .tc 32 [0]
  broadcasts_S1x1024_S250x1024 : S1x1024.Broadcasts S250x1024
  natLt_1_32 : 1 < 32
  bitsLt_bf16_f32 : FTy.bits .bf16 < FTy.bits .f32
  iota_S250x250_d0_w32 : S250x250.Iotas .tc 32 [0]
  iota_S250x250_d1_w32 : S250x250.Iotas .tc 32 [1]
  shapeCasts_S250x250_S1x250x250 : S250x250.ShapeCasts S1x250x250
  reduces_S1x250x250_S1 : S1x250x250.Reduces [1, 2] S1
  shapeCasts_S1_S1x1x1 : S1.ShapeCasts S1x1x1
  inpos_S1x1x1_p0_0_0 : ∀ a, (![0, 0, 0] : Fin 3 → Nat) a < S1x1x1.size a
  shapeCasts_S1024x1_S1x1024x1 : S1024x1.ShapeCasts S1x1024x1
  reduces_S1x1024x1_S1 : S1x1024x1.Reduces [1, 2] S1
  inb_S1024x2048_S1024x2048_0_0 : ∀ a, (![0, 0] : Fin 2 → Nat) a + S1024x2048.size a ≤ S1024x2048.size a
  h_S1024x2048 : 0 < S1024x2048.numel
  reduces_S250x1024_S250 : S250x1024.Reduces [1] S250
  shapeCasts_S250_S250x1 : S250.ShapeCasts S250x1
  reducesTo_S2x1x1_S_d0_1_2 : S2x1x1.ReducesTo [0, 1, 2] S_
  h_S_ : 0 < S_.numel
  reducesTo_S2x250x2048_S250x2048_d0 : S2x250x2048.ReducesTo [0] S250x2048
  reducesTo_S2x250x1_S250x1_d0 : S2x250x1.ReducesTo [0] S250x1
  shapeCasts_S250x1_S250 : S250x1.ShapeCasts S250
  bcast_S_S250 : S_.BroadcastsInDim S250 (![] : Fin 0 → Fin S250.rank)
  bcast_S250_S250x1_0 : S250.BroadcastsInDim S250x1 (![0] : Fin 1 → Fin S250x1.rank)
  bcast_S250x1_S250x2048_0_1 : S250x1.BroadcastsInDim S250x2048 (![0, 1] : Fin 2 → Fin S250x2048.rank)
  bcast_S250_S1x250_1 : S250.BroadcastsInDim S1x250 (![1] : Fin 1 → Fin S1x250.rank)
  bcast_S250x1_S250x250_0_1 : S250x1.BroadcastsInDim S250x250 (![0, 1] : Fin 2 → Fin S250x250.rank)
  bcast_S1x250_S250x250_0_1 : S1x250.BroadcastsInDim S250x250 (![0, 1] : Fin 2 → Fin S250x250.rank)
  reducesTo_S250_S_d0 : S250.ReducesTo [0] S_
  reducesTo_S250x250_S_d0_1 : S250x250.ReducesTo [0, 1] S_
  bcast_S_S250x250 : S_.BroadcastsInDim S250x250 (![] : Fin 0 → Fin S250x250.rank)
  reducesTo_S250x2048_S250_d1 : S250x2048.ReducesTo [1] S250
  transposes_S250x2048_S2048x250_1_0 : S250x2048.Transposes [1, 0] S2048x250
  bcast_S_S250x1 : S_.BroadcastsInDim S250x1 (![] : Fin 0 → Fin S250x1.rank)
  shapeCasts_S250x1_S1x250 : S250x1.ShapeCasts S1x250
  inb_S1x250x250_S1x250x250_0_0_0 : ∀ a, (![0, 0, 0] : Fin 3 → Nat) a + S1x250x250.size a ≤ S1x250x250.size a
  h_S1x250x250 : 0 < S1x250x250.numel
  shapeCasts_S1x250x250_S250x250 : S1x250x250.ShapeCasts S250x250
  reduces_S1024x2048_S1024 : S1024x2048.Reduces [1] S1024
  broadcasts_S1024x1_S1024x2048 : S1024x1.Broadcasts S1024x2048
  inb_S250x2048_S250x2048_0_0 : ∀ a, (![0, 0] : Fin 2 → Nat) a + S250x2048.size a ≤ S250x2048.size a
  h_S250x2048 : 0 < S250x2048.numel
  shapeCasts_S250x2048_S250x2048 : S250x2048.ShapeCasts S250x2048
  inb_S1x250_S1x250_0_0 : ∀ a, (![0, 0] : Fin 2 → Nat) a + S1x250.size a ≤ S1x250.size a
  h_S1x250 : 0 < S1x250.numel
  shapeCasts_S1x250_S1x250 : S1x250.ShapeCasts S1x250
  broadcasts_S1x250_S1024x250 : S1x250.Broadcasts S1024x250
  reducesTo_S2x250x250_S250x250_d0 : S2x250x250.ReducesTo [0] S250x250
  dot_S250x1024_S1024x250_S250x250_1_0_0_1_n_n_wf : DotDims.WF S250x1024 S1024x250 S250x250 [1] [0] [0] [1] [] []
  dot_S250x1024_S1024x2048_S250x2048_1_0_0_1_n_n_wf : DotDims.WF S250x1024 S1024x2048 S250x2048 [1] [0] [0] [1] [] []
  dot_S250x2048_S2048x250_S250x250_1_0_0_1_n_n_wf : DotDims.WF S250x2048 S2048x250 S250x250 [1] [0] [0] [1] [] []
  dot_S1024x2048_S250x2048_S1024x250_1_1_0_0_n_n_wf : DotDims.WF S1024x2048 S250x2048 S1024x250 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x250.size a ≤ S16384x250.size a
  hwx0_0 : ∀ i : grid0.Coords, EltTy.bits .f32 = 32 ∨ (Rect.block (s := S16384x250) S1024x250.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x16384.size a
  hwx0_1 : ∀ i : grid0.Coords, EltTy.bits .i32 = 32 ∨ (Rect.block (s := S1x16384) S1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S16384x2048.size a
  hwx0_2 : ∀ i : grid0.Coords, EltTy.bits .f32 = 32 ∨ (Rect.block (s := S16384x2048) S1024x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x250x2048.size a ≤ S2x250x2048.size a
  hwx0_4 : ∀ i : grid0.Coords, EltTy.bits .f32 = 32 ∨ (Rect.block (s := S2x250x2048) S1x250x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x250x1.size a ≤ S2x250x1.size a
  hwx0_5 : ∀ i : grid0.Coords, EltTy.bits .f32 = 32 ∨ (Rect.block (s := S2x250x1) S1x250x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x2048.size a
  hwx1_0 : ∀ i : grid1.Coords, EltTy.bits .f32 = 32 ∨ (Rect.block (s := S16384x2048) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x16384.size a
  hwx1_1 : ∀ i : grid1.Coords, EltTy.bits .i32 = 32 ∨ (Rect.block (s := S1x16384) S1x1024.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S250x2048.size a ≤ S250x2048.size a
  hwx1_2 : ∀ i : grid1.Coords, EltTy.bits .f32 = 32 ∨ (Rect.block (s := S250x2048) S250x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x250.size a ≤ S1x250.size a
  hwx1_3 : ∀ i : grid1.Coords, EltTy.bits .f32 = 32 ∨ (Rect.block (s := S1x250) S1x250.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x250x250.size a ≤ S2x250x250.size a
  hwx1_4 : ∀ i : grid1.Coords, EltTy.bits .f32 = 32 ∨ (Rect.block (s := S2x250x250) S1x250x250.size (cc1_transform_4 i) (hinb1_4 i)).WholeWords (EltTy.packing .f32)

variable [Facts₀]

def dot_S250x1024_S1024x250_S250x250_1_0_0_1_n_n : DotDims S250x1024 S1024x250 S250x250 where
  lhsContracting := [1]
  rhsContracting := [0]
  lhsNonContracting := [0]
  rhsNonContracting := [1]
  lhsBatch := []
  rhsBatch := []
  wf := dot_S250x1024_S1024x250_S250x250_1_0_0_1_n_n_wf
def dot_S250x1024_S1024x2048_S250x2048_1_0_0_1_n_n : DotDims S250x1024 S1024x2048 S250x2048 where
  lhsContracting := [1]
  rhsContracting := [0]
  lhsNonContracting := [0]
  rhsNonContracting := [1]
  lhsBatch := []
  rhsBatch := []
  wf := dot_S250x1024_S1024x2048_S250x2048_1_0_0_1_n_n_wf
def dot_S250x2048_S2048x250_S250x250_1_0_0_1_n_n : DotDims S250x2048 S2048x250 S250x250 where
  lhsContracting := [1]
  rhsContracting := [0]
  lhsNonContracting := [0]
  rhsNonContracting := [1]
  lhsBatch := []
  rhsBatch := []
  wf := dot_S250x2048_S2048x250_S250x250_1_0_0_1_n_n_wf
def dot_S1024x2048_S250x2048_S1024x250_1_1_0_0_n_n : DotDims S1024x2048 S250x2048 S1024x250 where
  lhsContracting := [1]
  rhsContracting := [1]
  lhsNonContracting := [0]
  rhsNonContracting := [0]
  lhsBatch := []
  rhsBatch := []
  wf := dot_S1024x2048_S250x2048_S1024x250_1_1_0_0_n_n_wf

abbrev win0_0 : Pipeline.Window sig grid0 :=
  Pipeline.Window.ofSpec (Memref.whole main_arg0) S1024x250.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x250x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x250x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v66) S250x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v70) S1x250.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v71) S1x250x250.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16384x250 : Shape := ⟨2, ![16384, 250]⟩
abbrev S16384 : Shape := ⟨1, ![16384]⟩
abbrev S16384x2048 : Shape := ⟨2, ![16384, 2048]⟩
abbrev S250x250 : Shape := ⟨2, ![250, 250]⟩
abbrev S_ : Shape := ⟨0, ![]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩
abbrev S250x2048 : Shape := ⟨2, ![250, 2048]⟩
abbrev S250 : Shape := ⟨1, ![250]⟩
abbrev S250x1 : Shape := ⟨2, ![250, 1]⟩
abbrev S1x250 : Shape := ⟨2, ![1, 250]⟩
abbrev S2048x250 : Shape := ⟨2, ![2048, 250]⟩

abbrev nBuf : Space → Nat
  | .hbm => 236
  | .vmem => 0
  | .smem => 0
  | _ => 0

abbrev hbmTy0_0 (i : Nat) : BufTy := match i % 128 with
  | 0 => ⟨S16384x250, .f32⟩
  | 1 => ⟨S16384, .i32⟩
  | 2 => ⟨S16384x2048, .f32⟩
  | 3 => ⟨S250x250, .f32⟩
  | 4 => ⟨S_, .f32⟩
  | 5 => ⟨S_, .f32⟩
  | 6 => ⟨S250x250, .f32⟩
  | 7 => ⟨S250x250, .f32⟩
  | 8 => ⟨S_, .f32⟩
  | 9 => ⟨S16384, .f32⟩
  | 10 => ⟨S_, .f32⟩
  | 11 => ⟨S16384, .f32⟩
  | 12 => ⟨S16384, .f32⟩
  | 13 => ⟨S16384x1, .f32⟩
  | 14 => ⟨S16384x250, .f32⟩
  | 15 => ⟨S16384x250, .f32⟩
  | 16 => ⟨S16384x250, .f32⟩
  | 17 => ⟨S_, .f32⟩
  | 18 => ⟨S16384, .f32⟩
  | 19 => ⟨S16384x1, .f32⟩
  | 20 => ⟨S16384x1, .f32⟩
  | 21 => ⟨S16384x250, .f32⟩
  | 22 => ⟨S16384x250, .f32⟩
  | 23 => ⟨S16384x1, .i32⟩
  | 24 => ⟨S_, .i32⟩
  | 25 => ⟨S16384x1, .i32⟩
  | 26 => ⟨S16384x1, .i1⟩
  | 27 => ⟨S_, .i32⟩
  | 28 => ⟨S16384x1, .i32⟩
  | 29 => ⟨S16384x1, .i32⟩
  | 30 => ⟨S16384x1, .i32⟩
  | 31 => ⟨S16384x1x1, .i32⟩
  | 32 => ⟨S1, .i32⟩
  | 33 => ⟨S_, .i32⟩
  | 34 => ⟨S16384x1x1, .i32⟩
  | 35 => ⟨S16384x1x1, .i1⟩
  | 36 => ⟨S1x1x1, .i32⟩
  | 37 => ⟨S16384x1x1, .i32⟩
  | 38 => ⟨S16384x1x1, .i1⟩
  | 39 => ⟨S16384x1x1, .i1⟩
  | 40 => ⟨S_, .i1⟩
  | 41 => ⟨S16384x1, .i1⟩
  | 42 => ⟨S16384x1, .f32⟩
  | 43 => ⟨S_, .f32⟩
  | 44 => ⟨S16384x1, .f32⟩
  | 45 => ⟨S16384x1, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S250x2048, .f32⟩
  | 53 => ⟨S16384x1, .i32⟩
  | 54 => ⟨S250x2048, .f32⟩
  | 55 => ⟨S_, .f32⟩
  | 56 => ⟨S16384, .f32⟩
  | 57 => ⟨S_, .f32⟩
  | 58 => ⟨S250, .f32⟩
  | 59 => ⟨S16384x1, .i32⟩
  | 60 => ⟨S250, .f32⟩
  | 61 => ⟨S_, .f32⟩
  | 62 => ⟨S250, .f32⟩
  | 63 => ⟨S250, .i1⟩
  | 64 => ⟨S_, .f32⟩
  | 65 => ⟨S250, .f32⟩
  | 66 => ⟨S250, .f32⟩
  | 67 => ⟨S250x1, .f32⟩
  | 68 => ⟨S250x2048, .f32⟩
  | 69 => ⟨S250x2048, .f32⟩
  | 70 => ⟨S250x1, .i1⟩
  | 71 => ⟨S1x250, .i1⟩
  | 72 => ⟨S250x250, .i1⟩
  | 73 => ⟨S250x250, .i1⟩
  | 74 => ⟨S250x250, .i1⟩
  | 75 => ⟨S250, .i32⟩
  | 76 => ⟨S_, .i32⟩
  | 77 => ⟨S_, .i32⟩
  | 78 => ⟨S_, .i32⟩
  | 79 => ⟨S_, .i1⟩
  | 80 => ⟨S250x2048, .f32⟩
  | 81 => ⟨S_, .f32⟩
  | 82 => ⟨S250, .f32⟩
  | 83 => ⟨S250x2048, .f32⟩
  | 84 => ⟨S_, .f32⟩
  | 85 => ⟨S250, .f32⟩
  | 86 => ⟨S250x1, .f32⟩
  | 87 => ⟨S1x250, .f32⟩
  | 88 => ⟨S250x250, .f32⟩
  | 89 => ⟨S250x250, .f32⟩
  | 90 => ⟨S250x250, .f32⟩
  | 91 => ⟨S2048x250, .f32⟩
  | 92 => ⟨S250x250, .f32⟩
  | 93 => ⟨S_, .f32⟩
  | 94 => ⟨S250x250, .f32⟩
  | 95 => ⟨S250x250, .f32⟩
  | 96 => ⟨S250x250, .f32⟩
  | 97 => ⟨S_, .f32⟩
  | 98 => ⟨S_, .f32⟩
  | 99 => ⟨S250x250, .f32⟩
  | 100 => ⟨S250x250, .f32⟩
  | 101 => ⟨S_, .f32⟩
  | 102 => ⟨S250x250, .f32⟩
  | 103 => ⟨S250x250, .f32⟩
  | 104 => ⟨S250x250, .f32⟩
  | 105 => ⟨S_, .f32⟩
  | 106 => ⟨S_, .f32⟩
  | 107 => ⟨S250x250, .f32⟩
  | 108 => ⟨S250x250, .f32⟩
  | 109 => ⟨S_, .f32⟩
  | 110 => ⟨S_, .f32⟩
  | 111 => ⟨S250x250, .f32⟩
  | 112 => ⟨S250x250, .f32⟩
  | 113 => ⟨S_, .i1⟩
  | 114 => ⟨S250x250, .i1⟩
  | 115 => ⟨S250x250, .i32⟩
  | 116 => ⟨S_, .i32⟩
  | 117 => ⟨S250x250, .i32⟩
  | 118 => ⟨S250x250, .i32⟩
  | 119 => ⟨S250x250, .i32⟩
  | 120 => ⟨S250x250, .i1⟩
  | 121 => ⟨S_, .i1⟩
  | 122 => ⟨S250x250, .i1⟩
  | 123 => ⟨S250x250, .i1⟩
  | 124 => ⟨S250x250, .i1⟩
  | 125 => ⟨S250x250, .f32⟩
  | 126 => ⟨S_, .f32⟩
  | 127 => ⟨S_, .f32⟩
  | _ => ⟨S16384x250, .f32⟩

abbrev hbmTy0_1 (i : Nat) : BufTy := match i % 128 with
  | 0 => ⟨S250x250, .f32⟩
  | 1 => ⟨S250x250, .f32⟩
  | 2 => ⟨S_, .f32⟩
  | 3 => ⟨S_, .f32⟩
  | 4 => ⟨S250x250, .f32⟩
  | 5 => ⟨S250x250, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S16384x2048, .f32⟩
  | 15 => ⟨S_, .f32⟩
  | 16 => ⟨S16384, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x2048, .f32⟩
  | 23 => ⟨S16384x2048, .f32⟩
  | 24 => ⟨S250x2048, .f32⟩
  | 25 => ⟨S_, .f32⟩
  | 26 => ⟨S250, .f32⟩
  | 27 => ⟨S250x1, .f32⟩
  | 28 => ⟨S250x1, .f32⟩
  | 29 => ⟨S_, .f32⟩
  | 30 => ⟨S250x1, .f32⟩
  | 31 => ⟨S250x1, .f32⟩
  | 32 => ⟨S250x2048, .f32⟩
  | 33 => ⟨S250x2048, .f32⟩
  | 34 => ⟨S16384x2048, .f32⟩
  | 35 => ⟨S_, .f32⟩
  | 36 => ⟨S16384, .f32⟩
  | 37 => ⟨S250x2048, .f32⟩
  | 38 => ⟨S_, .f32⟩
  | 39 => ⟨S250, .f32⟩
  | 40 => ⟨S16384x1, .f32⟩
  | 41 => ⟨S1x250, .f32⟩
  | 42 => ⟨S16384x250, .f32⟩
  | 43 => ⟨S16384x250, .f32⟩
  | 44 => ⟨S16384x250, .f32⟩
  | 45 => ⟨S2048x250, .f32⟩
  | 46 => ⟨S16384x250, .f32⟩
  | 47 => ⟨S_, .f32⟩
  | 48 => ⟨S16384x250, .f32⟩
  | 49 => ⟨S16384x250, .f32⟩
  | 50 => ⟨S16384x250, .f32⟩
  | 51 => ⟨S_, .f32⟩
  | 52 => ⟨S_, .f32⟩
  | 53 => ⟨S16384x250, .f32⟩
  | 54 => ⟨S16384x250, .f32⟩
  | 55 => ⟨S16384x250, .f32⟩
  | 56 => ⟨S_, .f32⟩
  | 57 => ⟨S16384x250, .f32⟩
  | 58 => ⟨S16384x250, .f32⟩
  | 59 => ⟨S_, .f32⟩
  | 60 => ⟨S16384x250, .f32⟩
  | 61 => ⟨S16384x250, .f32⟩
  | 62 => ⟨S_, .f32⟩
  | 63 => ⟨S250x250, .f32⟩
  | 64 => ⟨S16384x1, .i32⟩
  | 65 => ⟨S250x250, .f32⟩
  | 66 => ⟨S_, .f32⟩
  | 67 => ⟨S250, .f32⟩
  | 68 => ⟨S250, .f32⟩
  | 69 => ⟨S250x1, .f32⟩
  | 70 => ⟨S250x250, .f32⟩
  | 71 => ⟨S250x250, .f32⟩
  | 72 => ⟨S250x250, .i32⟩
  | 73 => ⟨S250x250, .i32⟩
  | 74 => ⟨S_, .i32⟩
  | 75 => ⟨S250x250, .i32⟩
  | 76 => ⟨S250x250, .i32⟩
  | 77 => ⟨S250x250, .i1⟩
  | 78 => ⟨S250x250, .i1⟩
  | 79 => ⟨S250x250, .i1⟩
  | 80 => ⟨S_, .f32⟩
  | 81 => ⟨S250x250, .f32⟩
  | 82 => ⟨S250x250, .i1⟩
  | 83 => ⟨S250x250, .i1⟩
  | 84 => ⟨S250x250, .f32⟩
  | 85 => ⟨S_, .f32⟩
  | 86 => ⟨S_, .f32⟩
  | 87 => ⟨S_, .f32⟩
  | 88 => ⟨S_, .f32⟩
  | 89 => ⟨S250x250, .f32⟩
  | 90 => ⟨S250x250, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .i1⟩
  | 98 => ⟨S_, .i1⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | _ => ⟨S16384x250, .f32⟩

abbrev hbmTy (i : Nat) : BufTy := match i / 128 with
  | 0 => hbmTy0_0 i
  | 1 => hbmTy0_1 i
  | _ => ⟨S16384x250, .f32⟩

abbrev bufTy : (tb : Table) → Fin (tcTables nBuf tb) → BufTy
  | .hbm, ⟨i, _⟩ => hbmTy i
  | _, _ => ⟨S16384x250, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v3 : Ref sig .tc := ⟨.hbm, 22, rfl⟩
abbrev main_v4 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v5 : Ref sig .tc := ⟨.hbm, 45, rfl⟩
abbrev main_cst_0 : Ref sig .tc := ⟨.hbm, 46, rfl⟩
abbrev main_v6 : Ref sig .tc := ⟨.hbm, 47, rfl⟩
abbrev main_cst_1 : Ref sig .tc := ⟨.hbm, 48, rfl⟩
abbrev main_v7 : Ref sig .tc := ⟨.hbm, 49, rfl⟩
abbrev main_v8 : Ref sig .tc := ⟨.hbm, 50, rfl⟩
abbrev main_cst_2 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_cst_3 : Ref sig .tc := ⟨.hbm, 55, rfl⟩
abbrev main_v12 : Ref sig .tc := ⟨.hbm, 56, rfl⟩
abbrev main_cst_4 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_cst_5 : Ref sig .tc := ⟨.hbm, 61, rfl⟩
abbrev main_v16 : Ref sig .tc := ⟨.hbm, 62, rfl⟩
abbrev main_v17 : Ref sig .tc := ⟨.hbm, 63, rfl⟩
abbrev main_cst_6 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_c : Ref sig .tc := ⟨.hbm, 76, rfl⟩
abbrev main_v29 : Ref sig .tc := ⟨.hbm, 77, rfl⟩
abbrev main_c_7 : Ref sig .tc := ⟨.hbm, 78, rfl⟩
abbrev main_v30 : Ref sig .tc := ⟨.hbm, 79, rfl⟩
abbrev main_v31 : Ref sig .tc := ⟨.hbm, 80, rfl⟩
abbrev main_cst_8 : Ref sig .tc := ⟨.hbm, 81, rfl⟩
abbrev main_v32 : Ref sig .tc := ⟨.hbm, 82, rfl⟩
abbrev main_v33 : Ref sig .tc := ⟨.hbm, 83, rfl⟩
abbrev main_cst_9 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_cst_10 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_cst_11 : Ref sig .tc := ⟨.hbm, 97, rfl⟩
abbrev main_call2_v0 : Ref sig .tc := ⟨.hbm, 98, rfl⟩
abbrev main_call2_v1 : Ref sig .tc := ⟨.hbm, 99, rfl⟩
abbrev main_v45 : Ref sig .tc := ⟨.hbm, 100, rfl⟩
abbrev main_cst_12 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_cst_13 : Ref sig .tc := ⟨.hbm, 105, rfl⟩
abbrev main_call3_v0 : Ref sig .tc := ⟨.hbm, 106, rfl⟩
abbrev main_call3_v1 : Ref sig .tc := ⟨.hbm, 107, rfl⟩
abbrev main_v49 : Ref sig .tc := ⟨.hbm, 108, rfl⟩
abbrev main_cst_14 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_c_15 : Ref sig .tc := ⟨.hbm, 113, rfl⟩
abbrev main_v53 : Ref sig .tc := ⟨.hbm, 114, rfl⟩
abbrev main_call4_v0 : Ref sig .tc := ⟨.hbm, 115, rfl⟩
abbrev main_call4_c : Ref sig .tc := ⟨.hbm, 116, rfl⟩
abbrev main_call4_v1 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_c_0 : Ref sig .tc := ⟨.hbm, 121, rfl⟩
abbrev main_call4_v5 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_cst_16 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_cst_17 : Ref sig .tc := ⟨.hbm, 130, rfl⟩
abbrev main_call5_v0 : Ref sig .tc := ⟨.hbm, 131, rfl⟩
abbrev main_call5_v1 : Ref sig .tc := ⟨.hbm, 132, rfl⟩
abbrev main_v60 : Ref sig .tc := ⟨.hbm, 133, rfl⟩
abbrev main_cst_18 : Ref sig .tc := ⟨.hbm, 134, rfl⟩
abbrev main_v61 : Ref sig .tc := ⟨.hbm, 135, rfl⟩
abbrev main_cst_19 : Ref sig .tc := ⟨.hbm, 136, rfl⟩
abbrev main_v62 : Ref sig .tc := ⟨.hbm, 137, rfl⟩
abbrev main_v63 : Ref sig .tc := ⟨.hbm, 138, rfl⟩
abbrev main_cst_20 : Ref sig .tc := ⟨.hbm, 139, rfl⟩
abbrev main_call6_v0 : Ref sig .tc := ⟨.hbm, 140, rfl⟩
abbrev main_v64 : Ref sig .tc := ⟨.hbm, 141, rfl⟩
abbrev main_v65 : Ref sig .tc := ⟨.hbm, 142, rfl⟩
abbrev main_cst_21 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_cst_22 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_cst_23 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_cst_24 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_cst_25 : Ref sig .tc := ⟨.hbm, 163, rfl⟩
abbrev main_v82 : Ref sig .tc := ⟨.hbm, 164, rfl⟩
abbrev main_v83 : Ref sig .tc := ⟨.hbm, 165, rfl⟩
abbrev main_cst_26 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_cst_27 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_cst_28 : Ref sig .tc := ⟨.hbm, 179, rfl⟩
abbrev main_call7_v0 : Ref sig .tc := ⟨.hbm, 180, rfl⟩
abbrev main_call7_v1 : Ref sig .tc := ⟨.hbm, 181, rfl⟩
abbrev main_v95 : Ref sig .tc := ⟨.hbm, 182, rfl⟩
abbrev main_v96 : Ref sig .tc := ⟨.hbm, 183, rfl⟩
abbrev main_cst_29 : Ref sig .tc := ⟨.hbm, 184, rfl⟩
abbrev main_v97 : Ref sig .tc := ⟨.hbm, 185, rfl⟩
abbrev main_v98 : Ref sig .tc := ⟨.hbm, 186, rfl⟩
abbrev main_call8_cst : Ref sig .tc := ⟨.hbm, 187, rfl⟩
abbrev main_call8_v0 : Ref sig .tc := ⟨.hbm, 188, rfl⟩
abbrev main_v99 : Ref sig .tc := ⟨.hbm, 189, rfl⟩
abbrev main_cst_30 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_cst_31 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_c_32 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_cst_33 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_cst_34 : Ref sig .tc := ⟨.hbm, 213, rfl⟩
abbrev main_v119 : Ref sig .tc := ⟨.hbm, 214, rfl⟩
abbrev main_cst_35 : Ref sig .tc := ⟨.hbm, 215, rfl⟩
abbrev main_call9_v0 : Ref sig .tc := ⟨.hbm, 216, rfl⟩
abbrev main_call9_v1 : Ref sig .tc := ⟨.hbm, 217, rfl⟩
abbrev main_v120 : Ref sig .tc := ⟨.hbm, 218, rfl⟩
abbrev main_cst_36 : Ref sig .tc := ⟨.hbm, 219, rfl⟩
abbrev main_v121 : Ref sig .tc := ⟨.hbm, 220, rfl⟩
abbrev main_cst_37 : Ref sig .tc := ⟨.hbm, 221, rfl⟩
abbrev main_v122 : Ref sig .tc := ⟨.hbm, 222, rfl⟩
abbrev main_v123 : Ref sig .tc := ⟨.hbm, 223, rfl⟩
abbrev main_cst_38 : Ref sig .tc := ⟨.hbm, 224, rfl⟩
abbrev main_v124 : Ref sig .tc := ⟨.hbm, 225, rfl⟩
abbrev main_v125 : Ref sig .tc := ⟨.hbm, 226, rfl⟩
abbrev main_cst_39 : Ref sig .tc := ⟨.hbm, 227, rfl⟩
abbrev main_call10_v0 : Ref sig .tc := ⟨.hbm, 228, rfl⟩
abbrev main_v126 : Ref sig .tc := ⟨.hbm, 229, rfl⟩
abbrev main_cst_40 : Ref sig .tc := ⟨.hbm, 230, rfl⟩
abbrev main_v127 : Ref sig .tc := ⟨.hbm, 231, rfl⟩
abbrev main_v128 : Ref sig .tc := ⟨.hbm, 232, rfl⟩
abbrev main_cst_41 : Ref sig .tc := ⟨.hbm, 233, rfl⟩
abbrev main_v129 : Ref sig .tc := ⟨.hbm, 234, rfl⟩
abbrev main_v130 : Ref sig .tc := ⟨.hbm, 235, rfl⟩

abbrev nD : Nat := 1
abbrev τ : Topo := Topo.v7x

variable {F : FTy → Type} [FloatOps F]

class Facts₀ : Prop where
  reducesTo_S250x250_S_d0_1 : S250x250.ReducesTo [0, 1] S_
  h_S_ : 0 < S_.numel
  bcast_S_S250x250 : S_.BroadcastsInDim S250x250 (![] : Fin 0 → Fin S250x250.rank)
  reducesTo_S16384x250_S16384_d1 : S16384x250.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x250_0_1 : S16384x1.BroadcastsInDim S16384x250 (![0, 1] : Fin 2 → Fin S16384x250.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  reducesTo_S16384x1_S_d0_1 : S16384x1.ReducesTo [0, 1] S_
  bcast_S_S250x2048 : S_.BroadcastsInDim S250x2048 (![] : Fin 0 → Fin S250x2048.rank)
  bcast_S_S250 : S_.BroadcastsInDim S250 (![] : Fin 0 → Fin S250.rank)
  bcast_S250_S250x1_0 : S250.BroadcastsInDim S250x1 (![0] : Fin 1 → Fin S250x1.rank)
  bcast_S250x1_S250x2048_0_1 : S250x1.BroadcastsInDim S250x2048 (![0, 1] : Fin 2 → Fin S250x2048.rank)
  bcast_S250_S1x250_1 : S250.BroadcastsInDim S1x250 (![1] : Fin 1 → Fin S1x250.rank)
  bcast_S250x1_S250x250_0_1 : S250x1.BroadcastsInDim S250x250 (![0, 1] : Fin 2 → Fin S250x250.rank)
  bcast_S1x250_S250x250_0_1 : S1x250.BroadcastsInDim S250x250 (![0, 1] : Fin 2 → Fin S250x250.rank)
  natLt_1_32 : 1 < 32
  reducesTo_S250_S_d0 : S250.ReducesTo [0] S_
  reducesTo_S250x2048_S250_d1 : S250x2048.ReducesTo [1] S250
  transposes_S250x2048_S2048x250_1_0 : S250x2048.Transposes [1, 0] S2048x250
  reducesTo_S16384x2048_S16384_d1 : S16384x2048.ReducesTo [1] S16384
  bcast_S16384x1_S16384x2048_0_1 : S16384x1.BroadcastsInDim S16384x2048 (![0, 1] : Fin 2 → Fin S16384x2048.rank)
  bcast_S_S250x1 : S_.BroadcastsInDim S250x1 (![] : Fin 0 → Fin S250x1.rank)
  bcast_S1x250_S16384x250_0_1 : S1x250.BroadcastsInDim S16384x250 (![0, 1] : Fin 2 → Fin S16384x250.rank)
  bcast_S_S16384x250 : S_.BroadcastsInDim S16384x250 (![] : Fin 0 → Fin S16384x250.rank)
  gather_S16384x250_S16384x1x1_S16384x1_n_1_0_0_1_2_11_wf : GatherDims.WF S16384x250 S16384x1x1 S16384x1 [] [1] [0] [1] [0] 2 ![1, 1]
  scatter_S250x2048_S16384x1_S16384x2048_1_0_0_1_wf : ScatterDims.WF S250x2048 S16384x1 S16384x2048 [1] [0] [0] 1
  scatter_S250_S16384x1_S16384_n_0_0_1_wf : ScatterDims.WF S250 S16384x1 S16384 [] [0] [0] 1
  dot_S250x2048_S2048x250_S250x250_1_0_0_1_n_n_wf : DotDims.WF S250x2048 S2048x250 S250x250 [1] [0] [0] [1] [] []
  dot_S16384x2048_S2048x250_S16384x250_1_0_0_1_n_n_wf : DotDims.WF S16384x2048 S2048x250 S16384x250 [1] [0] [0] [1] [] []
  scatter_S250x250_S16384x1_S16384x250_1_0_0_1_wf : ScatterDims.WF S250x250 S16384x1 S16384x250 [1] [0] [0] 1

variable [Facts₀]

def gather_S16384x250_S16384x1x1_S16384x1_n_1_0_0_1_2_11 : GatherDims S16384x250 S16384x1x1 S16384x1 where
  offsetDims := []
  collapsedSliceDims := [1]
  operandBatchingDims := [0]
  startIndicesBatchingDims := [0]
  startIndexMap := [1]
  indexVectorDim := 2
  sliceSizes := ![1, 1]
  wf := gather_S16384x250_S16384x1x1_S16384x1_n_1_0_0_1_2_11_wf
def scatter_S250x2048_S16384x1_S16384x2048_1_0_0_1 : ScatterDims S250x2048 S16384x1 S16384x2048 where
  updateWindowDims := [1]
  insertedWindowDims := [0]
  scatterDimsToOperandDims := [0]
  indexVectorDim := 1
  wf := scatter_S250x2048_S16384x1_S16384x2048_1_0_0_1_wf
def scatter_S250_S16384x1_S16384_n_0_0_1 : ScatterDims S250 S16384x1 S16384 where
  updateWindowDims := []
  insertedWindowDims := [0]
  scatterDimsToOperandDims := [0]
  indexVectorDim := 1
  wf := scatter_S250_S16384x1_S16384_n_0_0_1_wf
def dot_S250x2048_S2048x250_S250x250_1_0_0_1_n_n : DotDims S250x2048 S2048x250 S250x250 where
  lhsContracting := [1]
  rhsContracting := [0]
  lhsNonContracting := [0]
  rhsNonContracting := [1]
  lhsBatch := []
  rhsBatch := []
  wf := dot_S250x2048_S2048x250_S250x250_1_0_0_1_n_n_wf
def dot_S16384x2048_S2048x250_S16384x250_1_0_0_1_n_n : DotDims S16384x2048 S2048x250 S16384x250 where
  lhsContracting := [1]
  rhsContracting := [0]
  lhsNonContracting := [0]
  rhsNonContracting := [1]
  lhsBatch := []
  rhsBatch := []
  wf := dot_S16384x2048_S2048x250_S16384x250_1_0_0_1_n_n_wf
def scatter_S250x250_S16384x1_S16384x250_1_0_0_1 : ScatterDims S250x250 S16384x1 S16384x250 where
  updateWindowDims := [1]
  insertedWindowDims := [0]
  scatterDimsToOperandDims := [0]
  indexVectorDim := 1
  wf := scatter_S250x250_S16384x1_S16384x250_1_0_0_1_wf

class Facts : Prop extends Facts₀ where

variable [Facts]
-- ==== Proof.HostChain.lean ====
/-
  The kernel program's host arithmetic around its two regions is, operation for operation, the reference's own:
  from the per-class embedding sums and counts both compute the centroids, the unit centroids and their squared
  lengths, the presence masks, the topology loss; and from the per-class hinge sums the margin loss and the total.
  So once the kernel's sums, counts, hinge sums and cross-entropy are known to BE the reference's stages, every later
  buffer of the kernel is the reference's stage of the same name's role: the two terms are one. Nothing here opens an
  operation: the statements hold at any float family.
  The kernel's buffers are read through the fold of its host stretches (the stretches between the regions as one
  line, the stretches after the second region as one line); the reference's through its straight line.
-/
import proofs.«429416_j283467841734_3_alg».proof.Proof.Gen.KernelIdeal.Frame
import proofs.«429416_j283467841734_3_alg».proof.Proof.RefRead
import Idealize.ShloMosaic.Lib.StableHlo.Run

set_option maxRecDepth 16384

noncomputable section

namespace Cert.HostChain

open Idealize.ShloMosaic Idealize.ShloMosaic.TcCoe Idealize.SL.Sem Idealize.ShloMosaic.StableHlo
open Cert.KernelIdeal.Gen (W0 W1 W2 W3 W13 W14 W15 W19 V1 V13 hostOps0 hostOps1 hostOps1_1 hostOps1_2 hostOps1_3 hostOps1_4 hostOps1_5 hostOps1_6 hostOps1_7 hostOps1_8 hostOps1_9 hostOps1_10 hostOps2 hostOps2_1 hostOps2_2 hostOps2_3 hostOps2_4 W14_of_ne W14_arr W2_arr W2_of_ne dat0 dat1)
open Cert.ReferenceIdeal.ReadP

variable {F : FTy → Type} [FloatOps F]
variable (m : (ℓ : Loc Cert.KernelIdeal.nD Cert.KernelIdeal.τ Cert.KernelIdeal.sig) → Buf (Elt F) ℓ) (ρ : Dev Cert.KernelIdeal.nD → PrngReg)

/-- The host stretches between the two regions, and those after the second, each as one line. -/
abbrev mid : List (HloOp Cert.KernelIdeal.τ Cert.KernelIdeal.sig (Elt F)) :=
  hostOps1 ++ hostOps1_1 ++ hostOps1_2 ++ hostOps1_3 ++ hostOps1_4 ++ hostOps1_5 ++ hostOps1_6 ++ hostOps1_7 ++ hostOps1_8 ++ hostOps1_9 ++ hostOps1_10
abbrev tl : List (HloOp Cert.KernelIdeal.τ Cert.KernelIdeal.sig (Elt F)) := hostOps2 ++ hostOps2_1 ++ hostOps2_2 ++ hostOps2_3 ++ hostOps2_4

theorem W13_eq (c : Dev Cert.KernelIdeal.nD) : W13 m ρ c = StableHlo.after mid (W2 m ρ c) := by
  simp only [mid, StableHlo.after_append]
theorem W19_eq (c : Dev Cert.KernelIdeal.nD) : W19 m ρ c = StableHlo.after tl (W14 m ρ c) := by
  simp only [tl, StableHlo.after_append]

/-- Reads a buffer through a line of operations: each operation's result at its own buffer is its function of its
    operands' contents, and any other buffer is as it was. -/
macro "hread" : tactic =>
  `(tactic| (simp (disch := decide) only [mid, tl, hostOps0, hostOps1, hostOps1_1, hostOps1_2, hostOps1_3, hostOps1_4, hostOps1_5, hostOps1_6, hostOps1_7, hostOps1_8, hostOps1_9, hostOps1_10,
      hostOps2, hostOps2_1, hostOps2_2, hostOps2_3, hostOps2_4, Cert.ReferenceIdeal.ValueP.ops, List.cons_append, List.nil_append,
      after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.ofBuf, TRef.toBuf, cast_eq]))
macro "hread" "at" h:ident : tactic =>
  `(tactic| (simp (disch := decide) only [mid, tl, hostOps0, hostOps1, hostOps1_1, hostOps1_2, hostOps1_3, hostOps1_4, hostOps1_5, hostOps1_6, hostOps1_7, hostOps1_8, hostOps1_9, hostOps1_10,
      hostOps2, hostOps2_1, hostOps2_2, hostOps2_3, hostOps2_4, Cert.ReferenceIdeal.ValueP.ops, List.cons_append, List.nil_append,
      after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.ofBuf, TRef.toBuf, cast_eq] at $h:ident))

section Mid

variable (c : Dev Cert.KernelIdeal.nD)
variable (x0 : (⟨Cert.ReferenceIdeal.S16384x250, .f32⟩ : BufTy).Contents (Elt F)) (x1 : (⟨Cert.ReferenceIdeal.S16384, .i32⟩ : BufTy).Contents (Elt F))
  (x2 : (⟨Cert.ReferenceIdeal.S16384x2048, .f32⟩ : BufTy).Contents (Elt F)) (x3 : (⟨Cert.ReferenceIdeal.S250x250, .f32⟩ : BufTy).Contents (Elt F))

set_option maxHeartbeats 8000000 in
/-- The centroids: the sums over the floored counts. -/
theorem centroids_eq (hs : W13 m ρ c (Proc.devRef .tc Cert.KernelIdeal.main_v4) = val_main_v11 (F := F) x1 x2)
    (hc : W13 m ρ c (Proc.devRef .tc Cert.KernelIdeal.main_v6) = val_main_v15 (F := F) x1) :
    W13 m ρ c (Proc.devRef .tc Cert.KernelIdeal.main_v13) = val_main_v22 (F := F) x1 x2 := by
  rw [W13_eq] at hs hc ⊢
  hread at hs
  hread at hc
  hread
  rw [hs, hc]
  rfl

set_option maxHeartbeats 8000000 in
/-- The unit centroids. -/
theorem centn_eq (hs : W13 m ρ c (Proc.devRef .tc Cert.KernelIdeal.main_v4) = val_main_v11 (F := F) x1 x2)
    (hc : W13 m ρ c (Proc.devRef .tc Cert.KernelIdeal.main_v6) = val_main_v15 (F := F) x1) :
    W13 m ρ c (Proc.devRef .tc Cert.KernelIdeal.main_v66) = val_main_v80 (F := F) x1 x2 := by
  rw [W13_eq] at hs hc ⊢
  hread at hs
  hread at hc
  hread
  rw [hs, hc]
  rfl

set_option maxHeartbeats 8000000 in
/-- The unit centroids' squared lengths, as a vector. -/
theorem b2vec_eq (hs : W13 m ρ c (Proc.devRef .tc Cert.KernelIdeal.main_v4) = val_main_v11 (F := F) x1 x2)
    (hc : W13 m ρ c (Proc.devRef .tc Cert.KernelIdeal.main_v6) = val_main_v15 (F := F) x1) :
    W13 m ρ c (Proc.devRef .tc Cert.KernelIdeal.main_v68) = val_main_v84 (F := F) x1 x2 := by
  rw [W13_eq] at hs hc ⊢
  hread at hs
  hread at hc
  hread
  rw [hs, hc]
  rfl

set_option maxHeartbeats 8000000 in
/-- The row the second region reads them from: the vector as a column, recast as a row. -/
theorem b2row_eq :
    W13 m ρ c (Proc.devRef .tc Cert.KernelIdeal.main_v70)
      = fun i => shapeCast Cert.KernelIdeal.main_v70.ty.shape (broadcastInDim Cert.KernelIdeal.S250x1 ![0] Cert.KernelIdeal.Gen.bcast_S250_S250x1_0 (W13 m ρ c (Proc.devRef .tc Cert.KernelIdeal.main_v68))) Cert.KernelIdeal.Gen.shapeCasts_S250x1_S1x250 i := by
  rw [W13_eq]
  hread

set_option maxHeartbeats 8000000 in
/-- Which classes are present, pairwise; whether at least two are; the topology matrix over its greatest entry. -/
theorem present2_eq (hc : W13 m ρ c (Proc.devRef .tc Cert.KernelIdeal.main_v6) = val_main_v15 (F := F) x1) :
    W13 m ρ c (Proc.devRef .tc Cert.KernelIdeal.main_v18) = val_main_v27 (F := F) x1 := by
  rw [W13_eq] at hc ⊢
  hread at hc
  hread
  rw [hc]
  rfl

set_option maxHeartbeats 8000000 in
theorem gate_eq (hc : W13 m ρ c (Proc.devRef .tc Cert.KernelIdeal.main_v6) = val_main_v15 (F := F) x1) :
    W13 m ρ c (Proc.devRef .tc Cert.KernelIdeal.main_v21) = val_main_v30 (F := F) x1 := by
  rw [W13_eq] at hc ⊢
  hread at hc
  hread
  rw [hc]
  rfl

set_option maxHeartbeats 8000000 in
theorem topon_eq (h3 : W2 m ρ c (Proc.devRef .tc Cert.KernelIdeal.main_arg3) = x3) :
    W13 m ρ c (Proc.devRef .tc Cert.KernelIdeal.main_v24) = val_main_v2 (F := F) x3 := by
  rw [W13_eq]
  hread
  rw [h3]
  rfl

set_option maxHeartbeats 8000000 in
/-- The topology loss. -/
theorem topo_eq (hs : W13 m ρ c (Proc.devRef .tc Cert.KernelIdeal.main_v4) = val_main_v11 (F := F) x1 x2)
    (hc : W13 m ρ c (Proc.devRef .tc Cert.KernelIdeal.main_v6) = val_main_v15 (F := F) x1)
    (h3 : W2 m ρ c (Proc.devRef .tc Cert.KernelIdeal.main_arg3) = x3) :
    W13 m ρ c (Proc.devRef .tc Cert.KernelIdeal.main_v58) = val_main_v64 (F := F) x1 x2 x3 := by
  rw [W13_eq] at hs hc ⊢
  hread at hs
  hread at hc
  hread
  rw [hs, hc, h3]
  rfl

end Mid

section Tail

variable (c : Dev Cert.KernelIdeal.nD)
variable (x0 : (⟨Cert.ReferenceIdeal.S16384x250, .f32⟩ : BufTy).Contents (Elt F)) (x1 : (⟨Cert.ReferenceIdeal.S16384, .i32⟩ : BufTy).Contents (Elt F))
  (x2 : (⟨Cert.ReferenceIdeal.S16384x2048, .f32⟩ : BufTy).Contents (Elt F)) (x3 : (⟨Cert.ReferenceIdeal.S250x250, .f32⟩ : BufTy).Contents (Elt F))

set_option maxHeartbeats 8000000 in
/-- The per-class hinge sums: the two halves' blocks added. -/
theorem pairsum_read :
    W19 m ρ c (Proc.devRef .tc Cert.KernelIdeal.main_v72)
      = Host.reduceAdd (W14 m ρ c (Proc.devRef .tc Cert.KernelIdeal.main_v71)) (constant Cert.KernelIdeal.S_ .f32 0x00000000#32) Cert.KernelIdeal.Gen.reducesTo_S2x250x250_S250x250_d0 Cert.KernelIdeal.Gen.h_S_ := by
  rw [W19_eq]
  hread

set_option maxHeartbeats 8000000 in
/-- The margin loss. -/
theorem margin_eq (hp : W19 m ρ c (Proc.devRef .tc Cert.KernelIdeal.main_v72) = val_main_v102 (F := F) x1 x2)
    (h6 : W13 m ρ c (Proc.devRef .tc Cert.KernelIdeal.main_v6) = val_main_v15 (F := F) x1)
    (h18 : W13 m ρ c (Proc.devRef .tc Cert.KernelIdeal.main_v18) = val_main_v27 (F := F) x1)
    (h21 : W13 m ρ c (Proc.devRef .tc Cert.KernelIdeal.main_v21) = val_main_v30 (F := F) x1)
    (h24 : W13 m ρ c (Proc.devRef .tc Cert.KernelIdeal.main_v24) = val_main_v2 (F := F) x3) :
    W19 m ρ c (Proc.devRef .tc Cert.KernelIdeal.main_v96) = val_main_v126 (F := F) x1 x2 x3 := by
  rw [W19_eq] at hp ⊢
  hread at hp
  hread
  rw [hp, W14_of_ne m ρ c Cert.KernelIdeal.main_v6 (by decide), W14_of_ne m ρ c Cert.KernelIdeal.main_v18 (by decide),
    W14_of_ne m ρ c Cert.KernelIdeal.main_v21 (by decide), W14_of_ne m ρ c Cert.KernelIdeal.main_v24 (by decide), h6, h18, h21, h24]
  rfl

set_option maxHeartbeats 8000000 in
/-- The total. -/
theorem total_eq (hp : W19 m ρ c (Proc.devRef .tc Cert.KernelIdeal.main_v72) = val_main_v102 (F := F) x1 x2)
    (h3 : W13 m ρ c (Proc.devRef .tc Cert.KernelIdeal.main_v3) = val_main_v8 (F := F) x0 x1)
    (h6 : W13 m ρ c (Proc.devRef .tc Cert.KernelIdeal.main_v6) = val_main_v15 (F := F) x1)
    (h18 : W13 m ρ c (Proc.devRef .tc Cert.KernelIdeal.main_v18) = val_main_v27 (F := F) x1)
    (h21 : W13 m ρ c (Proc.devRef .tc Cert.KernelIdeal.main_v21) = val_main_v30 (F := F) x1)
    (h24 : W13 m ρ c (Proc.devRef .tc Cert.KernelIdeal.main_v24) = val_main_v2 (F := F) x3)
    (h58 : W13 m ρ c (Proc.devRef .tc Cert.KernelIdeal.main_v58) = val_main_v64 (F := F) x1 x2 x3) :
    W19 m ρ c (Proc.devRef .tc Cert.KernelIdeal.main_v100) = val_main_v130 (F := F) x0 x1 x2 x3 := by
  rw [W19_eq] at hp ⊢
  hread at hp
  hread
  rw [hp, W14_of_ne m ρ c Cert.KernelIdeal.main_v3 (by decide), W14_of_ne m ρ c Cert.KernelIdeal.main_v58 (by decide), W14_of_ne m ρ c Cert.KernelIdeal.main_v6 (by decide), W14_of_ne m ρ c Cert.KernelIdeal.main_v18 (by decide),
    W14_of_ne m ρ c Cert.KernelIdeal.main_v21 (by decide), W14_of_ne m ρ c Cert.KernelIdeal.main_v24 (by decide), h3, h58, h6, h18, h21, h24]
  rfl

set_option maxHeartbeats 8000000 in
/-- The cross-entropy and the topology loss are not touched after the second region. -/
theorem ce_keep : W19 m ρ c (Proc.devRef .tc Cert.KernelIdeal.main_v3) = W13 m ρ c (Proc.devRef .tc Cert.KernelIdeal.main_v3) := by
  have h : W19 m ρ c (Proc.devRef .tc Cert.KernelIdeal.main_v3) = W14 m ρ c (Proc.devRef .tc Cert.KernelIdeal.main_v3) := by
    rw [W19_eq]
    hread
  exact h.trans (W14_of_ne m ρ c Cert.KernelIdeal.main_v3 (by decide))

set_option maxHeartbeats 8000000 in
theorem topo_keep : W19 m ρ c (Proc.devRef .tc Cert.KernelIdeal.main_v58) = W13 m ρ c (Proc.devRef .tc Cert.KernelIdeal.main_v58) := by
  have h : W19 m ρ c (Proc.devRef .tc Cert.KernelIdeal.main_v58) = W14 m ρ c (Proc.devRef .tc Cert.KernelIdeal.main_v58) := by
    rw [W19_eq]
    hread
  exact h.trans (W14_of_ne m ρ c Cert.KernelIdeal.main_v58 (by decide))

end Tail

section Entry

variable (c : Dev Cert.KernelIdeal.nD)

/-- What the first region is entered with: the arguments as launched, the labels recast as a row. -/
theorem V1_arg0 : V1 m ρ c Cert.KernelIdeal.main_arg0 = m ((c.tc : Thread Cert.KernelIdeal.nD Cert.KernelIdeal.τ).loc Cert.KernelIdeal.main_arg0) := by
  show StableHlo.after hostOps0 (W0 m ρ c) (Proc.devRef .tc Cert.KernelIdeal.main_arg0) = _
  hread
theorem V1_arg2 : V1 m ρ c Cert.KernelIdeal.main_arg2 = m ((c.tc : Thread Cert.KernelIdeal.nD Cert.KernelIdeal.τ).loc Cert.KernelIdeal.main_arg2) := by
  show StableHlo.after hostOps0 (W0 m ρ c) (Proc.devRef .tc Cert.KernelIdeal.main_arg2) = _
  hread
theorem V1_v0 : V1 m ρ c Cert.KernelIdeal.main_v0
    = fun i => shapeCast Cert.KernelIdeal.main_v0.ty.shape (m ((c.tc : Thread Cert.KernelIdeal.nD Cert.KernelIdeal.τ).loc Cert.KernelIdeal.main_arg1)) Cert.KernelIdeal.Gen.shapeCasts_S16384_S1x16384 i := by
  show StableHlo.after hostOps0 (W0 m ρ c) (Proc.devRef .tc Cert.KernelIdeal.main_v0) = _
  hread

/-- What is not a result array of the first region is, after it, as it was at its entry. -/
theorem W2_arg3 : W2 m ρ c (Proc.devRef .tc Cert.KernelIdeal.main_arg3) = m ((c.tc : Thread Cert.KernelIdeal.nD Cert.KernelIdeal.τ).loc Cert.KernelIdeal.main_arg3) := by
  rw [W2_of_ne m ρ c Cert.KernelIdeal.main_arg3 (by decide)]
  show StableHlo.after hostOps0 (W0 m ρ c) (Proc.devRef .tc Cert.KernelIdeal.main_arg3) = _
  hread

set_option maxHeartbeats 8000000 in
/-- The sums, the counts and the cross-entropy read off the first region's result arrays. -/
theorem sums_read : W13 m ρ c (Proc.devRef .tc Cert.KernelIdeal.main_v4)
    = Host.reduceAdd ((dat0 (V1 m ρ) c).arrAt 4 Cert.KernelIdeal.cfg0.N) (constant Cert.KernelIdeal.S_ .f32 0x00000000#32) Cert.KernelIdeal.Gen.reducesTo_S2x250x2048_S250x2048_d0 Cert.KernelIdeal.Gen.h_S_ := by
  rw [W13_eq]
  hread
  rw [show W2 m ρ c (Proc.devRef .tc Cert.KernelIdeal.main_v1_1) = (dat0 (V1 m ρ) c).arrAt 4 Cert.KernelIdeal.cfg0.N from W2_arr m ρ c 4]
set_option maxHeartbeats 8000000 in
theorem counts_read : W13 m ρ c (Proc.devRef .tc Cert.KernelIdeal.main_v6)
    = fun i => shapeCast Cert.KernelIdeal.main_v6.ty.shape (Host.reduceAdd ((dat0 (V1 m ρ) c).arrAt 5 Cert.KernelIdeal.cfg0.N) (constant Cert.KernelIdeal.S_ .f32 0x00000000#32) Cert.KernelIdeal.Gen.reducesTo_S2x250x1_S250x1_d0 Cert.KernelIdeal.Gen.h_S_) Cert.KernelIdeal.Gen.shapeCasts_S250x1_S250 i := by
  rw [W13_eq]
  hread
  rw [show W2 m ρ c (Proc.devRef .tc Cert.KernelIdeal.main_v1_2) = (dat0 (V1 m ρ) c).arrAt 5 Cert.KernelIdeal.cfg0.N from W2_arr m ρ c 5]
set_option maxHeartbeats 8000000 in
theorem ce_read : W13 m ρ c (Proc.devRef .tc Cert.KernelIdeal.main_v3)
    = Host.divf (Host.reduceAdd ((dat0 (V1 m ρ) c).arrAt 3 Cert.KernelIdeal.cfg0.N) (constant Cert.KernelIdeal.S_ .f32 0x00000000#32) Cert.KernelIdeal.Gen.reducesTo_S2x1x1_S_d0_1_2 Cert.KernelIdeal.Gen.h_S_) (constant Cert.KernelIdeal.S_ .f32 0x46800000#32) := by
  rw [W13_eq]
  hread
  rw [show W2 m ρ c (Proc.devRef .tc Cert.KernelIdeal.main_v1_0) = (dat0 (V1 m ρ) c).arrAt 3 Cert.KernelIdeal.cfg0.N from W2_arr m ρ c 3]

set_option maxHeartbeats 8000000 in
/-- What the second region is entered with. -/
theorem V13_arg2 : V13 m ρ c Cert.KernelIdeal.main_arg2 = m ((c.tc : Thread Cert.KernelIdeal.nD Cert.KernelIdeal.τ).loc Cert.KernelIdeal.main_arg2) := by
  show W13 m ρ c (Proc.devRef .tc Cert.KernelIdeal.main_arg2) = _
  rw [W13_eq]
  hread
  rw [show W2 m ρ c (Proc.devRef .tc Cert.KernelIdeal.main_arg2) = V1 m ρ c Cert.KernelIdeal.main_arg2 from
    (W2_arr m ρ c 2).trans (((dat0 (V1 m ρ) c).arrAt_in 2 rfl _).trans (Cert.KernelIdeal.Gen.A_eq0 (V1 m ρ) c 2))]
  exact V1_arg2 m ρ c
set_option maxHeartbeats 8000000 in
theorem V13_v0 : V13 m ρ c Cert.KernelIdeal.main_v0 = V1 m ρ c Cert.KernelIdeal.main_v0 := by
  show W13 m ρ c (Proc.devRef .tc Cert.KernelIdeal.main_v0) = _
  rw [W13_eq]
  hread
  exact (W2_arr m ρ c 1).trans (((dat0 (V1 m ρ) c).arrAt_in 1 rfl _).trans (Cert.KernelIdeal.Gen.A_eq0 (V1 m ρ) c 1))
theorem pairs_arr : W14 m ρ c (Proc.devRef .tc Cert.KernelIdeal.main_v71) = (dat1 (V13 m ρ) c).arrAt 4 Cert.KernelIdeal.cfg1.N := W14_arr m ρ c 4

end Entry

end Cert.HostChain

end
-- ==== Proof.RefChain.lean ====
/-
  The reference's straight line read at its four result buffers and its four arguments: each result is the stage
  of that buffer (the operations composed, one definition per operation) of the arguments' launch contents, and no
  operation writes an argument. Nothing is opened: the statements hold at any float family.
-/
import proofs.«429416_j283467841734_3_alg».proof.Proof.RefRead
import Idealize.ShloMosaic.Lib.StableHlo.Run

set_option maxRecDepth 16384

noncomputable section

namespace Cert.RefChain

open Idealize.ShloMosaic Idealize.ShloMosaic.TcCoe Idealize.SL.Sem Idealize.ShloMosaic.StableHlo
open Cert.ReferenceIdeal.ReadP

variable {F : FTy → Type} [FloatOps F]

macro "hread" : tactic =>
  `(tactic| (simp (disch := decide) only [Cert.ReferenceIdeal.ValueP.ops, List.cons_append, List.nil_append,
      after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.ofBuf, TRef.toBuf, cast_eq]))

section Reference

variable (W : Valuation Cert.ReferenceIdeal.τ Cert.ReferenceIdeal.sig (Elt F))

set_option maxHeartbeats 100000000 in
/-- The reference's straight line, read at its four results: the stages of those buffers, of the arguments' contents. -/
theorem ref_total : StableHlo.after Cert.ReferenceIdeal.ValueP.ops W (Proc.devRef .tc Cert.ReferenceIdeal.main_v130)
    = val_main_v130 (F := F) (W (Proc.devRef .tc Cert.ReferenceIdeal.main_arg0)) (W (Proc.devRef .tc Cert.ReferenceIdeal.main_arg1)) (W (Proc.devRef .tc Cert.ReferenceIdeal.main_arg2)) (W (Proc.devRef .tc Cert.ReferenceIdeal.main_arg3)) := by
  hread
  rfl
set_option maxHeartbeats 100000000 in
theorem ref_ce : StableHlo.after Cert.ReferenceIdeal.ValueP.ops W (Proc.devRef .tc Cert.ReferenceIdeal.main_v8)
    = val_main_v8 (F := F) (W (Proc.devRef .tc Cert.ReferenceIdeal.main_arg0)) (W (Proc.devRef .tc Cert.ReferenceIdeal.main_arg1)) := by
  hread
  rfl
set_option maxHeartbeats 100000000 in
theorem ref_topo : StableHlo.after Cert.ReferenceIdeal.ValueP.ops W (Proc.devRef .tc Cert.ReferenceIdeal.main_v64)
    = val_main_v64 (F := F) (W (Proc.devRef .tc Cert.ReferenceIdeal.main_arg1)) (W (Proc.devRef .tc Cert.ReferenceIdeal.main_arg2)) (W (Proc.devRef .tc Cert.ReferenceIdeal.main_arg3)) := by
  hread
  rfl
set_option maxHeartbeats 100000000 in
theorem ref_margin : StableHlo.after Cert.ReferenceIdeal.ValueP.ops W (Proc.devRef .tc Cert.ReferenceIdeal.main_v126)
    = val_main_v126 (F := F) (W (Proc.devRef .tc Cert.ReferenceIdeal.main_arg1)) (W (Proc.devRef .tc Cert.ReferenceIdeal.main_arg2)) (W (Proc.devRef .tc Cert.ReferenceIdeal.main_arg3)) := by
  hread
  rfl
set_option maxHeartbeats 100000000 in
theorem ref_arg0 : StableHlo.after Cert.ReferenceIdeal.ValueP.ops W (Proc.devRef .tc Cert.ReferenceIdeal.main_arg0) = W (Proc.devRef .tc Cert.ReferenceIdeal.main_arg0) := by hread
set_option maxHeartbeats 100000000 in
theorem ref_arg1 : StableHlo.after Cert.ReferenceIdeal.ValueP.ops W (Proc.devRef .tc Cert.ReferenceIdeal.main_arg1) = W (Proc.devRef .tc Cert.ReferenceIdeal.main_arg1) := by hread
set_option maxHeartbeats 100000000 in
theorem ref_arg2 : StableHlo.after Cert.ReferenceIdeal.ValueP.ops W (Proc.devRef .tc Cert.ReferenceIdeal.main_arg2) = W (Proc.devRef .tc Cert.ReferenceIdeal.main_arg2) := by hread
set_option maxHeartbeats 100000000 in
theorem ref_arg3 : StableHlo.after Cert.ReferenceIdeal.ValueP.ops W (Proc.devRef .tc Cert.ReferenceIdeal.main_arg3) = W (Proc.devRef .tc Cert.ReferenceIdeal.main_arg3) := by hread

end Reference

end Cert.RefChain

end
-- ==== Proof.R0Fold.lean ====
/-
  The first region's grid fold, for any float family.

  The grid has 16 points t = 8 p + j (core half p < 2, tile j < 8). At each point the body reads the point's block of
  the logits (rows 1024 t …), of the labels (columns 1024 t …) and of the embeddings (rows 1024 t …) and updates three
  accumulators — a scalar, a [250, 2048] table and a [250, 1] column — which are first reset to zero when j = 0.
  This module shows: what one run of the body leaves in the accumulators, as a function `upd` of the three blocks and
  the old accumulators; that the accumulators after point n are the fold `acc` of `upd` restarted from zero at every
  eighth point (induction on n); that slab p of each output array ends at the accumulator after point 8 p + 7; and
  which array element each element of an input block is.
-/
import proofs.«429416_j283467841734_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.R0

variable {F : FTy → Type} [FloatOps F]
variable (V : (c : Dev nD) → (b : Ref sig .tc) → Buf (Elt F) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-! ## What one run of the body leaves in each accumulator

Away from the eighth points the body's one store into each accumulator is the update of what the accumulator held;
at the eighth points the accumulator is first stored at zero, read back, and then updated. -/

theorem outB3 (c : Dev nD) (i : grid0.Coords) (a2 : Memref sig .tc .vmem S1024x250 .f32) (h2 : a2.IsWhole) (a3 : Memref sig .tc .vmem S1x1024 .i32) (h3 : a3.IsWhole) (a4 : Memref sig .tc .vmem S1024x2048 .f32) (h4 : a4.IsWhole) (a5 : Memref sig .tc .vmem S1x1x1 .f32) (h5 : a5.IsWhole) (a6 : Memref sig .tc .vmem S1x250x2048 .f32) (h6 : a6.IsWhole) (a7 : Memref sig .tc .vmem S1x250x1 .f32) (h7 : a7.IsWhole) (hc : ¬cond0_0 i) (x0 : Vec F S1024x250 .f32) (x1 : Vec F S1x1024 .i32) (x2 : Vec F S1024x2048 .f32) (xo3 : Vec F S1x1x1 .f32) (xo4 : Vec F S1x250x2048 .f32) (xo5 : Vec F S1x250x1 .f32) :
    out0_B_3 c i a2 h2 a3 h3 a4 h4 a5 h5 a6 h6 a7 h7 hc x0 x1 x2 xo3 xo4 xo5 = k0_pay1 (k0_pay9 x0 x1) xo3 := by
  unfold out0_B_3
  rw [View.read_writes_eq_canon _ _ _ (cover0_B_3 c i a2 h2 a3 h3 a4 h4 a5 h5 a6 h6 a7 h7 hc x0 x1 x2 xo3 xo4 xo5)]
  unfold kernelRun0_B
  dsimp only
  sl_unfold_words
  rw [View.canon_unit_zero (S := S1x1x1) hz3]
  simp only [View.readAt_eq_ld, h2.read_unread, h3.read_unread, h5.read_unread,
    View.ld_unit_zero (S := S1024x250) hz2, View.ld_unit_zero (S := S1x1024) hz2, View.ld_unit_zero (S := S1x1x1) hz3]

theorem outB4 (c : Dev nD) (i : grid0.Coords) (a2 : Memref sig .tc .vmem S1024x250 .f32) (h2 : a2.IsWhole) (a3 : Memref sig .tc .vmem S1x1024 .i32) (h3 : a3.IsWhole) (a4 : Memref sig .tc .vmem S1024x2048 .f32) (h4 : a4.IsWhole) (a5 : Memref sig .tc .vmem S1x1x1 .f32) (h5 : a5.IsWhole) (a6 : Memref sig .tc .vmem S1x250x2048 .f32) (h6 : a6.IsWhole) (a7 : Memref sig .tc .vmem S1x250x1 .f32) (h7 : a7.IsWhole) (hc : ¬cond0_0 i) (x0 : Vec F S1024x250 .f32) (x1 : Vec F S1x1024 .i32) (x2 : Vec F S1024x2048 .f32) (xo3 : Vec F S1x1x1 .f32) (xo4 : Vec F S1x250x2048 .f32) (xo5 : Vec F S1x250x1 .f32) :
    out0_B_4 c i a2 h2 a3 h3 a4 h4 a5 h5 a6 h6 a7 h7 hc x0 x1 x2 xo3 xo4 xo5 = k0_pay2 (k0_pay8 x1) x2 xo4 := by
  unfold out0_B_4
  rw [View.read_writes_eq_canon _ _ _ (cover0_B_4 c i a2 h2 a3 h3 a4 h4 a5 h5 a6 h6 a7 h7 hc x0 x1 x2 xo3 xo4 xo5)]
  unfold kernelRun0_B
  dsimp only
  sl_unfold_words
  rw [View.canon_unit_zero (S := S1x250x2048) hz3]
  simp only [View.readAt_eq_ld, h3.read_unread, h4.read_unread, h6.read_unread,
    View.ld_unit_zero (S := S1x1024) hz2, View.ld_unit_zero (S := S1024x2048) hz2, View.ld_unit_zero (S := S1x250x2048) hz3]

theorem outB5 (c : Dev nD) (i : grid0.Coords) (a2 : Memref sig .tc .vmem S1024x250 .f32) (h2 : a2.IsWhole) (a3 : Memref sig .tc .vmem S1x1024 .i32) (h3 : a3.IsWhole) (a4 : Memref sig .tc .vmem S1024x2048 .f32) (h4 : a4.IsWhole) (a5 : Memref sig .tc .vmem S1x1x1 .f32) (h5 : a5.IsWhole) (a6 : Memref sig .tc .vmem S1x250x2048 .f32) (h6 : a6.IsWhole) (a7 : Memref sig .tc .vmem S1x250x1 .f32) (h7 : a7.IsWhole) (hc : ¬cond0_0 i) (x0 : Vec F S1024x250 .f32) (x1 : Vec F S1x1024 .i32) (x2 : Vec F S1024x2048 .f32) (xo3 : Vec F S1x1x1 .f32) (xo4 : Vec F S1x250x2048 .f32) (xo5 : Vec F S1x250x1 .f32) :
    out0_B_5 c i a2 h2 a3 h3 a4 h4 a5 h5 a6 h6 a7 h7 hc x0 x1 x2 xo3 xo4 xo5 = k0_pay3 (k0_pay7 x1) xo5 := by
  unfold out0_B_5
  rw [View.read_writes_eq_canon _ _ _ (cover0_B_5 c i a2 h2 a3 h3 a4 h4 a5 h5 a6 h6 a7 h7 hc x0 x1 x2 xo3 xo4 xo5)]
  unfold kernelRun0_B
  dsimp only
  sl_unfold_words
  rw [View.canon_unit_zero (S := S1x250x1) hz3]
  simp only [View.readAt_eq_ld, h3.read_unread, h7.read_unread,
    View.ld_unit_zero (S := S1x1024) hz2, View.ld_unit_zero (S := S1x250x1) hz3]

theorem outA3 (c : Dev nD) (i : grid0.Coords) (a2 : Memref sig .tc .vmem S1024x250 .f32) (h2 : a2.IsWhole) (a3 : Memref sig .tc .vmem S1x1024 .i32) (h3 : a3.IsWhole) (a4 : Memref sig .tc .vmem S1024x2048 .f32) (h4 : a4.IsWhole) (a5 : Memref sig .tc .vmem S1x1x1 .f32) (h5 : a5.IsWhole) (a6 : Memref sig .tc .vmem S1x250x2048 .f32) (h6 : a6.IsWhole) (a7 : Memref sig .tc .vmem S1x250x1 .f32) (h7 : a7.IsWhole) (hc : cond0_0 i) (x0 : Vec F S1024x250 .f32) (x1 : Vec F S1x1024 .i32) (x2 : Vec F S1024x2048 .f32) :
    out0_A_3 c i a2 h2 a3 h3 a4 h4 a5 h5 a6 h6 a7 h7 hc x0 x1 x2 = k0_pay1 (k0_pay9 x0 x1) k0_pay4 := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_cons_unit_zero (S := S1x1x1) hz3, View.readCov_unit_zero (S := S1x1x1) _ hz3]
  simp only [View.readAt_eq_ld, h2.read_unread, h3.read_unread,
    View.ld_unit_zero (S := S1024x250) hz2, View.ld_unit_zero (S := S1x1024) hz2]

theorem outA4 (c : Dev nD) (i : grid0.Coords) (a2 : Memref sig .tc .vmem S1024x250 .f32) (h2 : a2.IsWhole) (a3 : Memref sig .tc .vmem S1x1024 .i32) (h3 : a3.IsWhole) (a4 : Memref sig .tc .vmem S1024x2048 .f32) (h4 : a4.IsWhole) (a5 : Memref sig .tc .vmem S1x1x1 .f32) (h5 : a5.IsWhole) (a6 : Memref sig .tc .vmem S1x250x2048 .f32) (h6 : a6.IsWhole) (a7 : Memref sig .tc .vmem S1x250x1 .f32) (h7 : a7.IsWhole) (hc : cond0_0 i) (x0 : Vec F S1024x250 .f32) (x1 : Vec F S1x1024 .i32) (x2 : Vec F S1024x2048 .f32) :
    out0_A_4 c i a2 h2 a3 h3 a4 h4 a5 h5 a6 h6 a7 h7 hc x0 x1 x2 = k0_pay2 (k0_pay8 x1) x2 k0_pay5 := by
  unfold out0_A_4
  rw [View.read_writes_eq_canon _ _ _ (cover0_A_4 c i a2 h2 a3 h3 a4 h4 a5 h5 a6 h6 a7 h7 hc x0 x1 x2)]
  unfold kernelRun0_A
  dsimp only
  sl_unfold_words
  rw [View.canon_cons_unit_zero (S := S1x250x2048) hz3, View.readCov_unit_zero (S := S1x250x2048) _ hz3]
  simp only [View.readAt_eq_ld, h3.read_unread, h4.read_unread,
    View.ld_unit_zero (S := S1x1024) hz2, View.ld_unit_zero (S := S1024x2048) hz2]

theorem outA5 (c : Dev nD) (i : grid0.Coords) (a2 : Memref sig .tc .vmem S1024x250 .f32) (h2 : a2.IsWhole) (a3 : Memref sig .tc .vmem S1x1024 .i32) (h3 : a3.IsWhole) (a4 : Memref sig .tc .vmem S1024x2048 .f32) (h4 : a4.IsWhole) (a5 : Memref sig .tc .vmem S1x1x1 .f32) (h5 : a5.IsWhole) (a6 : Memref sig .tc .vmem S1x250x2048 .f32) (h6 : a6.IsWhole) (a7 : Memref sig .tc .vmem S1x250x1 .f32) (h7 : a7.IsWhole) (hc : cond0_0 i) (x0 : Vec F S1024x250 .f32) (x1 : Vec F S1x1024 .i32) (x2 : Vec F S1024x2048 .f32) :
    out0_A_5 c i a2 h2 a3 h3 a4 h4 a5 h5 a6 h6 a7 h7 hc x0 x1 x2 = k0_pay3 (k0_pay7 x1) k0_pay6 := by
  unfold out0_A_5
  rw [View.read_writes_eq_canon _ _ _ (cover0_A_5 c i a2 h2 a3 h3 a4 h4 a5 h5 a6 h6 a7 h7 hc x0 x1 x2)]
  unfold kernelRun0_A
  dsimp only
  sl_unfold_words
  rw [View.canon_cons_unit_zero (S := S1x250x1) hz3, View.readCov_unit_zero (S := S1x250x1) _ hz3]
  simp only [View.readAt_eq_ld, h3.read_unread,
    View.ld_unit_zero (S := S1x1024) hz2]

/-! ## The fold over the grid -/

/-- one point's new accumulators from the point's three input blocks and the old accumulators -/
def upd (x0 : Vec F S1024x250 .f32) (x1 : Vec F S1x1024 .i32) (x2 : Vec F S1024x2048 .f32)
    (y : Vec F S1x1x1 .f32 × Vec F S1x250x2048 .f32 × Vec F S1x250x1 .f32) :
    Vec F S1x1x1 .f32 × Vec F S1x250x2048 .f32 × Vec F S1x250x1 .f32 :=
  (k0_pay1 (k0_pay9 x0 x1) y.1, k0_pay2 (k0_pay8 x1) x2 y.2.1, k0_pay3 (k0_pay7 x1) y.2.2)

/-- the three accumulators at their reset value -/
def zero3 : Vec F S1x1x1 .f32 × Vec F S1x250x2048 .f32 × Vec F S1x250x1 .f32 := (k0_pay4, k0_pay5, k0_pay6)

/-- the accumulators after point n: restarted from zero at every eighth point -/
def acc (c : Dev nD) : (n : ℕ) → n < cfg0.N → Vec F S1x1x1 .f32 × Vec F S1x250x2048 .f32 × Vec F S1x250x1 .f32
  | 0, h => upd (iblk0 V c 0 ⟨0, h⟩) (iblk0 V c 1 ⟨0, h⟩) (iblk0 V c 2 ⟨0, h⟩) zero3
  | n + 1, h => upd (iblk0 V c 0 ⟨n + 1, h⟩) (iblk0 V c 1 ⟨n + 1, h⟩) (iblk0 V c 2 ⟨n + 1, h⟩)
      (if (n + 1) % 8 = 0 then zero3 else acc c n (Nat.lt_of_succ_lt h))

theorem acc_zero (c : Dev nD) (h : 0 < cfg0.N) :
    acc V c 0 h = upd (iblk0 V c 0 ⟨0, h⟩) (iblk0 V c 1 ⟨0, h⟩) (iblk0 V c 2 ⟨0, h⟩) zero3 := rfl

theorem acc_succ (c : Dev nD) (n : ℕ) (h : n + 1 < cfg0.N) :
    acc V c (n + 1) h = upd (iblk0 V c 0 ⟨n + 1, h⟩) (iblk0 V c 1 ⟨n + 1, h⟩) (iblk0 V c 2 ⟨n + 1, h⟩)
      (if (n + 1) % 8 = 0 then zero3 else acc V c n (Nat.lt_of_succ_lt h)) := rfl

/-- the accumulators depend on the point's number only, not on the proof that it is a point -/
theorem acc_congr (c : Dev nD) {n n' : ℕ} (e : n = n') (h : n < cfg0.N) (h' : n' < cfg0.N) : acc V c n h = acc V c n' h' := by
  subst e; rfl

/-- at an eighth point the run leaves the update of the zero accumulators -/
theorem outsAt0_reset (c : Dev nD) (t : Fin cfg0.N) (h0 : t.val % 8 = 0) :
    outsAt0 V c t.val t.isLt = upd (iblk0 V c 0 t) (iblk0 V c 1 t) (iblk0 V c 2 t) zero3 := by
  rw [outsAt0_A V c t h0]
  unfold upd zero3
  dsimp only
  rw [outA3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t),
    outA4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t),
    outA5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)]

/-- at any other point it leaves the update of what the point before left -/
theorem outsAt0_step (c : Dev nD) (t : Fin cfg0.N) (h0 : ¬t.val % 8 = 0) :
    outsAt0 V c t.val t.isLt = upd (iblk0 V c 0 t) (iblk0 V c 1 t) (iblk0 V c 2 t)
      (outsAt0 V c (t.val - 1) (Nat.lt_of_le_of_lt (Nat.sub_le _ _) t.isLt)) := by
  rw [outsAt0_B V c t h0]
  unfold upd
  rw [outB3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
      (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2,
    outB4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
      (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2,
    outB5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
      (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2]

/-- what the run leaves in the accumulators after point n is the fold: by induction on the point -/
theorem outsAt0_eq (c : Dev nD) : ∀ (n : ℕ) (h : n < cfg0.N), outsAt0 V c n h = acc V c n h
  | 0, h => (outsAt0_reset V c ⟨0, h⟩ rfl).trans (acc_zero V c h).symm
  | n + 1, h => by
    rw [acc_succ V c n h]
    by_cases h0 : (n + 1) % 8 = 0
    · rw [if_pos h0]
      exact outsAt0_reset V c ⟨n + 1, h⟩ h0
    · rw [if_neg h0, ← outsAt0_eq c n (Nat.lt_of_succ_lt h)]
      exact outsAt0_step V c ⟨n + 1, h⟩ h0

/-- the fold at an eighth point: the update of the zero accumulators -/
theorem acc_reset (c : Dev nD) (t : Fin cfg0.N) (h0 : t.val % 8 = 0) :
    acc V c t.val t.isLt = upd (iblk0 V c 0 t) (iblk0 V c 1 t) (iblk0 V c 2 t) zero3 := by
  obtain ⟨n, hn⟩ := t
  cases n with
  | zero => rfl
  | succ n => rw [acc_succ, if_pos h0]

/-- the fold at any other point: the update of the fold at the point before -/
theorem acc_step (c : Dev nD) (t : Fin cfg0.N) (h0 : ¬t.val % 8 = 0) :
    acc V c t.val t.isLt = upd (iblk0 V c 0 t) (iblk0 V c 1 t) (iblk0 V c 2 t)
      (acc V c (t.val - 1) (Nat.lt_of_le_of_lt (Nat.sub_le _ _) t.isLt)) := by
  obtain ⟨n, hn⟩ := t
  cases n with
  | zero => exact absurd (Nat.zero_mod _) h0
  | succ n => rw [acc_succ, if_neg h0]; rfl

/-! ## The output arrays after the region

Each output array has one slab per core half; the slab of half p is written back once, after point 8 p + 7, from the
accumulator that was restarted at point 8 p. -/

/-- where output window 3's block sits at each point: core half t / 8, the whole of the other two axes -/
theorem hidx3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)

/-- the array output window 3 ends at: core half p's slab is the accumulator after that half's last point -/
def G3 (c : Dev nD) : Vec F S2x1x1 .f32 := fun i =>
  (acc V c (8 * (i 0).val + 7) (by have h0 : (i 0).val < 2 := (i 0).isLt; rw [show cfg0.N = 16 from N_0]; omega)).1 (ix3 0 (i 1) (i 2))

theorem G3_at (c : Dev nD) (n : ℕ) (h : n < cfg0.N) (i : S2x1x1.Idx) (j : S1x1x1.Idx)
    (h0 : 8 * (i 0).val + 7 = n) (h1 : (i 1).val = (j 1).val) (h2 : (i 2).val = (j 2).val) :
    G3 V c i = (acc V c n h).1 j := by
  unfold G3
  rw [acc_congr V c h0 _ h]
  refine congrArg (acc V c n h).1 ?_
  funext a
  have hj : (j 0).val < 1 := (j 0).isLt
  match a with
  | ⟨0, _⟩ => exact Fin.ext (by show 0 = (j 0).val; omega)
  | ⟨1, _⟩ => exact Fin.ext h1
  | ⟨2, _⟩ => exact Fin.ext h2

/-- a write-back of output window 3 (after the last point of a core half) writes that half's slab of the array -/
theorem flushed3_eq (c : Dev nD) (t : Fin cfg0.N) (hf : (cfg0.win 3).flush t = true) :
    (dat0 V c).flushed 3 t = ((cfg0.win 3).blk t).view.read (Elt F) (G3 V c) := by
  have h7 : t.val % 8 = 7 := (flush0_3 t).mp hf
  show (cfg0.win 3).cut (grid0.coords t) ((dat0 V c).after 3 t) = _
  rw [after0_3, outsAt0_eq]
  funext y
  rw [View.read_apply]
  have hy0 : (y 0).val < 1 := (y 0).isLt
  refine (G3_at V c t.val t.isLt _ _ ?_ ?_ ?_).symm
  · show 8 * (win0_3.index t 0 * 1 + 1 * (y 0).val) + 7 = t.val
    rw [(hidx3 t).1]; omega
  · show win0_3.index t 1 * 1 + 1 * (y 1).val = (y 1).val
    rw [(hidx3 t).2.1]; omega
  · show win0_3.index t 2 * 1 + 1 * (y 2).val = (y 2).val
    rw [(hidx3 t).2.2]; omega

/-- the two write-backs of output window 3 cover its array -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 2 := (i 0).isLt
  have h1 : (i 1 : Nat) < 1 := (i 1).isLt
  have h2 : (i 2 : Nat) < 1 := (i 2).isLt
  have hN : cfg0.N = 16 := N_0
  have ht : 8 * (i 0 : Nat) + 7 < cfg0.N := by rw [hN]; omega
  refine ⟨⟨8 * (i 0 : Nat) + 7, ht⟩, (flush0_3 _).mpr (by show (8 * (i 0 : Nat) + 7) % 8 = 7; omega), ?_⟩
  show i ∈ ((View.whole main_v1_0).slice (win0_3.rect ⟨8 * (i 0 : Nat) + 7, ht⟩)).set
  rw [View.set_slice_whole, Rect.mem_set_unit]
  intro a
  match a with
  | ⟨0, _⟩ =>
    show win0_3.index ⟨8 * (i 0 : Nat) + 7, ht⟩ 0 * 1 ≤ (i 0 : Nat) ∧ (i 0 : Nat) < win0_3.index ⟨8 * (i 0 : Nat) + 7, ht⟩ 0 * 1 + 1
    rw [(hidx3 ⟨8 * (i 0 : Nat) + 7, ht⟩).1]; show (8 * (i 0 : Nat) + 7) / 8 * 1 ≤ (i 0 : Nat) ∧ (i 0 : Nat) < (8 * (i 0 : Nat) + 7) / 8 * 1 + 1; omega
  | ⟨1, _⟩ =>
    show win0_3.index ⟨8 * (i 0 : Nat) + 7, ht⟩ 1 * 1 ≤ (i 1 : Nat) ∧ (i 1 : Nat) < win0_3.index ⟨8 * (i 0 : Nat) + 7, ht⟩ 1 * 1 + 1
    rw [(hidx3 ⟨8 * (i 0 : Nat) + 7, ht⟩).2.1]; omega
  | ⟨2, _⟩ =>
    show win0_3.index ⟨8 * (i 0 : Nat) + 7, ht⟩ 2 * 1 ≤ (i 2 : Nat) ∧ (i 2 : Nat) < win0_3.index ⟨8 * (i 0 : Nat) + 7, ht⟩ 2 * 1 + 1
    rw [(hidx3 ⟨8 * (i 0 : Nat) + 7, ht⟩).2.2]; omega

/-- so output window 3's array ends holding, slab by slab, the accumulator after each core half's last point -/
theorem final3 (c : Dev nD) : (dat0 V c).arrAt 3 cfg0.N = G3 V c :=
  (dat0 V c).arrAt_eq_of_cover 3 (G3 V c) (flushed3_eq V c) (cover3 c)

/-- where output window 4's block sits at each point: core half t / 8, the whole of the other two axes -/
theorem hidx4 : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)

/-- the array output window 4 ends at: core half p's slab is the accumulator after that half's last point -/
def G4 (c : Dev nD) : Vec F S2x250x2048 .f32 := fun i =>
  (acc V c (8 * (i 0).val + 7) (by have h0 : (i 0).val < 2 := (i 0).isLt; rw [show cfg0.N = 16 from N_0]; omega)).2.1 (ix3 0 (i 1) (i 2))

theorem G4_at (c : Dev nD) (n : ℕ) (h : n < cfg0.N) (i : S2x250x2048.Idx) (j : S1x250x2048.Idx)
    (h0 : 8 * (i 0).val + 7 = n) (h1 : (i 1).val = (j 1).val) (h2 : (i 2).val = (j 2).val) :
    G4 V c i = (acc V c n h).2.1 j := by
  unfold G4
  rw [acc_congr V c h0 _ h]
  refine congrArg (acc V c n h).2.1 ?_
  funext a
  have hj : (j 0).val < 1 := (j 0).isLt
  match a with
  | ⟨0, _⟩ => exact Fin.ext (by show 0 = (j 0).val; omega)
  | ⟨1, _⟩ => exact Fin.ext h1
  | ⟨2, _⟩ => exact Fin.ext h2

/-- a write-back of output window 4 (after the last point of a core half) writes that half's slab of the array -/
theorem flushed4_eq (c : Dev nD) (t : Fin cfg0.N) (hf : (cfg0.win 4).flush t = true) :
    (dat0 V c).flushed 4 t = ((cfg0.win 4).blk t).view.read (Elt F) (G4 V c) := by
  have h7 : t.val % 8 = 7 := (flush0_4 t).mp hf
  show (cfg0.win 4).cut (grid0.coords t) ((dat0 V c).after 4 t) = _
  rw [after0_4, outsAt0_eq]
  funext y
  rw [View.read_apply]
  have hy0 : (y 0).val < 1 := (y 0).isLt
  refine (G4_at V c t.val t.isLt _ _ ?_ ?_ ?_).symm
  · show 8 * (win0_4.index t 0 * 1 + 1 * (y 0).val) + 7 = t.val
    rw [(hidx4 t).1]; omega
  · show win0_4.index t 1 * 250 + 1 * (y 1).val = (y 1).val
    rw [(hidx4 t).2.1]; omega
  · show win0_4.index t 2 * 2048 + 1 * (y 2).val = (y 2).val
    rw [(hidx4 t).2.2]; omega

/-- the two write-backs of output window 4 cover its array -/
theorem cover4 (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0 : Nat) < 2 := (i 0).isLt
  have h1 : (i 1 : Nat) < 250 := (i 1).isLt
  have h2 : (i 2 : Nat) < 2048 := (i 2).isLt
  have hN : cfg0.N = 16 := N_0
  have ht : 8 * (i 0 : Nat) + 7 < cfg0.N := by rw [hN]; omega
  refine ⟨⟨8 * (i 0 : Nat) + 7, ht⟩, (flush0_4 _).mpr (by show (8 * (i 0 : Nat) + 7) % 8 = 7; omega), ?_⟩
  show i ∈ ((View.whole main_v1_1).slice (win0_4.rect ⟨8 * (i 0 : Nat) + 7, ht⟩)).set
  rw [View.set_slice_whole, Rect.mem_set_unit]
  intro a
  match a with
  | ⟨0, _⟩ =>
    show win0_4.index ⟨8 * (i 0 : Nat) + 7, ht⟩ 0 * 1 ≤ (i 0 : Nat) ∧ (i 0 : Nat) < win0_4.index ⟨8 * (i 0 : Nat) + 7, ht⟩ 0 * 1 + 1
    rw [(hidx4 ⟨8 * (i 0 : Nat) + 7, ht⟩).1]; show (8 * (i 0 : Nat) + 7) / 8 * 1 ≤ (i 0 : Nat) ∧ (i 0 : Nat) < (8 * (i 0 : Nat) + 7) / 8 * 1 + 1; omega
  | ⟨1, _⟩ =>
    show win0_4.index ⟨8 * (i 0 : Nat) + 7, ht⟩ 1 * 250 ≤ (i 1 : Nat) ∧ (i 1 : Nat) < win0_4.index ⟨8 * (i 0 : Nat) + 7, ht⟩ 1 * 250 + 250
    rw [(hidx4 ⟨8 * (i 0 : Nat) + 7, ht⟩).2.1]; omega
  | ⟨2, _⟩ =>
    show win0_4.index ⟨8 * (i 0 : Nat) + 7, ht⟩ 2 * 2048 ≤ (i 2 : Nat) ∧ (i 2 : Nat) < win0_4.index ⟨8 * (i 0 : Nat) + 7, ht⟩ 2 * 2048 + 2048
    rw [(hidx4 ⟨8 * (i 0 : Nat) + 7, ht⟩).2.2]; omega

/-- so output window 4's array ends holding, slab by slab, the accumulator after each core half's last point -/
theorem final4 (c : Dev nD) : (dat0 V c).arrAt 4 cfg0.N = G4 V c :=
  (dat0 V c).arrAt_eq_of_cover 4 (G4 V c) (flushed4_eq V c) (cover4 c)

/-- where output window 5's block sits at each point: core half t / 8, the whole of the other two axes -/
theorem hidx5 : ∀ t : Fin cfg0.N, win0_5.index t 0 = t.val / 8 ∧ win0_5.index t 1 = 0 ∧ win0_5.index t 2 = 0 :=
  (by decide +kernel : ∀ t : Fin grid0.N, win0_5.index t 0 = t.val / 8 ∧ win0_5.index t 1 = 0 ∧ win0_5.index t 2 = 0)

/-- the array output window 5 ends at: core half p's slab is the accumulator after that half's last point -/
def G5 (c : Dev nD) : Vec F S2x250x1 .f32 := fun i =>
  (acc V c (8 * (i 0).val + 7) (by have h0 : (i 0).val < 2 := (i 0).isLt; rw [show cfg0.N = 16 from N_0]; omega)).2.2 (ix3 0 (i 1) (i 2))

theorem G5_at (c : Dev nD) (n : ℕ) (h : n < cfg0.N) (i : S2x250x1.Idx) (j : S1x250x1.Idx)
    (h0 : 8 * (i 0).val + 7 = n) (h1 : (i 1).val = (j 1).val) (h2 : (i 2).val = (j 2).val) :
    G5 V c i = (acc V c n h).2.2 j := by
  unfold G5
  rw [acc_congr V c h0 _ h]
  refine congrArg (acc V c n h).2.2 ?_
  funext a
  have hj : (j 0).val < 1 := (j 0).isLt
  match a with
  | ⟨0, _⟩ => exact Fin.ext (by show 0 = (j 0).val; omega)
  | ⟨1, _⟩ => exact Fin.ext h1
  | ⟨2, _⟩ => exact Fin.ext h2

/-- a write-back of output window 5 (after the last point of a core half) writes that half's slab of the array -/
theorem flushed5_eq (c : Dev nD) (t : Fin cfg0.N) (hf : (cfg0.win 5).flush t = true) :
    (dat0 V c).flushed 5 t = ((cfg0.win 5).blk t).view.read (Elt F) (G5 V c) := by
  have h7 : t.val % 8 = 7 := (flush0_5 t).mp hf
  show (cfg0.win 5).cut (grid0.coords t) ((dat0 V c).after 5 t) = _
  rw [after0_5, outsAt0_eq]
  funext y
  rw [View.read_apply]
  have hy0 : (y 0).val < 1 := (y 0).isLt
  refine (G5_at V c t.val t.isLt _ _ ?_ ?_ ?_).symm
  · show 8 * (win0_5.index t 0 * 1 + 1 * (y 0).val) + 7 = t.val
    rw [(hidx5 t).1]; omega
  · show win0_5.index t 1 * 250 + 1 * (y 1).val = (y 1).val
    rw [(hidx5 t).2.1]; omega
  · show win0_5.index t 2 * 1 + 1 * (y 2).val = (y 2).val
    rw [(hidx5 t).2.2]; omega

/-- the two write-backs of output window 5 cover its array -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0 : Nat) < 2 := (i 0).isLt
  have h1 : (i 1 : Nat) < 250 := (i 1).isLt
  have h2 : (i 2 : Nat) < 1 := (i 2).isLt
  have hN : cfg0.N = 16 := N_0
  have ht : 8 * (i 0 : Nat) + 7 < cfg0.N := by rw [hN]; omega
  refine ⟨⟨8 * (i 0 : Nat) + 7, ht⟩, (flush0_5 _).mpr (by show (8 * (i 0 : Nat) + 7) % 8 = 7; omega), ?_⟩
  show i ∈ ((View.whole main_v1_2).slice (win0_5.rect ⟨8 * (i 0 : Nat) + 7, ht⟩)).set
  rw [View.set_slice_whole, Rect.mem_set_unit]
  intro a
  match a with
  | ⟨0, _⟩ =>
    show win0_5.index ⟨8 * (i 0 : Nat) + 7, ht⟩ 0 * 1 ≤ (i 0 : Nat) ∧ (i 0 : Nat) < win0_5.index ⟨8 * (i 0 : Nat) + 7, ht⟩ 0 * 1 + 1
    rw [(hidx5 ⟨8 * (i 0 : Nat) + 7, ht⟩).1]; show (8 * (i 0 : Nat) + 7) / 8 * 1 ≤ (i 0 : Nat) ∧ (i 0 : Nat) < (8 * (i 0 : Nat) + 7) / 8 * 1 + 1; omega
  | ⟨1, _⟩ =>
    show win0_5.index ⟨8 * (i 0 : Nat) + 7, ht⟩ 1 * 250 ≤ (i 1 : Nat) ∧ (i 1 : Nat) < win0_5.index ⟨8 * (i 0 : Nat) + 7, ht⟩ 1 * 250 + 250
    rw [(hidx5 ⟨8 * (i 0 : Nat) + 7, ht⟩).2.1]; omega
  | ⟨2, _⟩ =>
    show win0_5.index ⟨8 * (i 0 : Nat) + 7, ht⟩ 2 * 1 ≤ (i 2 : Nat) ∧ (i 2 : Nat) < win0_5.index ⟨8 * (i 0 : Nat) + 7, ht⟩ 2 * 1 + 1
    rw [(hidx5 ⟨8 * (i 0 : Nat) + 7, ht⟩).2.2]; omega

/-- so output window 5's array ends holding, slab by slab, the accumulator after each core half's last point -/
theorem final5 (c : Dev nD) : (dat0 V c).arrAt 5 cfg0.N = G5 V c :=
  (dat0 V c).arrAt_eq_of_cover 5 (G5 V c) (flushed5_eq V c) (cover5 c)

theorem arr3 (c : Dev nD) (p : Fin 2) (h : 8 * p.val + 7 < cfg0.N) :
    (dat0 V c).arrAt 3 cfg0.N (ix3 p 0 0) = (acc V c (8 * p.val + 7) h).1 (ix3 0 0 0) :=
  (congrFun (final3 V c) (ix3 p 0 0)).trans (G3_at V c (8 * p.val + 7) h (ix3 p 0 0) (ix3 0 0 0) rfl rfl rfl)
theorem arr4 (c : Dev nD) (p : Fin 2) (h : 8 * p.val + 7 < cfg0.N) (k : Fin 250) (d : Fin 2048) :
    (dat0 V c).arrAt 4 cfg0.N (ix3 p k d) = (acc V c (8 * p.val + 7) h).2.1 (ix3 0 k d) :=
  (congrFun (final4 V c) (ix3 p k d)).trans (G4_at V c (8 * p.val + 7) h (ix3 p k d) (ix3 0 k d) rfl rfl rfl)

theorem arr5 (c : Dev nD) (p : Fin 2) (h : 8 * p.val + 7 < cfg0.N) (k : Fin 250) :
    (dat0 V c).arrAt 5 cfg0.N (ix3 p k 0) = (acc V c (8 * p.val + 7) h).2.2 (ix3 0 k 0) :=
  (congrFun (final5 V c) (ix3 p k 0)).trans (G5_at V c (8 * p.val + 7) h (ix3 p k 0) (ix3 0 k 0) rfl rfl rfl)

/-! ## The input blocks read at an index

Point t's block of the logits and of the embeddings is rows 1024 t … 1024 t + 1023 of its array, and its block of the
labels is columns 1024 t … 1024 t + 1023. -/

theorem hidx0 : ∀ t : Fin cfg0.N, win0_0.index t 0 = t.val ∧ win0_0.index t 1 = 0 :=
  (by decide +kernel : ∀ t : Fin grid0.N, win0_0.index t 0 = t.val ∧ win0_0.index t 1 = 0)
theorem hidx1 : ∀ t : Fin cfg0.N, win0_1.index t 0 = 0 ∧ win0_1.index t 1 = t.val :=
  (by decide +kernel : ∀ t : Fin grid0.N, win0_1.index t 0 = 0 ∧ win0_1.index t 1 = t.val)
theorem hidx2 : ∀ t : Fin cfg0.N, win0_2.index t 0 = t.val ∧ win0_2.index t 1 = 0 :=
  (by decide +kernel : ∀ t : Fin grid0.N, win0_2.index t 0 = t.val ∧ win0_2.index t 1 = 0)

theorem blk0_apply (c : Dev nD) (t : Fin cfg0.N) (r : Fin 1024) (k : Fin 250) (h : 1024 * t.val + r.val < 16384) :
    iblk0 V c 0 t (ix2 r k) = V c (Pipeline.arrRef spec0 0) (ix2 ⟨1024 * t.val + r.val, h⟩ k) := by
  unfold iblk0
  rw [View.read_apply]
  refine congrArg (V c (Pipeline.arrRef spec0 0)) ?_
  funext a
  apply Fin.ext
  match a with
  | ⟨0, _⟩ => show win0_0.index t 0 * 1024 + 1 * r.val = 1024 * t.val + r.val; rw [(hidx0 t).1]; omega
  | ⟨1, _⟩ => show win0_0.index t 1 * 250 + 1 * k.val = k.val; rw [(hidx0 t).2]; omega

theorem blk1_apply (c : Dev nD) (t : Fin cfg0.N) (r : Fin 1024) (h : 1024 * t.val + r.val < 16384) :
    iblk0 V c 1 t (ix2 0 r) = V c (Pipeline.arrRef spec0 1) (ix2 0 ⟨1024 * t.val + r.val, h⟩) := by
  unfold iblk0
  rw [View.read_apply]
  refine congrArg (V c (Pipeline.arrRef spec0 1)) ?_
  funext a
  apply Fin.ext
  match a with
  | ⟨0, _⟩ => show win0_1.index t 0 * 1 + 1 * 0 = 0; rw [(hidx1 t).1]
  | ⟨1, _⟩ => show win0_1.index t 1 * 1024 + 1 * r.val = 1024 * t.val + r.val; rw [(hidx1 t).2]; omega

theorem blk2_apply (c : Dev nD) (t : Fin cfg0.N) (r : Fin 1024) (d : Fin 2048) (h : 1024 * t.val + r.val < 16384) :
    iblk0 V c 2 t (ix2 r d) = V c (Pipeline.arrRef spec0 2) (ix2 ⟨1024 * t.val + r.val, h⟩ d) := by
  unfold iblk0
  rw [View.read_apply]
  refine congrArg (V c (Pipeline.arrRef spec0 2)) ?_
  funext a
  apply Fin.ext
  match a with
  | ⟨0, _⟩ => show win0_2.index t 0 * 1024 + 1 * r.val = 1024 * t.val + r.val; rw [(hidx2 t).1]; omega
  | ⟨1, _⟩ => show win0_2.index t 1 * 2048 + 1 * d.val = d.val; rw [(hidx2 t).2]; omega

end Cert.KernelIdeal.R0

end
-- ==== Proof.Spec.lean ====
/-
  The mathematics both programs compute, over the extended reals, written once: the one-hot weight of a label,
  a row's maximum and log-sum-exp, a row scaled to unit length, and the hinge of a sample against a centroid.
  The kernel's blocks and the reference's whole arrays are both read as these functions of rows.
-/
import Idealize.ShloMosaic.PureOps.Ideal
import Idealize.ShloMosaic.Lib.ValueIdx

noncomputable section

namespace Cert.Spec

open Idealize.ShloMosaic

/-- The weight a sample with label word `l` gives class `k`: one when `l` is `k`'s word, zero otherwise. -/
def oh (l : BitVec 32) (k : ℕ) : EReal := if l = BitVec.ofNat 32 k then 1 else 0

/-- The floor under a length (the f32 nearest 1e-12), the factor two, and the margin (the f32 nearest 1.2). -/
def eps : EReal := Ideal.ofBits .f32 0x2B8CBCCC#32
def two : EReal := Ideal.ofBits .f32 0x40000000#32
def margin : EReal := Ideal.ofBits .f32 0x3F99999A#32

/-- A row's greatest entry (the fold of `max` from the bottom). -/
def rowMax {n : ℕ} (x : Fin n → EReal) : EReal := (Finset.univ : Finset (Fin n)).fold max ⊥ x

/-- The logarithm of the sum of the exponentials of a row shifted by its greatest entry. -/
def lse {n : ℕ} (x : Fin n → EReal) : EReal := Ideal.log (∑ k, Ideal.exp (x k - rowMax x))

/-- A row's length, floored at `eps`. -/
def len {n : ℕ} (e : Fin n → EReal) : EReal := max (Ideal.sqrt (∑ k, e k * e k)) eps

/-- A row scaled to unit length. -/
def unit {n : ℕ} (e : Fin n → EReal) (k : Fin n) : EReal := Ideal.div (e k) (len e)

/-- The squared length of a row. -/
def sq {n : ℕ} (e : Fin n → EReal) : EReal := ∑ k, e k * e k

/-- The hinge of a (unit) sample row `u` against a (unit) centroid row `cn` whose squared length is `b2`:
    the margin less their distance, floored at zero; the squared distance is floored at zero before its root. -/
def hinge {n : ℕ} (u cn : Fin n → EReal) (b2 : EReal) : EReal :=
  max (margin - Ideal.sqrt (max 0 ((sq u + b2) - two * ∑ k, u k * cn k))) 0

/-- An extended real that is a real number. -/
def IsReal (x : EReal) : Prop := x ≠ ⊤ ∧ x ≠ ⊥

end Cert.Spec

end
-- ==== Proof.R0Math.lean ====
/-
  The arithmetic of the first region's payloads over the extended reals, each read at one index: the one-hot of the
  labels with the class on the leading axis, the three zero blocks, the per-class count of a block's samples, the
  per-class sum of a block's sample rows, and a block's cross-entropy term (the sum over its rows of the row's greatest
  entry plus its log-sum-exp, less the sum of the entries the labels select).
-/
import proofs.«429416_j283467841734_3_alg».proof.Proof.Gen.KernelIdeal.Skeleton
import proofs.«429416_j283467841734_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open Idealize.ShloMosaic Idealize.ShloMosaic.ValueIdx Cert.KernelIdeal Cert.KernelIdeal.Gen Cert.Spec

namespace Cert.KernelIdeal.R0Math

/-- The word of an integer comparison for equality, widened and read as a number: one when the two words agree, zero
    otherwise. -/
theorem sitofp_cmpi_eq (a b : BitVec 32) :
    FloatOps.sitofp (F := Ideal) .f32 ((IntOp.cmpi .eq a b).setWidth 32) = if b = a then (1 : EReal) else 0 := by
  show ((((IntOp.cmpi .eq a b).setWidth 32).toInt : ℝ) : EReal) = _
  by_cases h : b = a
  · subst h
    rw [if_pos rfl]
    have : IntOp.cmpi .eq b b = 1#1 := by simp [IntOp.cmpi]
    rw [this]
    have : ((1#1 : BitVec 1).setWidth 32).toInt = 1 := by decide
    rw [this]; simp
  · rw [if_neg h]
    have : IntOp.cmpi .eq a b = 0#1 := by
      have hne : a ≠ b := fun e => h e.symm
      show BitVec.ofBool (a == b) = 0#1
      rw [beq_eq_false_iff_ne.mpr hne]
      rfl
    rw [this]
    have : ((0#1 : BitVec 1).setWidth 32).toInt = 0 := by decide
    rw [this]; simp

/-- The one-hot of the labels, class on the leading axis: at class `k` and sample `r` it is the weight the sample's
    label gives the class. -/
theorem pay7_apply (x1 : Vec Ideal S1x1024 .i32) (k : Fin 250) (r : Fin 1024) :
    k0_pay7 (F := Ideal) x1 (ix2 k r) = oh (x1 (ix2 0 r)) k.val := by
  unfold k0_pay7
  show FloatOps.sitofp (F := Ideal) .f32 ((IntOp.cmpi .eq (iota .tc S250x1024 32 [0] iota_S250x1024_d0_w32 (ix2 k r))
      (broadcastTo S250x1024 (shapeCast S1x1024 x1 shapeCasts_S1x1024_S1x1024) broadcasts_S1x1024_S250x1024 (ix2 k r))).setWidth 32) = _
  rw [iota_single_apply, shapeCast_self, broadcastTo_1b_ab_apply, sitofp_cmpi_eq]
  rfl

/-- The word of positive zero denotes zero, on the scalar unit too. -/
theorem scalar_zero : Scalar.ofBits (F := Ideal) .f32 0x00000000#32 = (0 : EReal) := Ideal.ofBits_zero_f32

/-- The zero cell. -/
theorem pay4_apply : k0_pay4 (F := Ideal) (ix3 0 0 0) = 0 := by
  unfold k0_pay4
  exact (shapeCast_ab_1ab_apply _ _ 0 0 0).trans scalar_zero

/-- The zero block of class sums. -/
theorem pay5_apply (k : Fin 250) (d : Fin 2048) : k0_pay5 (F := Ideal) (ix3 0 k d) = 0 := by
  unfold k0_pay5
  exact (shapeCast_ab_1ab_apply _ _ 0 k d).trans scalar_zero

/-- The zero block of class counts. -/
theorem pay6_apply (k : Fin 250) : k0_pay6 (F := Ideal) (ix3 0 k 0) = 0 := by
  unfold k0_pay6
  exact (shapeCast_ab_1ab_apply _ _ 0 k 0).trans scalar_zero

/-- A column `[a]` viewed `[a, 1]` reads, at `(i, 0)`, the column at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the samples of a `[250, 1024]` block, at class `k`. -/
theorem laneSum_apply (v : FVec Ideal S250x1024 .f32) (k : Fin 250) :
    multiReduction (F := Ideal) .add [1] S250 v 0x00000000#32 reduces_S250x1024_S250 (.inl rfl) rfl (ix1 k)
      = ∑ r : Fin 1024, v (ix2 k r) := by
  refine (Ideal.multiReduction_add_single v 0x00000000#32 reduces_S250x1024_S250 (.inl rfl) rfl (ix1 k)).trans ?_
  refine Finset.sum_congr rfl fun r _ => congrArg v ?_
  funext a
  apply Fin.ext
  match a with
  | ⟨0, _⟩ => rfl
  | ⟨1, _⟩ => rfl

/-- The class counts: the running count of class `k` plus the number of the block's samples labelled `k`. -/
theorem pay3_apply (x1 : Vec Ideal S1x1024 .i32) (y : Vec Ideal S1x250x1 .f32) (k : Fin 250) :
    k0_pay3 (F := Ideal) (k0_pay7 x1) y (ix3 0 k 0) = y (ix3 0 k 0) + ∑ r : Fin 1024, oh (x1 (ix2 0 r)) k.val := by
  unfold k0_pay3
  refine (shapeCast_ab_1ab_apply _ _ 0 k 0).trans ?_
  rw [addf_apply, shapeCast_1ab_ab_apply, shapeCast_a_a1_apply, laneSum_apply]
  exact congrArg (y (ix3 0 k 0) + ·) (Finset.sum_congr rfl fun r _ => pay7_apply x1 k r)

/-! ## A real number less itself, and the narrowed one-hot -/

/-- Over the extended reals a real number less itself is zero (an infinity less itself is not). -/
theorem sub_self_of_isReal {x : EReal} (h : IsReal x) : x - x = 0 := by
  induction x using EReal.rec with
  | bot => exact absurd rfl h.2
  | top => exact absurd rfl h.1
  | coe r => rw [← EReal.coe_sub, sub_self, EReal.coe_zero]

/-- The narrowed one-hot is the one-hot: a change of format is the identity on the extended reals. -/
theorem pay8_apply (x1 : Vec Ideal S1x1024 .i32) (k : Fin 250) (r : Fin 1024) :
    k0_pay8 (F := Ideal) x1 (ix2 k r) = oh (x1 (ix2 0 r)) k.val := by
  unfold k0_pay8
  exact pay7_apply x1 k r

/-- The one-hot weights against a block whose entries are real, split in a high and a low part: the low part, the
    block less itself, is zero, so the two products add up to the one sum of weight times entry. -/
theorem split_sum (w : Fin 1024 → EReal) (x : Fin 1024 → EReal) (hx : ∀ r, IsReal (x r)) :
    (∑ r, w r * x r) + (∑ r, w r * (x r - x r)) = ∑ r, w r * x r := by
  have h0 : (∑ r, w r * (x r - x r)) = 0 :=
    Finset.sum_eq_zero fun r _ => by rw [sub_self_of_isReal (hx r), mul_zero]
  rw [h0, add_zero]

/-! ## The per-class sums of the sample rows -/

theorem lhs_cs_0 (i : S250x2048.Idx) (q : dot_S250x1024_S1024x2048_S250x2048_1_0_0_1_n_n.contr.Idx) :
    (dot_S250x1024_S1024x2048_S250x2048_1_0_0_1_n_n.lhsIdx i q 0).val = (i 0).val := by
  unfold DotDims.lhsIdx
  rw [dif_neg (show ¬(0 : Fin S250x1024.rank) ∈ dot_S250x1024_S1024x2048_S250x2048_1_0_0_1_n_n.lhsBatch by decide), dif_pos (show (0 : Fin S250x1024.rank) ∈ dot_S250x1024_S1024x2048_S250x2048_1_0_0_1_n_n.lhsNonContracting by decide)]
  rfl
theorem lhs_cs_1 (i : S250x2048.Idx) (q : dot_S250x1024_S1024x2048_S250x2048_1_0_0_1_n_n.contr.Idx) :
    (dot_S250x1024_S1024x2048_S250x2048_1_0_0_1_n_n.lhsIdx i q 1).val = (q ⟨0, by decide⟩).val :=
  dot_S250x1024_S1024x2048_S250x2048_1_0_0_1_n_n.lhsIdx_val_of_single rfl i q
theorem rhs_cs_0 (i : S250x2048.Idx) (q : dot_S250x1024_S1024x2048_S250x2048_1_0_0_1_n_n.contr.Idx) :
    (dot_S250x1024_S1024x2048_S250x2048_1_0_0_1_n_n.rhsIdx i q 0).val = (q ⟨0, by decide⟩).val :=
  dot_S250x1024_S1024x2048_S250x2048_1_0_0_1_n_n.rhsIdx_val_of_single rfl i q
theorem rhs_cs_1 (i : S250x2048.Idx) (q : dot_S250x1024_S1024x2048_S250x2048_1_0_0_1_n_n.contr.Idx) :
    (dot_S250x1024_S1024x2048_S250x2048_1_0_0_1_n_n.rhsIdx i q 1).val = (i 1).val := by
  unfold DotDims.rhsIdx
  rw [dif_neg (show ¬(1 : Fin S1024x2048.rank) ∈ dot_S250x1024_S1024x2048_S250x2048_1_0_0_1_n_n.rhsBatch by decide), dif_pos (show (1 : Fin S1024x2048.rank) ∈ dot_S250x1024_S1024x2048_S250x2048_1_0_0_1_n_n.rhsNonContracting by decide)]
  rfl

/-- The product of a `[250, 1024]` block and a `[1024, 2048]` block onto zero, at `(k, d)`: the sum over the
    1024 samples of the products of the entries. -/
theorem matmul_cs_apply (a : FVec Ideal S250x1024 .bf16) (b : FVec Ideal S1024x2048 .bf16) (k : Fin 250) (d : Fin 2048) :
    matmul dot_S250x1024_S1024x2048_S250x2048_1_0_0_1_n_n none a b (constant (F := Ideal) S250x2048 .f32 0x00000000#32) (ix2 k d)
      = ∑ r : Fin 1024, a (ix2 k r) * b (ix2 r d) := by
  simp only [matmul]
  rw [Ideal.matmul_constant_zero_apply, ← Equiv.sum_comp (contrEquiv1 dot_S250x1024_S1024x2048_S250x2048_1_0_0_1_n_n 1024 rfl rfl).symm]
  refine Finset.sum_congr rfl fun r _ => ?_
  have hk := contrEquiv1_symm_val dot_S250x1024_S1024x2048_S250x2048_1_0_0_1_n_n 1024 rfl rfl r
  have el : dot_S250x1024_S1024x2048_S250x2048_1_0_0_1_n_n.lhsIdx (ix2 k d) ((contrEquiv1 dot_S250x1024_S1024x2048_S250x2048_1_0_0_1_n_n 1024 rfl rfl).symm r) = ix2 k r := funext fun ax => Fin.ext (by
    match ax with
    | ⟨0, _⟩ => exact lhs_cs_0 _ _
    | ⟨1, _⟩ => exact (lhs_cs_1 _ _).trans hk)
  have er : dot_S250x1024_S1024x2048_S250x2048_1_0_0_1_n_n.rhsIdx (ix2 k d) ((contrEquiv1 dot_S250x1024_S1024x2048_S250x2048_1_0_0_1_n_n 1024 rfl rfl).symm r) = ix2 r d := funext fun ax => Fin.ext (by
    match ax with
    | ⟨0, _⟩ => exact (rhs_cs_0 _ _).trans hk
    | ⟨1, _⟩ => exact rhs_cs_1 _ _)
  rw [el, er]

/-- The class sums: the running sum of class `k` at feature `d` plus the sum of that feature over the block's samples
    labelled `k`. -/
theorem pay2_apply (x1 : Vec Ideal S1x1024 .i32) (x2 : Vec Ideal S1024x2048 .f32) (y : Vec Ideal S1x250x2048 .f32)
    (hx2 : ∀ i, IsReal (x2 i)) (k : Fin 250) (d : Fin 2048) :
    k0_pay2 (F := Ideal) (k0_pay8 x1) x2 y (ix3 0 k d)
      = y (ix3 0 k d) + ∑ r : Fin 1024, oh (x1 (ix2 0 r)) k.val * x2 (ix2 r d) := by
  unfold k0_pay2
  refine (shapeCast_ab_1ab_apply _ _ 0 k d).trans ?_
  rw [addf_apply, shapeCast_1ab_ab_apply, addf_apply, matmul_cs_apply, matmul_cs_apply]
  refine congrArg (y (ix3 0 k d) + ·) ?_
  refine Eq.trans ?_ (split_sum (fun r => oh (x1 (ix2 0 r)) k.val) (fun r => x2 (ix2 r d)) (fun r => hx2 _))
  refine congrArg₂ (· + ·) (Finset.sum_congr rfl fun r _ => ?_) (Finset.sum_congr rfl fun r _ => ?_)
  · rw [pay8_apply]; rfl
  · rw [pay8_apply]; rfl

/-! ## The cross-entropy term -/

/-- The word of negative infinity denotes the bottom of the extended reals. -/
theorem ofBits_neg_inf : Ideal.ofBits .f32 0xFF800000#32 = (⊥ : EReal) := by simp [Ideal.ofBits, Ideal.ieee]

/-- A column `[a, 1]` repeated along its rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    ⟨fun i => (i 0, i 1, i 2), fun p => ix3 p.1 p.2.1 p.2.2, fun i => (eq_ix3 i).symm, fun _ => rfl⟩
  rw [← Equiv.sum_comp e.symm f, Fintype.sum_prod_type]
  refine Finset.sum_congr rfl fun a _ => ?_
  rw [Fintype.sum_prod_type]
  rfl

/-- A row's greatest entry, at row `r`. -/
theorem rowMax_apply (x0 : FVec Ideal S1024x250 .f32) (r : Fin 1024) :
    multiReduction (F := Ideal) .maximumf [1] S1024 x0 0xFF800000#32 reduces_S1024x250_S1024 (.inl rfl) rfl (ix1 r)
      = rowMax (fun k : Fin 250 => x0 (ix2 r k)) := by
  refine (Ideal.multiReduction_maximumf_single x0 0xFF800000#32 reduces_S1024x250_S1024 (.inl rfl) rfl (ix1 r)).trans ?_
  have e : (x0 ∘ reduces_S1024x250_S1024.lift (ix1 r)) = fun k : Fin 250 => x0 (ix2 r k) := by
    funext k
    refine congrArg x0 ?_
    funext a
    apply Fin.ext
    match a with
    | ⟨0, _⟩ => rfl
    | ⟨1, _⟩ => rfl
  show (Finset.univ : Finset (Fin 250)).fold max (Ideal.ofBits .f32 0xFF800000#32) (x0 ∘ reduces_S1024x250_S1024.lift (ix1 r))
    = (Finset.univ : Finset (Fin 250)).fold max ⊥ (fun k : Fin 250 => x0 (ix2 r k))
  rw [ofBits_neg_inf, e]
  rfl

/-- A row's sum, at row `r`. -/
theorem rowSum_apply (v : FVec Ideal S1024x250 .f32) (r : Fin 1024) :
    multiReduction (F := Ideal) .add [1] S1024 v 0x00000000#32 reduces_S1024x250_S1024 (.inl rfl) rfl (ix1 r)
      = ∑ k : Fin 250, v (ix2 r k) := by
  refine (Ideal.multiReduction_add_single v 0x00000000#32 reduces_S1024x250_S1024 (.inl rfl) rfl (ix1 r)).trans ?_
  refine Finset.sum_congr rfl fun k _ => congrArg v ?_
  funext a
  apply Fin.ext
  match a with
  | ⟨0, _⟩ => rfl
  | ⟨1, _⟩ => rfl

/-- The total of a `[1, 1024, 1]` block, read out of its one cell: the sum over the rows. -/
theorem total_rows (v : FVec Ideal S1x1024x1 .f32) :
    extractAt ![0, 0, 0] (shapeCast S1x1x1 (multiReduction (F := Ideal) .add [1, 2] S1 v 0x00000000#32
        reduces_S1x1024x1_S1 (.inl rfl) rfl) shapeCasts_S1_S1x1x1) inpos_S1x1x1_p0_0_0
      = ∑ r : Fin 1024, v (ix3 0 r 0) := by
  unfold extractAt shapeCast
  refine (Ideal.multiReduction_add_total v 0x00000000#32 reduces_S1x1024x1_S1 (fun b => ?_) (.inl rfl) rfl _).trans ?_
  · match b with
    | ⟨0, _⟩ => rfl
  · rw [sum_idx3, Fin.sum_univ_one]
    refine Finset.sum_congr rfl fun r _ => ?_
    rw [Fin.sum_univ_one]

/-- The total of a `[1, 250, 250]` block, read out of its one cell: the double sum over its two long axes. -/
theorem total_square (v : FVec Ideal S1x250x250 .f32) :
    extractAt ![0, 0, 0] (shapeCast S1x1x1 (multiReduction (F := Ideal) .add [1, 2] S1 v 0x00000000#32
        reduces_S1x250x250_S1 (.inl rfl) rfl) shapeCasts_S1_S1x1x1) inpos_S1x1x1_p0_0_0
      = ∑ k : Fin 250, ∑ k' : Fin 250, v (ix3 0 k k') := by
  unfold extractAt shapeCast
  refine (Ideal.multiReduction_add_total v 0x00000000#32 reduces_S1x250x250_S1 (fun b => ?_) (.inl rfl) rfl _).trans ?_
  · match b with
    | ⟨0, _⟩ => rfl
  · rw [sum_idx3, Fin.sum_univ_one]

theorem lhs_ce_0 (i : S250x250.Idx) (q : dot_S250x1024_S1024x250_S250x250_1_0_0_1_n_n.contr.Idx) :
    (dot_S250x1024_S1024x250_S250x250_1_0_0_1_n_n.lhsIdx i q 0).val = (i 0).val := by
  unfold DotDims.lhsIdx
  rw [dif_neg (show ¬(0 : Fin S250x1024.rank) ∈ dot_S250x1024_S1024x250_S250x250_1_0_0_1_n_n.lhsBatch by decide), dif_pos (show (0 : Fin S250x1024.rank) ∈ dot_S250x1024_S1024x250_S250x250_1_0_0_1_n_n.lhsNonContracting by decide)]
  rfl
theorem lhs_ce_1 (i : S250x250.Idx) (q : dot_S250x1024_S1024x250_S250x250_1_0_0_1_n_n.contr.Idx) :
    (dot_S250x1024_S1024x250_S250x250_1_0_0_1_n_n.lhsIdx i q 1).val = (q ⟨0, by decide⟩).val :=
  dot_S250x1024_S1024x250_S250x250_1_0_0_1_n_n.lhsIdx_val_of_single rfl i q
theorem rhs_ce_0 (i : S250x250.Idx) (q : dot_S250x1024_S1024x250_S250x250_1_0_0_1_n_n.contr.Idx) :
    (dot_S250x1024_S1024x250_S250x250_1_0_0_1_n_n.rhsIdx i q 0).val = (q ⟨0, by decide⟩).val :=
  dot_S250x1024_S1024x250_S250x250_1_0_0_1_n_n.rhsIdx_val_of_single rfl i q
theorem rhs_ce_1 (i : S250x250.Idx) (q : dot_S250x1024_S1024x250_S250x250_1_0_0_1_n_n.contr.Idx) :
    (dot_S250x1024_S1024x250_S250x250_1_0_0_1_n_n.rhsIdx i q 1).val = (i 1).val := by
  unfold DotDims.rhsIdx
  rw [dif_neg (show ¬(1 : Fin S1024x250.rank) ∈ dot_S250x1024_S1024x250_S250x250_1_0_0_1_n_n.rhsBatch by decide), dif_pos (show (1 : Fin S1024x250.rank) ∈ dot_S250x1024_S1024x250_S250x250_1_0_0_1_n_n.rhsNonContracting by decide)]
  rfl

/-- The product of a `[250, 1024]` block and a `[1024, 250]` block onto zero, at `(k, d)`: the sum over the
    1024 samples of the products of the entries. -/
theorem matmul_ce_apply (a : FVec Ideal S250x1024 .bf16) (b : FVec Ideal S1024x250 .bf16) (k : Fin 250) (d : Fin 250) :
    matmul dot_S250x1024_S1024x250_S250x250_1_0_0_1_n_n none a b (constant (F := Ideal) S250x250 .f32 0x00000000#32) (ix2 k d)
      = ∑ r : Fin 1024, a (ix2 k r) * b (ix2 r d) := by
  simp only [matmul]
  rw [Ideal.matmul_constant_zero_apply, ← Equiv.sum_comp (contrEquiv1 dot_S250x1024_S1024x250_S250x250_1_0_0_1_n_n 1024 rfl rfl).symm]
  refine Finset.sum_congr rfl fun r _ => ?_
  have hk := contrEquiv1_symm_val dot_S250x1024_S1024x250_S250x250_1_0_0_1_n_n 1024 rfl rfl r
  have el : dot_S250x1024_S1024x250_S250x250_1_0_0_1_n_n.lhsIdx (ix2 k d) ((contrEquiv1 dot_S250x1024_S1024x250_S250x250_1_0_0_1_n_n 1024 rfl rfl).symm r) = ix2 k r := funext fun ax => Fin.ext (by
    match ax with
    | ⟨0, _⟩ => exact lhs_ce_0 _ _
    | ⟨1, _⟩ => exact (lhs_ce_1 _ _).trans hk)
  have er : dot_S250x1024_S1024x250_S250x250_1_0_0_1_n_n.rhsIdx (ix2 k d) ((contrEquiv1 dot_S250x1024_S1024x250_S250x250_1_0_0_1_n_n 1024 rfl rfl).symm r) = ix2 r d := funext fun ax => Fin.ext (by
    match ax with
    | ⟨0, _⟩ => exact (rhs_ce_0 _ _).trans hk
    | ⟨1, _⟩ => exact rhs_ce_1 _ _)
  rw [el, er]

/-- Two class numbers have the same word exactly when they are the same class. -/
theorem ofNat_inj_250 (a b : Fin 250) : BitVec.ofNat 32 a.val = BitVec.ofNat 32 b.val ↔ a = b := by
  constructor
  · intro h
    have h' := congrArg BitVec.toNat h
    simp only [BitVec.toNat_ofNat] at h'
    apply Fin.ext
    have := a.isLt
    have := b.isLt
    omega
  · rintro rfl
    rfl

/-- The identity matrix of the classes: one on the diagonal, zero off it. -/
theorem eye_apply (k k' : Fin 250) :
    (sitofp .f32 (extui 32 (cmpi .eq (iota .tc S250x250 32 [0] iota_S250x250_d0_w32)
        (iota .tc S250x250 32 [1] iota_S250x250_d1_w32)) natLt_1_32) : FVec Ideal S250x250 .f32) (ix2 k k')
      = if k' = k then (1 : EReal) else 0 := by
  show FloatOps.sitofp (F := Ideal) .f32 ((IntOp.cmpi .eq (iota .tc S250x250 32 [0] iota_S250x250_d0_w32 (ix2 k k'))
      (iota .tc S250x250 32 [1] iota_S250x250_d1_w32 (ix2 k k'))).setWidth 32) = _
  rw [iota_single_apply, iota_single_apply, sitofp_cmpi_eq]
  show (if BitVec.ofNat 32 k'.val = BitVec.ofNat 32 k.val then (1 : EReal) else 0) = _
  by_cases h : k' = k
  · subst h
    rw [if_pos rfl, if_pos rfl]
  · rw [if_neg h, if_neg (fun e => h ((ofNat_inj_250 _ _).mp e))]

/-- A matrix masked by the identity sums, along a row, to its diagonal entry. -/
theorem sum_mul_eye (f : Fin 250 → EReal) (k : Fin 250) :
    (∑ k' : Fin 250, f k' * (if k' = k then (1 : EReal) else 0)) = f k := by
  simp only [mul_ite, mul_one, mul_zero, Finset.sum_ite_eq', Finset.mem_univ, if_true]

/-- A logarithm and an exponential of a block, at an index: of the entry there. -/
theorem log_apply {s : Shape} (v : FVec Ideal s .f32) (i : s.Idx) : Idealize.ShloMosaic.log v i = Ideal.log (v i) := rfl
theorem exp_apply {s : Shape} (v : FVec Ideal s .f32) (i : s.Idx) : Idealize.ShloMosaic.exp v i = Ideal.exp (v i) := rfl

/-- The block's cross-entropy term: the sum over its rows of the greatest entry plus the log-sum-exp, less the sum of
    the entries the labels select (the selected matrix masked by the identity and summed). -/
theorem pay9_eq (x0 : Vec Ideal S1024x250 .f32) (x1 : Vec Ideal S1x1024 .i32) (hx0 : ∀ i, IsReal (x0 i)) :
    k0_pay9 (F := Ideal) x0 x1
      = (∑ r : Fin 1024, (rowMax (fun k : Fin 250 => x0 (ix2 r k)) + lse (fun k : Fin 250 => x0 (ix2 r k))))
          - ∑ k : Fin 250, ∑ r : Fin 1024, oh (x1 (ix2 0 r)) k.val * x0 (ix2 r k) := by
  unfold k0_pay9
  dsimp only
  rw [Ideal.scalar_subf_def, total_rows, total_square]
  refine congrArg₂ (· - ·) (Finset.sum_congr rfl fun r _ => ?_) (Finset.sum_congr rfl fun k _ => ?_)
  · rw [shapeCast_ab_1ab_apply, addf_apply, shapeCast_a_a1_apply, rowMax_apply]
    refine congrArg (rowMax (fun k : Fin 250 => x0 (ix2 r k)) + ·) ?_
    rw [log_apply, shapeCast_a_a1_apply, rowSum_apply]
    unfold lse
    refine congrArg Ideal.log (Finset.sum_congr rfl fun k _ => ?_)
    rw [exp_apply, subf_apply, broadcastTo_a1_ab_apply, shapeCast_a_a1_apply, rowMax_apply]
  · refine Eq.trans (Finset.sum_congr rfl fun k' _ => ?_)
      (sum_mul_eye (fun k' => ∑ r : Fin 1024, oh (x1 (ix2 0 r)) k.val * x0 (ix2 r k')) k)
    show _ = (∑ r : Fin 1024, oh (x1 (ix2 0 r)) k.val * x0 (ix2 r k')) * (if k' = k then (1 : EReal) else 0)
    rw [shapeCast_ab_1ab_apply, mulf_apply, addf_apply, matmul_ce_apply, matmul_ce_apply, eye_apply]
    refine congrArg (· * (if k' = k then (1 : EReal) else 0)) ?_
    refine Eq.trans ?_ (split_sum (fun r => oh (x1 (ix2 0 r)) k.val) (fun r => x0 (ix2 r k')) (fun r => hx0 _))
    refine congrArg₂ (· + ·) (Finset.sum_congr rfl fun r _ => ?_) (Finset.sum_congr rfl fun r _ => ?_)
    · rw [pay8_apply]; rfl
    · rw [pay8_apply]; rfl

/-- The loss cell: the running loss plus the block's cross-entropy term. -/
theorem pay1_apply (x0 : Vec Ideal S1024x250 .f32) (x1 : Vec Ideal S1x1024 .i32) (y : Vec Ideal S1x1x1 .f32)
    (hx0 : ∀ i, IsReal (x0 i)) :
    k0_pay1 (F := Ideal) (k0_pay9 x0 x1) y (ix3 0 0 0)
      = y (ix3 0 0 0) + ((∑ r : Fin 1024, (rowMax (fun k : Fin 250 => x0 (ix2 r k)) + lse (fun k : Fin 250 => x0 (ix2 r k))))
          - ∑ k : Fin 250, ∑ r : Fin 1024, oh (x1 (ix2 0 r)) k.val * x0 (ix2 r k)) := by
  unfold k0_pay1
  refine (shapeCast_ab_1ab_apply _ _ 0 0 0).trans ?_
  rw [addf_apply, shapeCast_1ab_ab_apply, broadcast_apply, pay9_eq x0 x1 hx0]

end Cert.KernelIdeal.R0Math

end
-- ==== Proof.SumBlocks.lean ====
/-
  A sum over a·n consecutive indices is the sum over the a blocks of the sums over each block's n indices:
  index b sits in block b / n at place b % n, that is b = n·i + r. Used twice: 16384 rows are 16 tiles of 1024
  rows, and 16 tiles are 2 halves of 8 tiles.
-/
import Idealize.ShloMosaic.Lib.ValueIdx

namespace Cert.SumBlocks

theorem sum_blocks {M : Type*} [AddCommMonoid M] (a n : ℕ) (f : ℕ → M) :
    ∑ b : Fin (a * n), f b.val = ∑ i : Fin a, ∑ r : Fin n, f (n * i.val + r.val) := by
  rw [← Fintype.sum_prod_type']
  refine (Fintype.sum_equiv (finProdFinEquiv : Fin a × Fin n ≃ Fin (a * n)) (fun x => f (n * x.1.val + x.2.val)) (fun b => f b.val) fun x => ?_).symm
  show f _ = f _
  congr 1
  simp only [finProdFinEquiv, Equiv.coe_fn_mk]
  omega

/-- The same with the outer blocks themselves grouped: a·b blocks of n. -/
theorem sum_blocks2 {M : Type*} [AddCommMonoid M] (a b n : ℕ) (f : ℕ → M) :
    ∑ x : Fin (a * b * n), f x.val = ∑ p : Fin a, ∑ j : Fin b, ∑ r : Fin n, f (n * (b * p.val + j.val) + r.val) := by
  rw [sum_blocks (a * b) n f, sum_blocks a b (fun t => ∑ r : Fin n, f (n * t + r.val))]

/-- A sum over `Finset.range n` as a sum over `Fin n`. -/
theorem sum_range_fin {M : Type*} [AddCommMonoid M] (n : ℕ) (f : ℕ → M) :
    ∑ j ∈ Finset.range n, f j = ∑ j : Fin n, f j.val := (Fin.sum_univ_eq_sum_range f n).symm

end Cert.SumBlocks
-- ==== Proof.R0Sum.lean ====
/-
  Region 0's three result arrays as sums over the whole batch, at the ideal instance. Each output has one block per
  half of the batch; the block of half p is what the eight tiles 8p, …, 8p+7 of that half add up, from zero:
    * the per-class embedding sums: entry (k, d) gains, from a tile, the sum over the tile's rows r of
      oh(label r, k) · e[r, d];
    * the per-class counts: entry k gains the sum over the tile's rows of oh(label r, k);
    * the cross-entropy cell gains Σ_r (max_r + lse_r) − Σ_k Σ_r oh(label r, k) · x[r, k].
  The tiles' rows are read in the whole arrays: row r of tile t is row 1024 t + r. Adding the two halves' blocks, the
  sixteen tiles of 1024 rows are the 16384 rows of the batch, once each.
-/
import proofs.«429416_j283467841734_3_alg».proof.Proof.R0Fold
import proofs.«429416_j283467841734_3_alg».proof.Proof.R0Math
import proofs.«429416_j283467841734_3_alg».proof.Proof.SumBlocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R0Sum

open Cert.KernelIdeal Cert.KernelIdeal.Gen Cert.Spec Cert.KernelIdeal.R0 Cert.KernelIdeal.R0Math Cert.SumBlocks

variable (V : (c : Dev nD) → (b : Ref sig .tc) → Buf (Elt Ideal) ((c : Thread nD τ).loc b))

/-- The three input blocks of tile t, at their literal types. -/
abbrev xb (c : Dev nD) (t : Fin cfg0.N) : Vec Ideal S1024x250 .f32 := iblk0 V c 0 t
abbrev lb (c : Dev nD) (t : Fin cfg0.N) : Vec Ideal S1x1024 .i32 := iblk0 V c 1 t
abbrev eb (c : Dev nD) (t : Fin cfg0.N) : Vec Ideal S1024x2048 .f32 := iblk0 V c 2 t

/-- The three whole input arrays, at their literal types. -/
abbrev xa (c : Dev nD) : Vec Ideal S16384x250 .f32 := V c (Pipeline.arrRef spec0 0)
abbrev la (c : Dev nD) : Vec Ideal S1x16384 .i32 := V c (Pipeline.arrRef spec0 1)
abbrev ea (c : Dev nD) : Vec Ideal S16384x2048 .f32 := V c (Pipeline.arrRef spec0 2)

/-- There are sixteen tiles. -/
theorem hN : cfg0.N = 16 := N_0

/-- The arrays read at a row number (zero past the last row). -/
def labN (c : Dev nD) (n : ℕ) : BitVec 32 := if h : n < 16384 then la V c (ix2 0 ⟨n, h⟩) else 0
def embN (c : Dev nD) (n : ℕ) (d : Fin 2048) : EReal := if h : n < 16384 then ea V c (ix2 ⟨n, h⟩ d) else 0
def lgtN (c : Dev nD) (n : ℕ) (k : Fin 250) : EReal := if h : n < 16384 then xa V c (ix2 ⟨n, h⟩ k) else 0

/-- What tile n adds to the embedding sum at (k, d), to the count at k, and to the cross-entropy cell, read in the
    whole arrays: the tile's row r is row 1024 n + r. -/
def s4 (c : Dev nD) (k : Fin 250) (d : Fin 2048) (n : ℕ) : EReal :=
  ∑ r : Fin 1024, oh (labN V c (1024 * n + r.val)) k.val * embN V c (1024 * n + r.val) d
def s5 (c : Dev nD) (k : Fin 250) (n : ℕ) : EReal :=
  ∑ r : Fin 1024, oh (labN V c (1024 * n + r.val)) k.val
def s3 (c : Dev nD) (n : ℕ) : EReal :=
  (∑ r : Fin 1024, (rowMax (lgtN V c (1024 * n + r.val)) + lse (lgtN V c (1024 * n + r.val))))
    - ∑ k : Fin 250, ∑ r : Fin 1024, oh (labN V c (1024 * n + r.val)) k.val * lgtN V c (1024 * n + r.val) k

/-- A tile's row lies in the batch. -/
theorem row_lt (t : Fin cfg0.N) (r : Fin 1024) : 1024 * t.val + r.val < 16384 := by
  have ht : t.val < 16 := lt_of_lt_of_eq t.isLt hN
  have hr : r.val < 1024 := r.isLt
  omega

/-- The blocks' elements read in the whole arrays at the row's number. -/
theorem lb_apply (c : Dev nD) (t : Fin cfg0.N) (r : Fin 1024) :
    lb V c t (ix2 0 r) = labN V c (1024 * t.val + r.val) := by
  unfold labN
  rw [dif_pos (row_lt t r)]
  exact blk1_apply V c t r (row_lt t r)

theorem eb_apply (c : Dev nD) (t : Fin cfg0.N) (r : Fin 1024) (d : Fin 2048) :
    eb V c t (ix2 r d) = embN V c (1024 * t.val + r.val) d := by
  unfold embN
  rw [dif_pos (row_lt t r)]
  exact blk2_apply V c t r d (row_lt t r)

theorem xb_apply (c : Dev nD) (t : Fin cfg0.N) (r : Fin 1024) (k : Fin 250) :
    xb V c t (ix2 r k) = lgtN V c (1024 * t.val + r.val) k := by
  unfold lgtN
  rw [dif_pos (row_lt t r)]
  exact blk0_apply V c t r k (row_lt t r)

/-- A block of a real array is real. -/
theorem xb_real (c : Dev nD) (hx : ∀ i, IsReal (xa V c i)) (t : Fin cfg0.N) : ∀ i, IsReal (xb V c t i) := fun i => by
  obtain ⟨r, k, rfl⟩ : ∃ (r : Fin 1024) (k : Fin 250), i = ix2 r k := ⟨i 0, i 1, eq_ix2 i⟩
  rw [show xb V c t (ix2 r k) = xa V c (ix2 ⟨1024 * t.val + r.val, row_lt t r⟩ k) from blk0_apply V c t r k (row_lt t r)]
  exact hx _

theorem eb_real (c : Dev nD) (he : ∀ i, IsReal (ea V c i)) (t : Fin cfg0.N) : ∀ i, IsReal (eb V c t i) := fun i => by
  obtain ⟨r, d, rfl⟩ : ∃ (r : Fin 1024) (d : Fin 2048), i = ix2 r d := ⟨i 0, i 1, eq_ix2 i⟩
  rw [show eb V c t (ix2 r d) = ea V c (ix2 ⟨1024 * t.val + r.val, row_lt t r⟩ d) from blk2_apply V c t r d (row_lt t r)]
  exact he _

/-- One tile's update of each accumulator's element: the old value plus the tile's contribution. -/
theorem step4 (c : Dev nD) (he : ∀ i, IsReal (ea V c i)) (k : Fin 250) (d : Fin 2048) (t : Fin cfg0.N)
    (y : Vec Ideal S1x250x2048 .f32) :
    k0_pay2 (F := Ideal) (k0_pay8 (lb V c t)) (eb V c t) y (ix3 0 k d) = y (ix3 0 k d) + s4 V c k d t.val := by
  refine (pay2_apply (lb V c t) (eb V c t) y (eb_real V c he t) k d).trans ?_
  refine congrArg (y (ix3 0 k d) + ·) ?_
  unfold s4
  refine Finset.sum_congr rfl fun r _ => ?_
  rw [lb_apply V c t r, eb_apply V c t r d]

theorem step5 (c : Dev nD) (k : Fin 250) (t : Fin cfg0.N) (y : Vec Ideal S1x250x1 .f32) :
    k0_pay3 (F := Ideal) (k0_pay7 (lb V c t)) y (ix3 0 k 0) = y (ix3 0 k 0) + s5 V c k t.val := by
  refine (pay3_apply (lb V c t) y k).trans ?_
  refine congrArg (y (ix3 0 k 0) + ·) ?_
  unfold s5
  refine Finset.sum_congr rfl fun r _ => ?_
  rw [lb_apply V c t r]

theorem step3 (c : Dev nD) (hx : ∀ i, IsReal (xa V c i)) (t : Fin cfg0.N) (y : Vec Ideal S1x1x1 .f32) :
    k0_pay1 (F := Ideal) (k0_pay9 (xb V c t) (lb V c t)) y (ix3 0 0 0) = y (ix3 0 0 0) + s3 V c t.val := by
  refine (pay1_apply (xb V c t) (lb V c t) y (xb_real V c hx t)).trans ?_
  refine congrArg (y (ix3 0 0 0) + ·) ?_
  unfold s3
  have hrow : ∀ r : Fin 1024, (fun k : Fin 250 => xb V c t (ix2 r k)) = lgtN V c (1024 * t.val + r.val) :=
    fun r => funext fun k => xb_apply V c t r k
  refine congrArg₂ (· - ·) (Finset.sum_congr rfl fun r _ => ?_) (Finset.sum_congr rfl fun k _ => Finset.sum_congr rfl fun r _ => ?_)
  · rw [hrow r]
  · rw [lb_apply V c t r, xb_apply V c t r k]

/-- After tile 8p + j the embedding-sum accumulator holds, at (k, d), the contributions of tiles 8p … 8p + j:
    the first of them on top of zero, each later one on top of the tile before. -/
theorem fold4 (c : Dev nD) (he : ∀ i, IsReal (ea V c i)) (p : Fin 2) (k : Fin 250) (d : Fin 2048) :
    ∀ (j : ℕ) (hj : j < 8) (n : ℕ) (h : n < cfg0.N), n = 8 * p.val + j →
      (acc V c n h).2.1 (ix3 0 k d) = ∑ j' ∈ Finset.range (j + 1), s4 V c k d (8 * p.val + j')
  | 0, _, n, h, hn => by
    have e : acc V c n h = upd (iblk0 V c 0 ⟨n, h⟩) (iblk0 V c 1 ⟨n, h⟩) (iblk0 V c 2 ⟨n, h⟩) zero3 :=
      acc_reset V c ⟨n, h⟩ (by show n % 8 = 0; omega)
    rw [e]
    show k0_pay2 (F := Ideal) (k0_pay8 (lb V c ⟨n, h⟩)) (eb V c ⟨n, h⟩) (k0_pay5 (F := Ideal)) (ix3 0 k d) = _
    refine (step4 V c he k d ⟨n, h⟩ (k0_pay5 (F := Ideal))).trans ?_
    rw [pay5_apply, zero_add, Finset.sum_range_one]
    show s4 V c k d n = _
    rw [hn]
  | j + 1, hj, n, h, hn => by
    have h' : n - 1 < cfg0.N := Nat.lt_of_le_of_lt (Nat.sub_le _ _) h
    have e : acc V c n h = upd (iblk0 V c 0 ⟨n, h⟩) (iblk0 V c 1 ⟨n, h⟩) (iblk0 V c 2 ⟨n, h⟩) (acc V c (n - 1) h') :=
      acc_step V c ⟨n, h⟩ (by show ¬n % 8 = 0; omega)
    rw [e]
    show k0_pay2 (F := Ideal) (k0_pay8 (lb V c ⟨n, h⟩)) (eb V c ⟨n, h⟩) (acc V c (n - 1) h').2.1 (ix3 0 k d) = _
    refine (step4 V c he k d ⟨n, h⟩ _).trans ?_
    rw [fold4 c he p k d j (by omega) (n - 1) h' (by omega), Finset.sum_range_succ _ (j + 1)]
    show _ + s4 V c k d n = _
    rw [hn]

theorem fold5 (c : Dev nD) (p : Fin 2) (k : Fin 250) :
    ∀ (j : ℕ) (hj : j < 8) (n : ℕ) (h : n < cfg0.N), n = 8 * p.val + j →
      (acc V c n h).2.2 (ix3 0 k 0) = ∑ j' ∈ Finset.range (j + 1), s5 V c k (8 * p.val + j')
  | 0, _, n, h, hn => by
    have e : acc V c n h = upd (iblk0 V c 0 ⟨n, h⟩) (iblk0 V c 1 ⟨n, h⟩) (iblk0 V c 2 ⟨n, h⟩) zero3 :=
      acc_reset V c ⟨n, h⟩ (by show n % 8 = 0; omega)
    rw [e]
    show k0_pay3 (F := Ideal) (k0_pay7 (lb V c ⟨n, h⟩)) (k0_pay6 (F := Ideal)) (ix3 0 k 0) = _
    refine (step5 V c k ⟨n, h⟩ (k0_pay6 (F := Ideal))).trans ?_
    rw [pay6_apply, zero_add, Finset.sum_range_one]
    show s5 V c k n = _
    rw [hn]
  | j + 1, hj, n, h, hn => by
    have h' : n - 1 < cfg0.N := Nat.lt_of_le_of_lt (Nat.sub_le _ _) h
    have e : acc V c n h = upd (iblk0 V c 0 ⟨n, h⟩) (iblk0 V c 1 ⟨n, h⟩) (iblk0 V c 2 ⟨n, h⟩) (acc V c (n - 1) h') :=
      acc_step V c ⟨n, h⟩ (by show ¬n % 8 = 0; omega)
    rw [e]
    show k0_pay3 (F := Ideal) (k0_pay7 (lb V c ⟨n, h⟩)) (acc V c (n - 1) h').2.2 (ix3 0 k 0) = _
    refine (step5 V c k ⟨n, h⟩ _).trans ?_
    rw [fold5 c p k j (by omega) (n - 1) h' (by omega), Finset.sum_range_succ _ (j + 1)]
    show _ + s5 V c k n = _
    rw [hn]

theorem fold3 (c : Dev nD) (hx : ∀ i, IsReal (xa V c i)) (p : Fin 2) :
    ∀ (j : ℕ) (hj : j < 8) (n : ℕ) (h : n < cfg0.N), n = 8 * p.val + j →
      (acc V c n h).1 (ix3 0 0 0) = ∑ j' ∈ Finset.range (j + 1), s3 V c (8 * p.val + j')
  | 0, _, n, h, hn => by
    have e : acc V c n h = upd (iblk0 V c 0 ⟨n, h⟩) (iblk0 V c 1 ⟨n, h⟩) (iblk0 V c 2 ⟨n, h⟩) zero3 :=
      acc_reset V c ⟨n, h⟩ (by show n % 8 = 0; omega)
    rw [e]
    show k0_pay1 (F := Ideal) (k0_pay9 (xb V c ⟨n, h⟩) (lb V c ⟨n, h⟩)) (k0_pay4 (F := Ideal)) (ix3 0 0 0) = _
    refine (step3 V c hx ⟨n, h⟩ (k0_pay4 (F := Ideal))).trans ?_
    rw [pay4_apply, zero_add, Finset.sum_range_one]
    show s3 V c n = _
    rw [hn]
  | j + 1, hj, n, h, hn => by
    have h' : n - 1 < cfg0.N := Nat.lt_of_le_of_lt (Nat.sub_le _ _) h
    have e : acc V c n h = upd (iblk0 V c 0 ⟨n, h⟩) (iblk0 V c 1 ⟨n, h⟩) (iblk0 V c 2 ⟨n, h⟩) (acc V c (n - 1) h') :=
      acc_step V c ⟨n, h⟩ (by show ¬n % 8 = 0; omega)
    rw [e]
    show k0_pay1 (F := Ideal) (k0_pay9 (xb V c ⟨n, h⟩) (lb V c ⟨n, h⟩)) (acc V c (n - 1) h').1 (ix3 0 0 0) = _
    refine (step3 V c hx ⟨n, h⟩ _).trans ?_
    rw [fold3 c hx p j (by omega) (n - 1) h' (by omega), Finset.sum_range_succ _ (j + 1)]
    show _ + s3 V c n = _
    rw [hn]

/-- The three result arrays at an element: the eight tiles of the element's half. -/
theorem A4_apply (c : Dev nD) (he : ∀ i, IsReal (ea V c i)) (p : Fin 2) (k : Fin 250) (d : Fin 2048) :
    (dat0 V c).arrAt 4 cfg0.N (ix3 p k d) = ∑ j ∈ Finset.range 8, s4 V c k d (8 * p.val + j) := by
  have hp : p.val < 2 := p.isLt
  have h : 8 * p.val + 7 < cfg0.N := by rw [hN]; omega
  rw [arr4 V c p h k d, fold4 V c he p k d 7 (by omega) (8 * p.val + 7) h rfl]

theorem A5_apply (c : Dev nD) (p : Fin 2) (k : Fin 250) :
    (dat0 V c).arrAt 5 cfg0.N (ix3 p k 0) = ∑ j ∈ Finset.range 8, s5 V c k (8 * p.val + j) := by
  have hp : p.val < 2 := p.isLt
  have h : 8 * p.val + 7 < cfg0.N := by rw [hN]; omega
  rw [arr5 V c p h k, fold5 V c p k 7 (by omega) (8 * p.val + 7) h rfl]

theorem A3_apply (c : Dev nD) (hx : ∀ i, IsReal (xa V c i)) (p : Fin 2) :
    (dat0 V c).arrAt 3 cfg0.N (ix3 p 0 0) = ∑ j ∈ Finset.range 8, s3 V c (8 * p.val + j) := by
  have hp : p.val < 2 := p.isLt
  have h : 8 * p.val + 7 < cfg0.N := by rw [hN]; omega
  rw [arr3 V c p h, fold3 V c hx p 7 (by omega) (8 * p.val + 7) h rfl]

/-- The two halves' blocks added: the per-class embedding sums, the counts, and the cross-entropy's sixteen tile terms. -/
theorem sums_total (c : Dev nD) (he : ∀ i, IsReal (ea V c i)) (k : Fin 250) (d : Fin 2048) :
    Finset.sum (M := EReal) Finset.univ (fun p : Fin 2 => (dat0 V c).arrAt 4 cfg0.N (ix3 p k d)) = ∑ b : Fin 16384, oh (labN V c b.val) k.val * embN V c b.val d := by
  have key : ∀ p : Fin 2, @Eq EReal ((dat0 V c).arrAt 4 cfg0.N (ix3 p k d))
      (∑ j : Fin 8, ∑ r : Fin 1024, oh (labN V c (1024 * (8 * p.val + j.val) + r.val)) k.val * embN V c (1024 * (8 * p.val + j.val) + r.val) d) :=
    fun p => by rw [A4_apply V c he p k d, sum_range_fin]; rfl
  exact (Fintype.sum_congr _ _ key).trans (sum_blocks2 2 8 1024 (fun b => oh (labN V c b) k.val * embN V c b d)).symm

theorem counts_total (c : Dev nD) (k : Fin 250) :
    Finset.sum (M := EReal) Finset.univ (fun p : Fin 2 => (dat0 V c).arrAt 5 cfg0.N (ix3 p k 0)) = ∑ b : Fin 16384, oh (labN V c b.val) k.val := by
  have key : ∀ p : Fin 2, @Eq EReal ((dat0 V c).arrAt 5 cfg0.N (ix3 p k 0))
      (∑ j : Fin 8, ∑ r : Fin 1024, oh (labN V c (1024 * (8 * p.val + j.val) + r.val)) k.val) :=
    fun p => by rw [A5_apply V c p k, sum_range_fin]; rfl
  exact (Fintype.sum_congr _ _ key).trans (sum_blocks2 2 8 1024 (fun b => oh (labN V c b) k.val)).symm

theorem ce_total (c : Dev nD) (hx : ∀ i, IsReal (xa V c i)) :
    Finset.sum (M := EReal) Finset.univ (fun p : Fin 2 => (dat0 V c).arrAt 3 cfg0.N (ix3 p 0 0))
      = ∑ t : Fin 16, ((∑ r : Fin 1024, (rowMax (lgtN V c (1024 * t.val + r.val)) + lse (lgtN V c (1024 * t.val + r.val))))
            - ∑ k : Fin 250, ∑ r : Fin 1024, oh (labN V c (1024 * t.val + r.val)) k.val * lgtN V c (1024 * t.val + r.val) k) := by
  have key : ∀ p : Fin 2, @Eq EReal ((dat0 V c).arrAt 3 cfg0.N (ix3 p 0 0)) (∑ j : Fin 8, s3 V c (8 * p.val + j.val)) :=
    fun p => by rw [A3_apply V c hx p, sum_range_fin]
  exact (Fintype.sum_congr _ _ key).trans (sum_blocks 2 8 (fun n => s3 V c n)).symm

/-- The first two with the sum over the two halves written out. -/
theorem sums_total_add (c : Dev nD) (he : ∀ i, IsReal (ea V c i)) (k : Fin 250) (d : Fin 2048) :
    @Eq EReal (@HAdd.hAdd EReal EReal EReal _ ((dat0 V c).arrAt 4 cfg0.N (ix3 (0 : Fin 2) k d)) ((dat0 V c).arrAt 4 cfg0.N (ix3 (1 : Fin 2) k d)))
      (∑ b : Fin 16384, oh (labN V c b.val) k.val * embN V c b.val d) :=
  (Fin.sum_univ_two (M := EReal) (fun p : Fin 2 => (dat0 V c).arrAt 4 cfg0.N (ix3 p k d))).symm.trans (sums_total V c he k d)

theorem counts_total_add (c : Dev nD) (k : Fin 250) :
    @Eq EReal (@HAdd.hAdd EReal EReal EReal _ ((dat0 V c).arrAt 5 cfg0.N (ix3 (0 : Fin 2) k 0)) ((dat0 V c).arrAt 5 cfg0.N (ix3 (1 : Fin 2) k 0)))
      (∑ b : Fin 16384, oh (labN V c b.val) k.val) :=
  (Fin.sum_univ_two (M := EReal) (fun p : Fin 2 => (dat0 V c).arrAt 5 cfg0.N (ix3 p k 0))).symm.trans (counts_total V c k)

end Cert.KernelIdeal.R0Sum

end
-- ==== Proof.RefSums.lean ====
/-
  The reference's three segment sums and its cross-entropy term, each read at an index over the extended reals.
  A segment sum is an accumulating scatter of rows at the label column: an update row lands on the class row whose
  number is the label word read signed, so row `k` of the result is the sum of the rows of the samples labelled `k`,
  which is the one-hot weighted sum over all samples. The cross-entropy term gathers the log-softmax at each sample's
  label (a label in range is neither wrapped nor masked), sums over the samples, divides by their number and negates.
-/
import proofs.«429416_j283467841734_3_alg».proof.Proof.RefRead
import proofs.«429416_j283467841734_3_alg».proof.Proof.Spec
import Idealize.ShloMosaic.PureOps.Ideal.Laws
import Idealize.ShloMosaic.Lib.ValueIdx
import Idealize.ShloMosaic.Lib.Pipeline.Value
import Idealize.ShloMosaic.Lib.StableHlo.Predicate
import Idealize.ShloMosaic.Lib.ReduceAll

noncomputable section

open Idealize.ShloMosaic Idealize.ShloMosaic.ValueIdx Cert.ReferenceIdeal Cert.ReferenceIdeal.Gen Cert.ReferenceIdeal.ReadP Cert.Spec

namespace Cert.ReferenceIdeal.RefSums

/-! ## Label words -/

/-- A word read signed is the natural number `k` below `2^31` exactly when it is `k`'s word. -/
theorem toInt_eq_iff (l : BitVec 32) (k : ℕ) (hk : k < 2147483648) :
    l.toInt = (k : Int) ↔ l = BitVec.ofNat 32 k := by
  have h : (BitVec.ofNat 32 k).toInt = (k : Int) := by
    rw [BitVec.toInt_ofNat', Int.bmod_def]
    split <;> omega
  constructor
  · intro e
    exact BitVec.eq_of_toInt_eq (e.trans h.symm)
  · rintro rfl
    exact h

/-- The one-hot weight of a word for class `k`, as a test on the word read signed. -/
theorem oh_eq_ite (l : BitVec 32) (k : ℕ) (hk : k < 2147483648) :
    oh l k = if l.toInt = (k : Int) then 1 else 0 := by
  unfold oh
  exact if_congr (toInt_eq_iff l k hk).symm rfl rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv
    (⟨fun i => (i 0 : Fin n), fun a => ix1 a, fun i => (eq_ix1 i).symm, fun _ => rfl⟩ : (⟨1, ![n]⟩ : Shape).Idx ≃ Fin n)
    _ _ fun i => ?_
  exact congrArg f (eq_ix1 i)

/-! ## A segment sum of rows: an accumulating scatter of rows at a column of row numbers -/

/-- The dimension numbers of a scatter of the rows of a `[B, D]` array into a `[K, D]` array at the row numbers in
    a `[B, 1]` column: the window runs along the last axis, the row axis is scattered. -/
abbrev rowScatter (K B D : Nat) (wf : ScatterDims.WF ⟨2, ![K, D]⟩ ⟨2, ![B, 1]⟩ ⟨2, ![B, D]⟩ [1] [0] [0] 1) :
    ScatterDims ⟨2, ![K, D]⟩ ⟨2, ![B, 1]⟩ ⟨2, ![B, D]⟩ where
  updateWindowDims := [1]
  insertedWindowDims := [0]
  scatterDimsToOperandDims := [0]
  indexVectorDim := 1
  wf := wf

/-- Update element `(b, d')` lands on `(k, d)` exactly when sample `b`'s row number, read signed, is `k` and `d' = d`. -/
theorem rowScatter_resultIdx_iff {K B D w : Nat}
    (wf : ScatterDims.WF ⟨2, ![K, D]⟩ ⟨2, ![B, 1]⟩ ⟨2, ![B, D]⟩ [1] [0] [0] 1)
    (idx : IVec ⟨2, ![B, 1]⟩ w) (j : (⟨2, ![B, D]⟩ : Shape).Idx) (i : (⟨2, ![K, D]⟩ : Shape).Idx) :
    (rowScatter K B D wf).resultIdx? j idx = some i
      ↔ (idx (ix2 (j 0) (⟨0, Nat.one_pos⟩ : Fin 1))).toInt = ((i 0).val : Int) ∧ (j 1).val = (i 1).val := by
  have hs0 : (rowScatter K B D wf).start j idx 0 = (idx (ix2 (j 0) (⟨0, Nat.one_pos⟩ : Fin 1))).toInt := by
    unfold ScatterDims.start
    rw [dif_pos (show (0 : Fin 2) ∈ (rowScatter K B D wf).scatterDimsToOperandDims from List.mem_singleton.mpr rfl)]
    congr 2
    funext b; refine Fin.ext ?_
    match b with
    | ⟨0, _⟩ => rfl
    | ⟨1, _⟩ => rfl
  have hs1 : (rowScatter K B D wf).start j idx 1 = 0 := by
    unfold ScatterDims.start
    rw [dif_neg (show ¬ (1 : Fin 2) ∈ ([0] : List (Fin 2)) by decide)]
  have hw0 : (rowScatter K B D wf).window j 0 = 0 := by
    unfold ScatterDims.window
    have hm : ¬ (0 : Fin 2) ∈ (rowScatter K B D wf).sKept := by
      show ¬ (0 : Fin 2) ∈ ([1] : List (Fin 2))
      decide
    rw [dif_neg hm]
  have hw1 : (rowScatter K B D wf).window j 1 = (j 1).val := by
    unfold ScatterDims.window
    have hm : (1 : Fin 2) ∈ (rowScatter K B D wf).sKept := by
      show (1 : Fin 2) ∈ ([1] : List (Fin 2))
      decide
    rw [dif_pos hm]
    rfl
  have hi0 := idx2_lt0 i
  have hi1 := idx2_lt1 i
  have hj1 := idx2_lt1 j
  unfold ScatterDims.resultIdx?
  split
  · rename_i h
    rw [Option.some.injEq]
    constructor
    · intro e
      have e0 : ((rowScatter K B D wf).start j idx 0 + (rowScatter K B D wf).window j 0).toNat = (i 0).val :=
        congrArg (fun f => (f 0).val) e
      have e1 : ((rowScatter K B D wf).start j idx 1 + (rowScatter K B D wf).window j 1).toNat = (i 1).val :=
        congrArg (fun f => (f 1).val) e
      have h0 := (h 0).1
      rw [hs0, hw0] at e0 h0
      rw [hs1, hw1] at e1
      constructor <;> omega
    · rintro ⟨h0, h1⟩
      funext a; refine Fin.ext ?_
      match a with
      | ⟨0, _⟩ =>
        show ((rowScatter K B D wf).start j idx 0 + (rowScatter K B D wf).window j 0).toNat = (i 0).val
        rw [hs0, hw0, h0]; omega
      | ⟨1, _⟩ =>
        show ((rowScatter K B D wf).start j idx 1 + (rowScatter K B D wf).window j 1).toNat = (i 1).val
        rw [hs1, hw1]; omega
  · rename_i h
    refine iff_of_false (by simp) ?_
    rintro ⟨h0, h1⟩
    apply h
    intro a
    match a with
    | ⟨0, _⟩ =>
      show 0 ≤ (rowScatter K B D wf).start j idx 0 + (rowScatter K B D wf).window j 0 ∧
        (rowScatter K B D wf).start j idx 0 + (rowScatter K B D wf).window j 0 < (K : Int)
      rw [hs0, hw0, h0]; omega
    | ⟨1, _⟩ =>
      show 0 ≤ (rowScatter K B D wf).start j idx 1 + (rowScatter K B D wf).window j 1 ∧
        (rowScatter K B D wf).start j idx 1 + (rowScatter K B D wf).window j 1 < (D : Int)
      rw [hs1, hw1]; omega

/-- The accumulating scatter of the rows `upd` at the row numbers `idx`, read at `(k, d)`: the operand there plus the
    one-hot weighted sum of column `d` over all samples. No condition on the row numbers: one outside `[0, K)` matches no `k`. -/
theorem rowScatterAdd_apply {K B D : Nat} (hK : K ≤ 2147483648)
    (wf : ScatterDims.WF ⟨2, ![K, D]⟩ ⟨2, ![B, 1]⟩ ⟨2, ![B, D]⟩ [1] [0] [0] 1)
    (x : (⟨2, ![K, D]⟩ : Shape).Idx → EReal) (idx : IVec ⟨2, ![B, 1]⟩ 32)
    (upd : (⟨2, ![B, D]⟩ : Shape).Idx → EReal) (k : Fin K) (d : Fin D) :
    Ideal.hostScatterAdd (rowScatter K B D wf) x idx upd (ix2 k d)
      = x (ix2 k d) + ∑ b : Fin B, oh (idx (ix2 b (⟨0, Nat.one_pos⟩ : Fin 1))) k.val * upd (ix2 b d) := by
  unfold Ideal.hostScatterAdd
  congr 1
  rw [Finset.sum_filter, sum_idx2]
  refine Finset.sum_congr rfl fun b _ => ?_
  rw [oh_eq_ite _ _ (by omega)]
  have hstep : ∀ d' : Fin D,
      (if (rowScatter K B D wf).resultIdx? (ix2 b d') idx = some (ix2 k d) then upd (ix2 b d') else 0)
        = if d' = d then (if (idx (ix2 b (⟨0, Nat.one_pos⟩ : Fin 1))).toInt = (k.val : Int) then upd (ix2 b d) else 0) else 0 := by
    intro d'
    by_cases hd : d' = d
    · subst hd
      rw [if_pos rfl]
      refine if_congr ?_ rfl rfl
      rw [rowScatter_resultIdx_iff]
      exact ⟨fun h => h.1, fun h => ⟨h, rfl⟩⟩
    · rw [if_neg hd, if_neg]
      rw [rowScatter_resultIdx_iff]
      rintro ⟨_, h1⟩
      exact hd (Fin.ext h1)
  rw [Finset.sum_congr rfl fun d' _ => hstep d', Finset.sum_ite_eq' Finset.univ d]
  simp only [Finset.mem_univ, if_true, ite_mul, one_mul, zero_mul]

/-! ## A segment sum of scalars: an accumulating scatter of a vector's elements at a column of cell numbers -/

/-- The dimension numbers of a scatter of the elements of a `[B]` vector into a `[K]` vector at the cell numbers in a
    `[B, 1]` column: no window axes. -/
abbrev cellScatter (K B : Nat) (wf : ScatterDims.WF ⟨1, ![K]⟩ ⟨2, ![B, 1]⟩ ⟨1, ![B]⟩ [] [0] [0] 1) :
    ScatterDims ⟨1, ![K]⟩ ⟨2, ![B, 1]⟩ ⟨1, ![B]⟩ where
  updateWindowDims := []
  insertedWindowDims := [0]
  scatterDimsToOperandDims := [0]
  indexVectorDim := 1
  wf := wf

/-- Update element `b` lands on cell `k` exactly when sample `b`'s cell number, read signed, is `k`. -/
theorem cellScatter_resultIdx_iff {K B w : Nat}
    (wf : ScatterDims.WF ⟨1, ![K]⟩ ⟨2, ![B, 1]⟩ ⟨1, ![B]⟩ [] [0] [0] 1)
    (idx : IVec ⟨2, ![B, 1]⟩ w) (j : (⟨1, ![B]⟩ : Shape).Idx) (i : (⟨1, ![K]⟩ : Shape).Idx) :
    (cellScatter K B wf).resultIdx? j idx = some i
      ↔ (idx (ix2 (j 0) (⟨0, Nat.one_pos⟩ : Fin 1))).toInt = ((i 0).val : Int) := by
  have hs0 : (cellScatter K B wf).start j idx 0 = (idx (ix2 (j 0) (⟨0, Nat.one_pos⟩ : Fin 1))).toInt := by
    unfold ScatterDims.start
    rw [dif_pos (show (0 : Fin 1) ∈ (cellScatter K B wf).scatterDimsToOperandDims from List.mem_singleton.mpr rfl)]
    congr 2
    funext b; refine Fin.ext ?_
    match b with
    | ⟨0, _⟩ => rfl
    | ⟨1, _⟩ => rfl
  have hw0 : (cellScatter K B wf).window j 0 = 0 := by
    unfold ScatterDims.window
    have hm : ¬ (0 : Fin 1) ∈ (cellScatter K B wf).sKept := by
      show ¬ (0 : Fin 1) ∈ ([] : List (Fin 1))
      decide
    rw [dif_neg hm]
  have hi0 : (i 0).val < K := (i 0).isLt
  unfold ScatterDims.resultIdx?
  split
  · rename_i h
    rw [Option.some.injEq]
    constructor
    · intro e
      have e0 : ((cellScatter K B wf).start j idx 0 + (cellScatter K B wf).window j 0).toNat = (i 0).val :=
        congrArg (fun f => (f 0).val) e
      have h0 := (h 0).1
      rw [hs0, hw0] at e0 h0
      omega
    · intro h0
      funext a; refine Fin.ext ?_
      match a with
      | ⟨0, _⟩ =>
        show ((cellScatter K B wf).start j idx 0 + (cellScatter K B wf).window j 0).toNat = (i 0).val
        rw [hs0, hw0, h0]; omega
  · rename_i h
    refine iff_of_false (by simp) ?_
    intro h0
    apply h
    intro a
    match a with
    | ⟨0, _⟩ =>
      show 0 ≤ (cellScatter K B wf).start j idx 0 + (cellScatter K B wf).window j 0 ∧
        (cellScatter K B wf).start j idx 0 + (cellScatter K B wf).window j 0 < (K : Int)
      rw [hs0, hw0, h0]; omega

/-- The accumulating scatter of the elements `upd` at the cell numbers `idx`, read at `k`: the operand there plus the
    one-hot weighted sum over all samples. -/
theorem cellScatterAdd_apply {K B : Nat} (hK : K ≤ 2147483648)
    (wf : ScatterDims.WF ⟨1, ![K]⟩ ⟨2, ![B, 1]⟩ ⟨1, ![B]⟩ [] [0] [0] 1)
    (x : (⟨1, ![K]⟩ : Shape).Idx → EReal) (idx : IVec ⟨2, ![B, 1]⟩ 32)
    (upd : (⟨1, ![B]⟩ : Shape).Idx → EReal) (k : Fin K) :
    Ideal.hostScatterAdd (cellScatter K B wf) x idx upd (ix1 k)
      = x (ix1 k) + ∑ b : Fin B, oh (idx (ix2 b (⟨0, Nat.one_pos⟩ : Fin 1))) k.val * upd (ix1 b) := by
  unfold Ideal.hostScatterAdd
  congr 1
  rw [Finset.sum_filter, sum_idx1]
  refine Finset.sum_congr rfl fun b _ => ?_
  rw [oh_eq_ite _ _ (by omega), ite_mul, one_mul, zero_mul]
  exact if_congr (cellScatter_resultIdx_iff wf idx (ix1 b) (ix1 k)) rfl rfl

/-! ## The reference's three segment sums -/

/-- The label column read at sample `b` is the label. -/
theorem labelCol_v10 (L : (⟨S16384, .i32⟩ : BufTy).Contents (Elt Ideal)) (b : Fin 16384) :
    val_main_v10 (F := Ideal) L (ix2 b (⟨0, Nat.one_pos⟩ : Fin 1)) = L (ix1 b) := by
  rw [val_main_v10_apply]
  exact congrArg L (funext fun a => by match a with | ⟨0, _⟩ => rfl)

theorem labelCol_v14 (L : (⟨S16384, .i32⟩ : BufTy).Contents (Elt Ideal)) (b : Fin 16384) :
    val_main_v14 (F := Ideal) L (ix2 b (⟨0, Nat.one_pos⟩ : Fin 1)) = L (ix1 b) := by
  rw [val_main_v14_apply]
  exact congrArg L (funext fun a => by match a with | ⟨0, _⟩ => rfl)

theorem labelCol_v101 (L : (⟨S16384, .i32⟩ : BufTy).Contents (Elt Ideal)) (b : Fin 16384) :
    val_main_v101 (F := Ideal) L (ix2 b (⟨0, Nat.one_pos⟩ : Fin 1)) = L (ix1 b) := by
  rw [val_main_v101_apply]
  exact congrArg L (funext fun a => by match a with | ⟨0, _⟩ => rfl)

/-- The word of the float one is the extended real one. -/
theorem ofBits_one_f32 : Ideal.ofBits .f32 0x3F800000#32 = 1 := by
  simp [Ideal.ofBits, Ideal.ieee]
  rw [← EReal.coe_mul]; norm_num

/-- the per-class embedding sums: row k, column d, is the sum over the samples labelled k -/
theorem sums_apply (L : (⟨S16384, .i32⟩ : BufTy).Contents (Elt Ideal))
    (E : (⟨S16384x2048, .f32⟩ : BufTy).Contents (Elt Ideal)) (k : Fin 250) (d : Fin 2048) :
    val_main_v11 (F := Ideal) L E (ix2 k d) = ∑ b : Fin 16384, oh (L (ix1 b)) k.val * E (ix2 b d) := by
  unfold val_main_v11 Host.scatterAdd
  refine (rowScatterAdd_apply (K := 250) (B := 16384) (D := 2048) (by decide) _
    (val_main_v9 (F := Ideal)) (val_main_v10 (F := Ideal) L) E k d).trans ?_
  rw [val_main_v9_apply, val_main_cst_2_apply, Ideal.ofBits_def, Ideal.ofBits_zero_f32, zero_add]
  exact Finset.sum_congr rfl fun b _ => by rw [labelCol_v10]

/-- the per-class counts -/
theorem counts_apply (L : (⟨S16384, .i32⟩ : BufTy).Contents (Elt Ideal)) (k : Fin 250) :
    val_main_v15 (F := Ideal) L (ix1 k) = ∑ b : Fin 16384, oh (L (ix1 b)) k.val := by
  unfold val_main_v15 Host.scatterAdd
  refine (cellScatterAdd_apply (K := 250) (B := 16384) (by decide) _
    (val_main_v13 (F := Ideal)) (val_main_v14 (F := Ideal) L) (val_main_v12 (F := Ideal)) k).trans ?_
  rw [val_main_v13_apply, val_main_cst_4_apply, Ideal.ofBits_def, Ideal.ofBits_zero_f32, zero_add]
  refine Finset.sum_congr rfl fun b _ => ?_
  rw [labelCol_v14, val_main_v12_apply, val_main_cst_3_apply, Ideal.ofBits_def, ofBits_one_f32, mul_one]

/-- the per-class sums of the hinge rows -/
theorem pair_apply (L : (⟨S16384, .i32⟩ : BufTy).Contents (Elt Ideal))
    (E : (⟨S16384x2048, .f32⟩ : BufTy).Contents (Elt Ideal)) (i j : Fin 250) :
    val_main_v102 (F := Ideal) L E (ix2 i j)
      = ∑ b : Fin 16384, oh (L (ix1 b)) i.val * val_main_v99 (F := Ideal) L E (ix2 b j) := by
  unfold val_main_v102 Host.scatterAdd
  generalize val_main_v99 (F := Ideal) L E = H
  refine (rowScatterAdd_apply (K := 250) (B := 16384) (D := 250) (by decide) _
    (val_main_v100 (F := Ideal)) (val_main_v101 (F := Ideal) L) H i j).trans ?_
  rw [val_main_v100_apply, val_main_cst_30_apply, Ideal.ofBits_def, Ideal.ofBits_zero_f32, zero_add]
  exact Finset.sum_congr rfl fun b _ => by rw [labelCol_v101]

/-! ## The cross-entropy term -/

/-- The word of the float minus infinity is the bottom element. -/
theorem ofBits_ninf_f32 : Ideal.ofBits .f32 0xFF800000#32 = ⊥ := by
  simp [Ideal.ofBits, Ideal.ieee]

/-- The row-maximum stage at sample `b` is the greatest entry of row `b`. -/
theorem rowMax_read (X : (⟨S16384x250, .f32⟩ : BufTy).Contents (Elt Ideal)) (b : Fin 16384) :
    val_main_call0_v0 (F := Ideal) X (ix1 b) = rowMax (fun k' : Fin 250 => X (ix2 b k')) := by
  unfold val_main_call0_v0
  have h : S16384x250.Reduces [1] S16384 := by decide
  refine (Host.reduce_eq_fold_single (a := 1) (FloatOps.maximumf (F := Ideal) (φ := .f32)) X
    (val_main_call0_cst (F := Ideal)) reducesTo_S16384x250_S16384_d1 h h_S_ (ix1 b)).trans ?_
  rw [val_main_call0_cst_apply, Ideal.ofBits_def, ofBits_ninf_f32]
  unfold rowMax
  have e : (X ∘ h.lift (ix1 b)) = fun k' : Fin 250 => X (ix2 b k') :=
    funext fun k => congrArg X (funext fun a => Fin.ext (by match a with | ⟨0, _⟩ => rfl | ⟨1, _⟩ => rfl))
  exact congrArg (fun f : Fin 250 → EReal => (Finset.univ : Finset (Fin 250)).fold max ⊥ f) e

/-- The shifted logit at `(b, k)`: the logit less its row's greatest entry. -/
theorem shift_read (X : (⟨S16384x250, .f32⟩ : BufTy).Contents (Elt Ideal)) (b : Fin 16384) (k : Fin 250) :
    val_main_call0_v5 (F := Ideal) X (ix2 b k) = X (ix2 b k) - rowMax (fun k' : Fin 250 => X (ix2 b k')) := by
  have hj : idx_main_call0_v3 (idx_main_call0_v4 (ix2 b k)) = ix1 b :=
    funext fun a => Fin.ext (by match a with | ⟨0, _⟩ => rfl)
  rw [val_main_call0_v5_apply, val_main_call0_v4_apply, val_main_call0_v3_apply, hj, val_main_call0_v2_apply,
    val_main_call0_v1_apply, val_main_call0_cst_0_apply, rowMax_read]
  rw [Ideal.subf_def, Ideal.maximumf_def, Ideal.ofBits_def, ofBits_ninf_f32, max_bot_left]

/-- The log-sum-exp stage, broadcast along the row, at `(b, k)`. -/
theorem lse_read (X : (⟨S16384x250, .f32⟩ : BufTy).Contents (Elt Ideal)) (b : Fin 16384) (k : Fin 250) :
    val_main_call0_v10 (F := Ideal) X (ix2 b k) = lse (fun k' : Fin 250 => X (ix2 b k')) := by
  have hj : idx_main_call0_v8 (idx_main_call0_v10 (ix2 b k)) = ix1 b :=
    funext fun a => Fin.ext (by match a with | ⟨0, _⟩ => rfl)
  rw [val_main_call0_v10_apply, val_main_call0_v9_apply, val_main_call0_v8_apply, hj, val_main_call0_v7_apply,
    val_main_call0_cst_1_apply]
  rw [Ideal.hostUnary_log_def, Ideal.ofBits_def, Ideal.ofBits_zero_f32, zero_add]
  unfold lse
  congr 1
  refine Finset.sum_congr rfl fun k' _ => ?_
  have hk : idx_main_call0_v7 (ix1 b) k' = ix2 b k' :=
    funext fun a => Fin.ext (by match a with | ⟨0, _⟩ => rfl | ⟨1, _⟩ => rfl)
  rw [val_main_call0_v6_apply, hk, shift_read, Ideal.hostUnary_exp_def]

/-- The log-softmax at `(b, k)`. -/
theorem logp_read (X : (⟨S16384x250, .f32⟩ : BufTy).Contents (Elt Ideal)) (b : Fin 16384) (k : Fin 250) :
    val_main_v3 (F := Ideal) X (ix2 b k)
      = (X (ix2 b k) - rowMax (fun k' : Fin 250 => X (ix2 b k'))) - lse (fun k' : Fin 250 => X (ix2 b k')) := by
  rw [val_main_v3_apply, shift_read, lse_read, Ideal.subf_def]

/-- A label that is not negative is not wrapped: the start-index array at sample `b` holds the label. -/
theorem wrapped_read (L : (⟨S16384, .i32⟩ : BufTy).Contents (Elt Ideal)) (b : Fin 16384)
    (h0 : 0 ≤ (L (ix1 b) : BitVec 32).toInt) :
    val_main_call1_v5 (F := Ideal) L (ix3 b (⟨0, Nat.one_pos⟩ : Fin 1) (⟨0, Nat.one_pos⟩ : Fin 1)) = L (ix1 b) := by
  have hi : idx_main_call1_v5 (ix3 b (⟨0, Nat.one_pos⟩ : Fin 1) (⟨0, Nat.one_pos⟩ : Fin 1))
      = ix2 b (⟨0, Nat.one_pos⟩ : Fin 1) :=
    funext fun a => Fin.ext (by
      match a with
      | ⟨0, _⟩ => show ((b.val * 1 + 0) * 1 + 0) / 1 = b.val; omega
      | ⟨1, _⟩ => rfl)
  have hi4 : idx_main_v4 (ix2 b (⟨0, Nat.one_pos⟩ : Fin 1)) = ix1 b :=
    funext fun a => Fin.ext (by match a with | ⟨0, _⟩ => rfl)
  rw [val_main_call1_v5_apply, hi, val_main_call1_v4_apply, val_main_call1_v1_apply, val_main_v4_apply, hi4,
    val_main_call1_v0_apply, val_main_call1_c_apply]
  have hc : IntOp.cmpi .slt (L (ix1 b) : BitVec 32) 0#32 = 0#1 := by
    refine eq_zero_of_ne_one fun h => ?_
    have h1 := IntOp.cmpi_slt.mp h
    have z : (0#32 : BitVec 32).toInt = 0 := by decide
    omega
  rw [hc, select_zero]

/-- A fold over a one-element index set is one application of the operation. -/
theorem fold_fin_one {α : Type} (op : α → α → α) [Std.Commutative op] [Std.Associative op] (init : α) (f : Fin 1 → α) :
    (Finset.univ : Finset (Fin 1)).fold op init f = op (f 0) init := by
  rw [Finset.univ_unique, Finset.fold_singleton]
  rfl

/-- A label in range passes the bounds test: the mask at sample `b` is set. -/
theorem mask_read (L : (⟨S16384, .i32⟩ : BufTy).Contents (Elt Ideal)) (b : Fin 16384)
    (h : 0 ≤ (L (ix1 b) : BitVec 32).toInt ∧ (L (ix1 b) : BitVec 32).toInt < 250) :
    val_main_call1_v12 (F := Ideal) L (ix2 b (⟨0, Nat.one_pos⟩ : Fin 1)) = 1#1 := by
  unfold val_main_call1_v12
  have hr : S16384x1x1.Reduces [2] S16384x1 := by decide
  refine (Host.reduce_eq_fold_single (a := 2) (IntOp.andi (w := 1)) (val_main_call1_v11 (F := Ideal) L)
    (val_main_call1_c_3 (F := Ideal)) reducesTo_S16384x1x1_S16384x1_d2 hr h_S_
    (ix2 b (⟨0, Nat.one_pos⟩ : Fin 1))).trans ?_
  refine (fold_fin_one (IntOp.andi (w := 1)) _ _).trans ?_
  rw [val_main_call1_c_3_apply]
  show IntOp.andi (val_main_call1_v11 (F := Ideal) L (hr.lift (ix2 b (⟨0, Nat.one_pos⟩ : Fin 1)) (0 : Fin 1))) 1#1 = 1#1
  have hl : hr.lift (ix2 b (⟨0, Nat.one_pos⟩ : Fin 1)) (0 : Fin 1)
      = ix3 b (⟨0, Nat.one_pos⟩ : Fin 1) (⟨0, Nat.one_pos⟩ : Fin 1) :=
    funext fun a => Fin.ext (by match a with | ⟨0, _⟩ => rfl | ⟨1, _⟩ => rfl | ⟨2, _⟩ => rfl)
  rw [hl, val_main_call1_v11_apply, val_main_call1_v7_apply, val_main_call1_v10_apply, wrapped_read L b h.1,
    val_main_call1_v6_apply, val_main_call1_c_2_apply, val_main_call1_v9_apply, val_main_call1_v8_apply,
    val_main_call1_c_1_apply]
  have z0 : (0#32 : BitVec 32).toInt = 0 := by decide
  have z249 : (249#32 : BitVec 32).toInt = 249 := by decide
  refine IntOp.andi_eq_one.2 ⟨IntOp.andi_eq_one.2 ⟨IntOp.cmpi_sge.2 ?_, IntOp.cmpi_sle.2 ?_⟩, rfl⟩
  · omega
  · omega

/-- The dimension numbers of `take_along_axis` on the last axis of a `[B, C]` array at a `[B, 1, 1]` array of column
    numbers: the row axis is a batching axis, the column axis is collapsed and indexed. -/
abbrev takeAlong (B C : Nat)
    (wf : GatherDims.WF ⟨2, ![B, C]⟩ ⟨3, ![B, 1, 1]⟩ ⟨2, ![B, 1]⟩ [] [1] [0] [1] [0] 2 ![1, 1]) :
    GatherDims ⟨2, ![B, C]⟩ ⟨3, ![B, 1, 1]⟩ ⟨2, ![B, 1]⟩ where
  offsetDims := []
  collapsedSliceDims := [1]
  operandBatchingDims := [0]
  startIndicesBatchingDims := [0]
  startIndexMap := [1]
  indexVectorDim := 2
  sliceSizes := ![1, 1]
  wf := wf

/-- That gather read at sample `b`: row `b` of the operand at the column number, read signed and clamped into `[0, C - 1]`. -/
theorem takeAlong_apply {α : Type} {B C w : Nat} (hC : 0 < C)
    (wf : GatherDims.WF ⟨2, ![B, C]⟩ ⟨3, ![B, 1, 1]⟩ ⟨2, ![B, 1]⟩ [] [1] [0] [1] [0] 2 ![1, 1])
    (x : (⟨2, ![B, C]⟩ : Shape).Idx → α) (idx : IVec ⟨3, ![B, 1, 1]⟩ w) (b : Fin B) :
    Host.gather (takeAlong B C wf) x idx (ix2 b (⟨0, Nat.one_pos⟩ : Fin 1))
      = x (ix2 b ⟨min (idx (ix3 b (⟨0, Nat.one_pos⟩ : Fin 1) (⟨0, Nat.one_pos⟩ : Fin 1))).toInt.toNat (C - 1), by omega⟩) := by
  unfold Host.gather
  congr 1
  funext a
  refine Fin.ext ?_
  have hob0 : (0 : Fin 2) ∈ (takeAlong B C wf).operandBatchingDims := List.mem_singleton.mpr rfl
  have hob1 : ¬ (1 : Fin 2) ∈ (takeAlong B C wf).operandBatchingDims := by
    show ¬ (1 : Fin 2) ∈ ([0] : List (Fin 2))
    decide
  have hk0 : ¬ (0 : Fin 2) ∈ (takeAlong B C wf).sKept := by
    show ¬ (0 : Fin 2) ∈ ([] : List (Fin 2))
    decide
  have hk1 : ¬ (1 : Fin 2) ∈ (takeAlong B C wf).sKept := by
    show ¬ (1 : Fin 2) ∈ ([] : List (Fin 2))
    decide
  match a with
  | ⟨0, _⟩ =>
    show (takeAlong B C wf).start (ix2 b (⟨0, Nat.one_pos⟩ : Fin 1)) idx 0
      + (takeAlong B C wf).batchCoord (ix2 b (⟨0, Nat.one_pos⟩ : Fin 1)) 0
      + (takeAlong B C wf).offCoord (ix2 b (⟨0, Nat.one_pos⟩ : Fin 1)) 0 = b.val
    rw [GatherDims.start_batching _ _ _ _ hob0, GatherDims.offCoord_eq_zero _ _ _ hk0]
    unfold GatherDims.batchCoord
    rw [dif_pos hob0]
    show 0 + b.val + 0 = b.val
    omega
  | ⟨1, _⟩ =>
    show (takeAlong B C wf).start (ix2 b (⟨0, Nat.one_pos⟩ : Fin 1)) idx 1
      + (takeAlong B C wf).batchCoord (ix2 b (⟨0, Nat.one_pos⟩ : Fin 1)) 1
      + (takeAlong B C wf).offCoord (ix2 b (⟨0, Nat.one_pos⟩ : Fin 1)) 1
      = min (idx (ix3 b (⟨0, Nat.one_pos⟩ : Fin 1) (⟨0, Nat.one_pos⟩ : Fin 1))).toInt.toNat (C - 1)
    rw [GatherDims.batchCoord_eq_zero _ _ _ hob1, GatherDims.offCoord_eq_zero _ _ _ hk1]
    simp only [Nat.add_zero]
    unfold GatherDims.start
    rw [dif_pos (show (1 : Fin 2) ∈ (takeAlong B C wf).startIndexMap from List.mem_singleton.mpr rfl)]
    have hsi : (takeAlong B C wf).siIdx (ix2 b (⟨0, Nat.one_pos⟩ : Fin 1))
        ⟨List.idxOf (1 : Fin 2) (takeAlong B C wf).startIndexMap,
          List.idxOf_lt_length_iff.2 (List.mem_singleton.mpr rfl)⟩
        = ix3 b (⟨0, Nat.one_pos⟩ : Fin 1) (⟨0, Nat.one_pos⟩ : Fin 1) := by
      funext c; refine Fin.ext ?_
      match c with
      | ⟨0, _⟩ => rfl
      | ⟨1, _⟩ => rfl
      | ⟨2, _⟩ => rfl
    rw [hsi]
    rfl

/-- The gathered log-softmax at sample `b` with a label in range: the log-softmax of row `b` at the label's column. -/
theorem gather_read (X : (⟨S16384x250, .f32⟩ : BufTy).Contents (Elt Ideal))
    (L : (⟨S16384, .i32⟩ : BufTy).Contents (Elt Ideal)) (b : Fin 16384)
    (h : 0 ≤ (L (ix1 b) : BitVec 32).toInt ∧ (L (ix1 b) : BitVec 32).toInt < 250) :
    val_main_call1_v13 (F := Ideal) X L (ix2 b (⟨0, Nat.one_pos⟩ : Fin 1))
      = val_main_v3 (F := Ideal) X (ix2 b (⟨(L (ix1 b) : BitVec 32).toInt.toNat, by omega⟩ : Fin 250)) := by
  unfold val_main_call1_v13
  generalize val_main_v3 (F := Ideal) X = P
  refine (takeAlong_apply (B := 16384) (C := 250) (by decide) _ P (val_main_call1_v5 (F := Ideal) L) b).trans ?_
  refine congrArg P (congrArg (ix2 b) (Fin.ext ?_))
  show min (val_main_call1_v5 (F := Ideal) L (ix3 b (⟨0, Nat.one_pos⟩ : Fin 1) (⟨0, Nat.one_pos⟩ : Fin 1))).toInt.toNat (250 - 1)
    = (L (ix1 b) : BitVec 32).toInt.toNat
  rw [wrapped_read L b h.1]
  omega

/-- `take_along_axis` at sample `b` with a label in range. -/
theorem picked_read (X : (⟨S16384x250, .f32⟩ : BufTy).Contents (Elt Ideal))
    (L : (⟨S16384, .i32⟩ : BufTy).Contents (Elt Ideal)) (b : Fin 16384)
    (h : 0 ≤ (L (ix1 b) : BitVec 32).toInt ∧ (L (ix1 b) : BitVec 32).toInt < 250) :
    val_main_v5 (F := Ideal) X L (ix2 b (⟨0, Nat.one_pos⟩ : Fin 1))
      = val_main_v3 (F := Ideal) X (ix2 b (⟨(L (ix1 b) : BitVec 32).toInt.toNat, by omega⟩ : Fin 250)) := by
  rw [val_main_v5_apply, mask_read L b h, select_one, gather_read X L b h]

/-- the cross-entropy: minus the mean, over the samples, of the log-softmax at the sample's label -/
theorem ce_apply (X : (⟨S16384x250, .f32⟩ : BufTy).Contents (Elt Ideal))
    (L : (⟨S16384, .i32⟩ : BufTy).Contents (Elt Ideal))
    (hL : ∀ b : Fin 16384, 0 ≤ (L (ix1 b) : BitVec 32).toInt ∧ (L (ix1 b) : BitVec 32).toInt < 250) :
    val_main_v8 (F := Ideal) X L ix0
      = -(Ideal.div (∑ b : Fin 16384, ∑ k : Fin 250, oh (L (ix1 b)) k.val *
            ((X (ix2 b k) - rowMax (fun k' : Fin 250 => X (ix2 b k'))) - lse (fun k' : Fin 250 => X (ix2 b k'))))
          (Ideal.ofBits .f32 0x46800000#32)) := by
  rw [val_main_v8_apply, val_main_v7_apply, val_main_v6_apply, val_main_cst_0_apply, val_main_cst_1_apply]
  rw [Ideal.hostNegf_def, Ideal.negf_def, Ideal.hostDivf_def, Ideal.ofBits_def, Ideal.ofBits_def,
    Ideal.ofBits_zero_f32, zero_add]
  refine congrArg (fun s : EReal => -(Ideal.div s (Ideal.ofBits .f32 0x46800000#32))) ?_
  rw [sum_idx2]
  refine Finset.sum_congr rfl fun b _ => ?_
  rw [Fin.sum_univ_one]
  have hb := hL b
  have e := picked_read X L b hb
  refine e.trans ?_
  rw [logp_read]
  symm
  rw [Finset.sum_eq_single (⟨(L (ix1 b) : BitVec 32).toInt.toNat, by omega⟩ : Fin 250)]
  · have hoh : oh (L (ix1 b)) (L (ix1 b) : BitVec 32).toInt.toNat = 1 := by
      unfold oh
      exact if_pos ((toInt_eq_iff _ _ (by omega)).mp (by omega))
    rw [hoh, one_mul]
  · intro k _ hk
    have hoh : oh (L (ix1 b)) k.val = 0 := by
      unfold oh
      refine if_neg fun hl => hk (Fin.ext ?_)
      have := (toInt_eq_iff _ _ (by omega)).mpr hl
      show k.val = (L (ix1 b) : BitVec 32).toInt.toNat
      omega
    rw [hoh, zero_mul]
  · intro hn
    exact absurd (Finset.mem_univ _) hn

end Cert.ReferenceIdeal.RefSums

end
-- ==== Proof.CEAlgebra.lean ====
/-
  The algebra that joins the two programs' cross-entropy terms. Per tile of 1024 samples one program adds the rows'
  maxima and log-sum-exps and takes away the label-weighted entries; the other takes minus the mean of the
  label-weighted shifted entries. With every entry a real number, every row maximum and log-sum-exp is a real number,
  and a label in range weighs exactly one class, so the two are one number. Over the extended reals subtraction does
  not distribute over sums, so the identity is proved in ℝ and carried back along the coercion.
-/
import proofs.«429416_j283467841734_3_alg».proof.Proof.Spec
import proofs.«429416_j283467841734_3_alg».proof.Proof.SumBlocks
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Log.Basic
import Mathlib.Algebra.BigOperators.Fin
import Mathlib.Algebra.BigOperators.Ring.Finset
import Mathlib.Algebra.Order.BigOperators.Group.Finset
import Mathlib.Data.Finset.Fold

noncomputable section

namespace Cert.CEAlgebra

open Idealize.ShloMosaic Cert.Spec

/-- An extended real is a real number exactly when it is the image of one. -/
theorem isReal_iff (x : EReal) : IsReal x ↔ ∃ r : ℝ, x = (r : EReal) := by
  constructor
  · rintro ⟨h1, h2⟩
    exact ⟨x.toReal, (EReal.coe_toReal h1 h2).symm⟩
  · rintro ⟨r, rfl⟩
    exact ⟨EReal.coe_ne_top r, EReal.coe_ne_bot r⟩

/-- A one-hot weight is one or zero. -/
theorem oh_cases (l : BitVec 32) (k : ℕ) : oh l k = 1 ∨ oh l k = 0 := by
  unfold oh
  split
  · exact Or.inl rfl
  · exact Or.inr rfl

/-- A one-hot weight is a real number. -/
theorem oh_isReal (l : BitVec 32) (k : ℕ) : IsReal (oh l k) := by
  rcases oh_cases l k with h | h <;> rw [h]
  · rw [← EReal.coe_one]; exact ⟨EReal.coe_ne_top _, EReal.coe_ne_bot _⟩
  · exact ⟨EReal.zero_ne_top, EReal.zero_ne_bot⟩

/-- a label in range has exactly one class: of the 250 class words only the label's own equals it, since a
    non-negative label below 250 is its own natural number and distinct naturals below 2^32 have distinct words. -/
theorem sum_oh_eq_one (l : BitVec 32) (h0 : 0 ≤ l.toInt) (h1 : l.toInt < 250) :
    ∑ k : Fin 250, oh l k.val = 1 := by
  have hl : l.toNat < 250 := by
    have := BitVec.toInt_eq_toNat_cond l
    have h2 := l.isLt
    split at this <;> omega
  rw [Finset.sum_eq_single (⟨l.toNat, hl⟩ : Fin 250)]
  · unfold oh
    rw [if_pos]
    show l = BitVec.ofNat 32 l.toNat
    simp
  · intro b _ hb
    unfold oh
    rw [if_neg]
    intro h
    apply hb
    apply Fin.ext
    show b.val = l.toNat
    rw [h]
    simp
    have := b.isLt
    omega
  · intro h
    exact absurd (Finset.mem_univ _) h

/-- The maximum of a non-empty row is one of its entries (by induction on the index set: the greater of an entry and
    an entry is an entry), so for real entries it is a real number. -/
theorem rowMax_isReal {n : ℕ} (hn : 0 < n) (x : Fin n → EReal) (hx : ∀ k, IsReal (x k)) : IsReal (rowMax x) := by
  unfold rowMax
  have key : ∀ s : Finset (Fin n), s.Nonempty → ∃ k, s.fold max ⊥ x = x k := by
    intro s hs
    induction hs using Finset.Nonempty.cons_induction with
    | singleton a =>
      refine ⟨a, ?_⟩
      simp
    | cons a s ha hs ih =>
      obtain ⟨k, hk⟩ := ih
      rw [Finset.fold_cons, hk]
      rcases max_choice (x a) (x k) with h | h
      · exact ⟨a, h⟩
      · exact ⟨k, h⟩
  obtain ⟨k, hk⟩ := key Finset.univ ⟨⟨0, hn⟩, Finset.mem_univ _⟩
  rw [hk]; exact hx k

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The log-sum-exp of a non-empty real row: each exponential of a real difference is a positive real, a sum of
    n > 0 positive reals is a positive real, and its logarithm is a real number. -/
theorem lse_isReal {n : ℕ} (hn : 0 < n) (x : Fin n → EReal) (hx : ∀ k, IsReal (x k)) : IsReal (lse x) := by
  obtain ⟨m, hm⟩ := (isReal_iff _).1 (rowMax_isReal hn x hx)
  choose a ha using fun k => (isReal_iff _).1 (hx k)
  unfold lse
  rw [hm]
  have h1 : ∀ k, Ideal.exp (x k - (m : EReal)) = ((Real.exp (a k - m) : ℝ) : EReal) := by
    intro k; rw [ha k, ← EReal.coe_sub, Ideal.exp_coe]
  simp only [h1]
  rw [← coe_sum, Ideal.log_coe, if_neg]
  · exact (isReal_iff _).2 ⟨_, rfl⟩
  · have : 0 < ∑ k, Real.exp (a k - m) :=
      Finset.sum_pos (fun k _ => Real.exp_pos _) ⟨⟨0, hn⟩, Finset.mem_univ _⟩
    exact not_le.2 this

/-- The word 0x46800000 has exponent field 141 and zero fraction: 2^23 · 2^(141 − 127 − 23) = 2^14 = 16384. -/
theorem ofBits_16384 : Ideal.ofBits .f32 0x46800000#32 = ((16384 : ℝ) : EReal) := by
  simp [Ideal.ofBits, Ideal.ieee, -EReal.coe_mul]; norm_num

/-- The identity in ℝ. For each sample b, with the weights w b summing to one,
    Σ_k w·((x − m) − s) = Σ_k w·x − (m + s); the 16384 samples are 16 tiles of 1024; inside a tile the sums over
    classes and rows commute; and minus a difference is the difference the other way round. -/
theorem ce_real (x : ℕ → Fin 250 → ℝ) (m s : ℕ → ℝ) (w : ℕ → Fin 250 → ℝ) (hw : ∀ b, ∑ k, w b k = 1) :
    (∑ t : Fin 16, ((∑ r : Fin 1024, (m (1024 * t.val + r.val) + s (1024 * t.val + r.val)))
        - ∑ k : Fin 250, ∑ r : Fin 1024, w (1024 * t.val + r.val) k * x (1024 * t.val + r.val) k)) * (1 / 16384)
      = -((∑ b : Fin 16384, ∑ k : Fin 250, w b.val k * ((x b.val k - m b.val) - s b.val)) * (1 / 16384)) := by
  have hrow : ∀ b, ∑ k : Fin 250, w b k * ((x b k - m b) - s b) = (∑ k, w b k * x b k) - (m b + s b) := by
    intro b
    have : ∀ k, w b k * ((x b k - m b) - s b) = w b k * x b k - w b k * (m b + s b) := fun k => by ring
    simp only [this, Finset.sum_sub_distrib, ← Finset.sum_mul, hw b, one_mul]
  have hb : ∑ b : Fin 16384, ∑ k : Fin 250, w b.val k * ((x b.val k - m b.val) - s b.val)
      = ∑ i : Fin 16, ∑ r : Fin 1024, ∑ k : Fin 250,
          w (1024 * i.val + r.val) k * ((x (1024 * i.val + r.val) k - m (1024 * i.val + r.val)) - s (1024 * i.val + r.val)) :=
    Cert.SumBlocks.sum_blocks 16 1024 (fun b => ∑ k : Fin 250, w b k * ((x b k - m b) - s b))
  rw [hb, ← neg_mul, ← Finset.sum_neg_distrib]
  refine congrArg (fun z : ℝ => z * (1 / 16384)) ?_
  refine Finset.sum_congr rfl fun t _ => ?_
  simp only [hrow, Finset.sum_sub_distrib]
  rw [Finset.sum_comm]
  ring

/-- the two cross-entropy terms are one number: choose real witnesses for the entries, the row maxima, the
    log-sum-exps and the one-hot weights, write both sides as coercions of real expressions (the divisor is the real
    16384, so the quotient is a product with 1/16384), and apply the identity in ℝ. -/
theorem ce_identity (X : ℕ → Fin 250 → EReal) (L : ℕ → BitVec 32)
    (hX : ∀ b k, IsReal (X b k)) (hL : ∀ b, 0 ≤ (L b).toInt ∧ (L b).toInt < 250) :
    Ideal.div (∑ t : Fin 16, ((∑ r : Fin 1024, (rowMax (X (1024 * t.val + r.val)) + lse (X (1024 * t.val + r.val))))
                  - ∑ k : Fin 250, ∑ r : Fin 1024, oh (L (1024 * t.val + r.val)) k.val * X (1024 * t.val + r.val) k))
        (Ideal.ofBits .f32 0x46800000#32)
      = -(Ideal.div (∑ b : Fin 16384, ∑ k : Fin 250, oh (L b.val) k.val * ((X b.val k - rowMax (X b.val)) - lse (X b.val)))
            (Ideal.ofBits .f32 0x46800000#32)) := by
  choose x hx using fun b k => (isReal_iff _).1 (hX b k)
  choose m hm using fun b => (isReal_iff _).1 (rowMax_isReal (by norm_num : 0 < 250) (X b) (hX b))
  choose s hs using fun b => (isReal_iff _).1 (lse_isReal (by norm_num : 0 < 250) (X b) (hX b))
  choose w hw using fun b (k : Fin 250) => (isReal_iff _).1 (oh_isReal (L b) k.val)
  have hsum : ∀ b, ∑ k : Fin 250, w b k = 1 := by
    intro b
    have h := sum_oh_eq_one (L b) (hL b).1 (hL b).2
    simp only [hw] at h
    rw [← coe_sum] at h
    exact_mod_cast h
  have h16 : (16384 : ℝ) ≠ 0 := by norm_num
  simp only [hx, hm, hs, hw, ← EReal.coe_add, ← EReal.coe_sub, ← EReal.coe_mul, ← coe_sum]
  rw [ofBits_16384, Ideal.div_coe h16, Ideal.div_coe h16, ← EReal.coe_mul, ← EReal.coe_mul, ← EReal.coe_neg,
    ce_real x m s w hsum]

end Cert.CEAlgebra

end
-- ==== Proof.Bridge0.lean ====
/-
  The first region's three result arrays, added over the two halves of the batch by the host, ARE the reference's
  stages: the per-class embedding sums (entry (k, d): the sum over the samples b of oh(label b, k) · e[b, d]), the
  per-class counts (entry k: the sum over the samples of oh(label b, k)), and the cross-entropy
  (−(1/16384) · Σ_b Σ_k oh(label b, k) · ((x[b, k] − max_b) − lse_b), which the kernel accumulates tile by tile as
  Σ_b (max_b + lse_b) − Σ_k Σ_b oh(label b, k) · x[b, k]; the two agree because every label names exactly one class).
  The region is entered with the logits and the embeddings as launched and with the labels recast as a row, so a row
  of the arrays it reads is the row of the same number of the arguments.
-/
import proofs.«429416_j283467841734_3_alg».proof.Proof.HostChain
import proofs.«429416_j283467841734_3_alg».proof.Proof.R0Sum
import proofs.«429416_j283467841734_3_alg».proof.Proof.RefSums
import proofs.«429416_j283467841734_3_alg».proof.Proof.CEAlgebra
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.Bridge0

open Idealize.ShloMosaic Idealize.ShloMosaic.TcCoe Idealize.SL.Sem Idealize.ShloMosaic.ValueIdx
open Cert.KernelIdeal.Gen (W13 V1 dat0)
open Cert.KernelIdeal.R0Sum (labN embN lgtN xa la ea)
open Cert.Spec (oh rowMax lse IsReal)

/-! ## The host's sums over the two halves, at an index -/

/-- The sum over the leading axis of a [2, 250, 2048] array, from the zero word, at (k, d): the two halves' entries
    added. -/
theorem halves_sums (A : FVec Ideal Cert.KernelIdeal.S2x250x2048 .f32) (k : Fin 250) (d : Fin 2048) :
    Host.reduceAdd (F := Ideal) A (constant (F := Ideal) Cert.KernelIdeal.S_ .f32 0x00000000#32)
        Cert.KernelIdeal.Gen.reducesTo_S2x250x2048_S250x2048_d0 Cert.KernelIdeal.Gen.h_S_ (ix2 k d)
      = ∑ p : Fin 2, A (ix3 p k d) := by
  simp only [Host.reduceAdd, Ideal.hostReduceAdd_def]
  rw [Ideal.hostReduceAdd_single Cert.KernelIdeal.Gen.reducesTo_S2x250x2048_S250x2048_d0 (by decide)]
  show Ideal.ofBits .f32 0x00000000#32 + _ = _
  rw [Ideal.ofBits_zero_f32, zero_add]
  refine Finset.sum_congr rfl fun p _ => congrArg A (funext fun a => Fin.ext ?_)
  match a with
  | ⟨0, _⟩ => rfl
  | ⟨1, _⟩ => rfl
  | ⟨2, _⟩ => rfl

/-- The same for a [2, 250, 1] array, at (k, 0). -/
theorem halves_counts (A : FVec Ideal Cert.KernelIdeal.S2x250x1 .f32) (k : Fin 250) :
    Host.reduceAdd (F := Ideal) A (constant (F := Ideal) Cert.KernelIdeal.S_ .f32 0x00000000#32)
        Cert.KernelIdeal.Gen.reducesTo_S2x250x1_S250x1_d0 Cert.KernelIdeal.Gen.h_S_ (ix2 k (0 : Fin 1))
      = ∑ p : Fin 2, A (ix3 p k (0 : Fin 1)) := by
  simp only [Host.reduceAdd, Ideal.hostReduceAdd_def]
  rw [Ideal.hostReduceAdd_single Cert.KernelIdeal.Gen.reducesTo_S2x250x1_S250x1_d0 (by decide)]
  show Ideal.ofBits .f32 0x00000000#32 + _ = _
  rw [Ideal.ofBits_zero_f32, zero_add]
  refine Finset.sum_congr rfl fun p _ => congrArg A (funext fun a => Fin.ext ?_)
  match a with
  | ⟨0, _⟩ => rfl
  | ⟨1, _⟩ => rfl
  | ⟨2, _⟩ => rfl

/-- The sum of a [2, 1, 1] array over all its axes, from the zero word: its two cells added. -/
theorem halves_cell (A : FVec Ideal Cert.KernelIdeal.S2x1x1 .f32) :
    Host.reduceAdd (F := Ideal) A (constant (F := Ideal) Cert.KernelIdeal.S_ .f32 0x00000000#32)
        Cert.KernelIdeal.Gen.reducesTo_S2x1x1_S_d0_1_2 Cert.KernelIdeal.Gen.h_S_ ix0
      = ∑ p : Fin 2, A (ix3 p (0 : Fin 1) (0 : Fin 1)) := by
  simp only [Host.reduceAdd, Ideal.hostReduceAdd_def]
  rw [Ideal.hostReduceAdd_total Cert.KernelIdeal.Gen.reducesTo_S2x1x1_S_d0_1_2 (fun b => b.elim0)]
  show Ideal.ofBits .f32 0x00000000#32 + _ = _
  rw [Ideal.ofBits_zero_f32, zero_add]
  refine (Cert.KernelIdeal.R0Math.sum_idx3 (n0 := 2) (n1 := 1) (n2 := 1) A).trans ?_
  refine Finset.sum_congr rfl fun p _ => ?_
  rw [Fin.sum_univ_one, Fin.sum_univ_one]

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-! ## The rows the first region reads are the arguments' rows -/

/-- The label of sample b, as the region reads it out of the row of labels, is the argument's entry b. -/
theorem labN_eq (b : Fin 16384) :
    labN (V1 m ρ) c b.val = m ((c.tc : Thread Cert.KernelIdeal.nD Cert.KernelIdeal.τ).loc Cert.KernelIdeal.main_arg1) (ix1 b) := by
  unfold Cert.KernelIdeal.R0Sum.labN
  rw [dif_pos b.isLt]
  show V1 m ρ c Cert.KernelIdeal.main_v0 (ix2 (0 : Fin 1) b) = _
  rw [Cert.HostChain.V1_v0 m ρ c]
  have h1 := Shape.rowMajor_val_one (d := ![16384]) (ix1 b)
  have h2 := Shape.rowMajor_val_two (d := ![1, 16384]) (ix2 (0 : Fin 1) b)
  exact shapeCast_apply _ Cert.KernelIdeal.Gen.shapeCasts_S16384_S1x16384 (ix2 (0 : Fin 1) b) (ix1 b)
    (h1.trans (h2.trans (by show 0 * 16384 + b.val = b.val; omega)).symm)

/-- Past the last sample the label read is the zero word. -/
theorem labN_past (n : ℕ) (h : ¬ n < 16384) : labN (V1 m ρ) c n = 0 := by
  unfold Cert.KernelIdeal.R0Sum.labN
  rw [dif_neg h]

/-- Row b of the embeddings as the region reads them is row b of the argument. -/
theorem embN_eq (b : Fin 16384) (d : Fin 2048) :
    embN (V1 m ρ) c b.val d = m ((c.tc : Thread Cert.KernelIdeal.nD Cert.KernelIdeal.τ).loc Cert.KernelIdeal.main_arg2) (ix2 b d) := by
  unfold Cert.KernelIdeal.R0Sum.embN
  rw [dif_pos b.isLt]
  show V1 m ρ c Cert.KernelIdeal.main_arg2 (ix2 b d) = _
  rw [Cert.HostChain.V1_arg2 m ρ c]

/-- Row b of the logits as the region reads them is row b of the argument. -/
theorem lgtN_eq (b : Fin 16384) (k : Fin 250) :
    lgtN (V1 m ρ) c b.val k = m ((c.tc : Thread Cert.KernelIdeal.nD Cert.KernelIdeal.τ).loc Cert.KernelIdeal.main_arg0) (ix2 b k) := by
  unfold Cert.KernelIdeal.R0Sum.lgtN
  rw [dif_pos b.isLt]
  show V1 m ρ c Cert.KernelIdeal.main_arg0 (ix2 b k) = _
  rw [Cert.HostChain.V1_arg0 m ρ c]

/-! ## The three stages -/

/-- The per-class embedding sums. -/
theorem sums_eq (hE : ∀ i, Cert.Spec.IsReal (m ((c.tc : Thread Cert.KernelIdeal.nD Cert.KernelIdeal.τ).loc Cert.KernelIdeal.main_arg2) i)) :
    W13 m ρ c (Proc.devRef .tc Cert.KernelIdeal.main_v4)
      = Cert.ReferenceIdeal.ReadP.val_main_v11 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  funext i
  obtain ⟨k, d, rfl⟩ : ∃ (k : Fin 250) (d : Fin 2048), i = ix2 k d := ⟨i 0, i 1, eq_ix2 i⟩
  have he : ∀ i, IsReal (ea (V1 m ρ) c i) := fun i => by
    show IsReal (V1 m ρ c Cert.KernelIdeal.main_arg2 i)
    rw [Cert.HostChain.V1_arg2 m ρ c]
    exact hE i
  refine ((congrFun (Cert.HostChain.sums_read m ρ c) (ix2 k d)).trans ?_).trans
    (Cert.ReferenceIdeal.RefSums.sums_apply _ _ k d).symm
  refine (halves_sums _ k d).trans ?_
  refine (Cert.KernelIdeal.R0Sum.sums_total (V1 m ρ) c he k d).trans ?_
  exact Finset.sum_congr rfl fun b _ => by rw [labN_eq, embN_eq]

/-- The per-class counts. -/
theorem counts_eq :
    W13 m ρ c (Proc.devRef .tc Cert.KernelIdeal.main_v6)
      = Cert.ReferenceIdeal.ReadP.val_main_v15 (F := Ideal)
          (m ((c.tc : Thread Cert.KernelIdeal.nD Cert.KernelIdeal.τ).loc Cert.KernelIdeal.main_arg1)) := by
  funext i
  obtain ⟨k, rfl⟩ : ∃ k : Fin 250, i = ix1 k := ⟨i 0, eq_ix1 i⟩
  refine ((congrFun (Cert.HostChain.counts_read m ρ c) (ix1 k)).trans ?_).trans
    (Cert.ReferenceIdeal.RefSums.counts_apply _ k).symm
  have h1 := Shape.rowMajor_val_one (d := ![250]) (ix1 k)
  have h2 := Shape.rowMajor_val_two (d := ![250, 1]) (ix2 k (0 : Fin 1))
  refine (shapeCast_apply _ Cert.KernelIdeal.Gen.shapeCasts_S250x1_S250 (ix1 k) (ix2 k (0 : Fin 1))
    (h2.trans (h1.trans (by show k.val = k.val * 1 + 0; omega)).symm)).trans ?_
  refine (halves_counts _ k).trans ?_
  refine (Cert.KernelIdeal.R0Sum.counts_total (V1 m ρ) c k).trans ?_
  exact Finset.sum_congr rfl fun b _ => by rw [labN_eq]

/-- The cross-entropy. -/
theorem ce_eq (hX : ∀ i, Cert.Spec.IsReal (m ((c.tc : Thread Cert.KernelIdeal.nD Cert.KernelIdeal.τ).loc Cert.KernelIdeal.main_arg0) i))
    (hL : ∀ b : Fin 16384,
      0 ≤ (m ((c.tc : Thread Cert.KernelIdeal.nD Cert.KernelIdeal.τ).loc Cert.KernelIdeal.main_arg1) (ix1 b) : BitVec 32).toInt
        ∧ (m ((c.tc : Thread Cert.KernelIdeal.nD Cert.KernelIdeal.τ).loc Cert.KernelIdeal.main_arg1) (ix1 b) : BitVec 32).toInt < 250) :
    W13 m ρ c (Proc.devRef .tc Cert.KernelIdeal.main_v3)
      = Cert.ReferenceIdeal.ReadP.val_main_v8 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext i
  obtain rfl : i = ix0 := eq_ix0 i
  have hx : ∀ i, IsReal (xa (V1 m ρ) c i) := fun i => by
    show IsReal (V1 m ρ c Cert.KernelIdeal.main_arg0 i)
    rw [Cert.HostChain.V1_arg0 m ρ c]
    exact hX i
  have hXN : ∀ b k, IsReal (lgtN (V1 m ρ) c b k) := fun b k => by
    by_cases h : b < 16384
    · rw [lgtN_eq m ρ c ⟨b, h⟩ k]
      exact hX _
    · unfold Cert.KernelIdeal.R0Sum.lgtN
      rw [dif_neg h]
      exact ⟨EReal.zero_ne_top, EReal.zero_ne_bot⟩
  have hLN : ∀ b, 0 ≤ (labN (V1 m ρ) c b).toInt ∧ (labN (V1 m ρ) c b).toInt < 250 := fun b => by
    by_cases h : b < 16384
    · rw [labN_eq m ρ c ⟨b, h⟩]
      exact hL ⟨b, h⟩
    · rw [labN_past m ρ c b h]
      decide
  have key := Cert.CEAlgebra.ce_identity (lgtN (V1 m ρ) c) (labN (V1 m ρ) c) hXN hLN
  refine ((congrFun (Cert.HostChain.ce_read m ρ c) ix0).trans ?_).trans
    (Cert.ReferenceIdeal.RefSums.ce_apply _ _ hL).symm
  refine Eq.trans ?_ (key.trans ?_)
  · show Ideal.div _ (Ideal.ofBits .f32 0x46800000#32) = _
    refine congrArg (fun s : EReal => Ideal.div s (Ideal.ofBits .f32 0x46800000#32)) ?_
    exact (halves_cell _).trans (Cert.KernelIdeal.R0Sum.ce_total (V1 m ρ) c hx)
  · refine congrArg (fun s : EReal => -(Ideal.div s (Ideal.ofBits .f32 0x46800000#32))) ?_
    refine Finset.sum_congr rfl fun b _ => Finset.sum_congr rfl fun k _ => ?_
    have hrow : lgtN (V1 m ρ) c b.val = fun k' : Fin 250 => m ((c.tc : Thread Cert.KernelIdeal.nD Cert.KernelIdeal.τ).loc Cert.KernelIdeal.main_arg0) (ix2 b k') :=
      funext fun k' => lgtN_eq m ρ c b k'
    rw [labN_eq, hrow]

end Cert.Bridge0

end
-- ==== Proof.R1Fold.lean ====
/-
  Region 1 as a fold over its 16 grid points, for any float family F.

  Point t = 8p + j (half p < 2, tile j < 8) computes, from its four input blocks and the output accumulator block, the
  new accumulator `upd`; at j = 0 the accumulator is first reset to the zero block. So after point n the accumulator is
  `acc n`: `upd` of the blocks at n and of the zero block when n % 8 = 0, of `acc (n - 1)` otherwise. The output array
  [2,250,250] is written back block (p,0,0) after the points 8p + 7, hence its entry (p,i,j) ends at entry (0,i,j) of
  `acc (8p + 7)`. The input blocks are read where their windows say: rows 1024 t … of the first array, columns
  1024 t … of the second, the whole third and fourth arrays at every point.
-/
import proofs.«429416_j283467841734_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.R1

variable {F : FTy → Type} [FloatOps F]
variable (V : (c : Dev nD) → (b : Ref sig .tc) → Buf (Elt F) ((c : Thread nD τ).loc b))

/-- one point's new accumulator from the point's four input blocks and the old accumulator -/
def upd (x0 : Vec F S1024x2048 .f32) (x1 : Vec F S1x1024 .i32) (x2 : Vec F S250x2048 .f32) (x3 : Vec F S1x250 .f32)
    (y : Vec F S1x250x250 .f32) : Vec F S1x250x250 .f32 := k1_pay1 (k1_pay3 x0 x2 x3) x1 y

/-- the accumulator after point n: restarted from zero at every eighth point -/
def acc (c : Dev nD) : (n : ℕ) → n < cfg1.N → Vec F S1x250x250 .f32
  | 0, h => upd (iblk1 V c 0 ⟨0, h⟩) (iblk1 V c 1 ⟨0, h⟩) (iblk1 V c 2 ⟨0, h⟩) (iblk1 V c 3 ⟨0, h⟩) k1_pay2
  | n + 1, h => upd (iblk1 V c 0 ⟨n + 1, h⟩) (iblk1 V c 1 ⟨n + 1, h⟩) (iblk1 V c 2 ⟨n + 1, h⟩) (iblk1 V c 3 ⟨n + 1, h⟩)
      (if (n + 1) % 8 = 0 then k1_pay2 else acc c n (Nat.lt_of_succ_lt h))

/-- The zero offsets of a rank-3 and of a rank-2 whole-block rectangle. -/
theorem hz3 : (![0, 0, 0] : Fin 3 → Nat) = fun _ => 0 := funext fun a => by fin_cases a <;> rfl
theorem hz2 : (![0, 0] : Fin 2 → Nat) = fun _ => 0 := funext fun a => by fin_cases a <;> rfl

/-- A point that continues a half (case B): over an accumulator block holding `xo`, the body's one covering store leaves
    `upd` of the four input blocks and `xo`. -/
theorem out_B (c : Dev nD) (i : grid1.Coords) (a2 : Memref sig .tc .vmem S1024x2048 .f32) (h2 : a2.IsWhole)
    (a3 : Memref sig .tc .vmem S1x1024 .i32) (h3 : a3.IsWhole) (a4 : Memref sig .tc .vmem S250x2048 .f32) (h4 : a4.IsWhole)
    (a5 : Memref sig .tc .vmem S1x250 .f32) (h5 : a5.IsWhole) (a6 : Memref sig .tc .vmem S1x250x250 .f32) (h6 : a6.IsWhole)
    (hc : ¬cond1_0 i) (x0 : Vec F S1024x2048 .f32) (x1 : Vec F S1x1024 .i32) (x2 : Vec F S250x2048 .f32)
    (x3 : Vec F S1x250 .f32) (xo : Vec F S1x250x250 .f32) :
    out1_B_4 c i a2 h2 a3 h3 a4 h4 a5 h5 a6 h6 hc x0 x1 x2 x3 xo = upd x0 x1 x2 x3 xo := by
  unfold out1_B_4 upd
  rw [View.read_writes_eq_canon _ _ _ (cover1_B_4 c i a2 h2 a3 h3 a4 h4 a5 h5 a6 h6 hc x0 x1 x2 x3 xo)]
  unfold kernelRun1_B
  dsimp only
  sl_unfold_words
  rw [View.canon_unit_zero (S := S1x250x250) hz3]
  simp only [View.readAt_eq_ld, h2.read_unread, h3.read_unread, h4.read_unread, h5.read_unread, h6.read_unread,
    View.ld_unit_zero (S := S1024x2048) hz2, View.ld_unit_zero (S := S1x1024) hz2, View.ld_unit_zero (S := S250x2048) hz2,
    View.ld_unit_zero (S := S1x250) hz2, View.ld_unit_zero (S := S1x250x250) hz3]

/-- A point that starts a half (case A): the body stores the zero block, reads it back, and its last covering store
    leaves `upd` of the four input blocks and the zero block. -/
theorem out_A (c : Dev nD) (i : grid1.Coords) (a2 : Memref sig .tc .vmem S1024x2048 .f32) (h2 : a2.IsWhole)
    (a3 : Memref sig .tc .vmem S1x1024 .i32) (h3 : a3.IsWhole) (a4 : Memref sig .tc .vmem S250x2048 .f32) (h4 : a4.IsWhole)
    (a5 : Memref sig .tc .vmem S1x250 .f32) (h5 : a5.IsWhole) (a6 : Memref sig .tc .vmem S1x250x250 .f32) (h6 : a6.IsWhole)
    (hc : cond1_0 i) (x0 : Vec F S1024x2048 .f32) (x1 : Vec F S1x1024 .i32) (x2 : Vec F S250x2048 .f32)
    (x3 : Vec F S1x250 .f32) :
    out1_A_4 c i a2 h2 a3 h3 a4 h4 a5 h5 a6 h6 hc x0 x1 x2 x3 = upd x0 x1 x2 x3 k1_pay2 := by
  unfold out1_A_4 upd
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S1x250x250) hz3, View.readCov_unit_zero (S := S1x250x250) _ hz3]
  simp only [View.readAt_eq_ld, h2.read_unread, h3.read_unread, h4.read_unread, h5.read_unread,
    View.ld_unit_zero (S := S1024x2048) hz2, View.ld_unit_zero (S := S1x1024) hz2, View.ld_unit_zero (S := S250x2048) hz2,
    View.ld_unit_zero (S := S1x250) hz2]

/-- What the output's staging buffer holds after point n is the accumulator after point n: by induction on the point;
    a point with n % 8 = 0 restarts from the zero block, every other point updates what the point before left. -/
theorem outsAt1_eq (c : Dev nD) : ∀ (n : ℕ) (h : n < cfg1.N), outsAt1 V c n h = acc V c n h
  | 0, h => by
    rw [outsAt1_A V c ⟨0, h⟩ rfl]
    exact out_A c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩)
        (ms1_3 ⟨0, h⟩) (hs1_3 ⟨0, h⟩) (ms1_4 ⟨0, h⟩) (hs1_4 ⟨0, h⟩) ((hcond1_0 ⟨0, h⟩).mpr rfl)
        (iblk1 V c 0 ⟨0, h⟩) (iblk1 V c 1 ⟨0, h⟩) (iblk1 V c 2 ⟨0, h⟩) (iblk1 V c 3 ⟨0, h⟩)
  | n + 1, h => by
    have hacc : acc V c (n + 1) h = upd (iblk1 V c 0 ⟨n + 1, h⟩) (iblk1 V c 1 ⟨n + 1, h⟩) (iblk1 V c 2 ⟨n + 1, h⟩) (iblk1 V c 3 ⟨n + 1, h⟩)
        (if (n + 1) % 8 = 0 then k1_pay2 else acc V c n (Nat.lt_of_succ_lt h)) := rfl
    by_cases h0 : (n + 1) % 8 = 0
    · rw [outsAt1_A V c ⟨n + 1, h⟩ h0, hacc, if_pos h0]
      exact out_A c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩)
        (ms1_3 ⟨n + 1, h⟩) (hs1_3 ⟨n + 1, h⟩) (ms1_4 ⟨n + 1, h⟩) (hs1_4 ⟨n + 1, h⟩) ((hcond1_0 ⟨n + 1, h⟩).mpr h0)
        (iblk1 V c 0 ⟨n + 1, h⟩) (iblk1 V c 1 ⟨n + 1, h⟩) (iblk1 V c 2 ⟨n + 1, h⟩) (iblk1 V c 3 ⟨n + 1, h⟩)
    · rw [outsAt1_B V c ⟨n + 1, h⟩ h0, hacc, if_neg h0, ← outsAt1_eq c n (Nat.lt_of_succ_lt h)]
      exact out_B c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩)
        (ms1_3 ⟨n + 1, h⟩) (hs1_3 ⟨n + 1, h⟩) (ms1_4 ⟨n + 1, h⟩) (hs1_4 ⟨n + 1, h⟩) (fun hh => h0 ((hcond1_0 ⟨n + 1, h⟩).mp hh))
        (iblk1 V c 0 ⟨n + 1, h⟩) (iblk1 V c 1 ⟨n + 1, h⟩) (iblk1 V c 2 ⟨n + 1, h⟩) (iblk1 V c 3 ⟨n + 1, h⟩) (outsAt1 V c n (Nat.lt_of_succ_lt h))

/-- The accumulator at two equal point numbers. -/
theorem acc_congr (c : Dev nD) {n n' : ℕ} (e : n = n') (h : n < cfg1.N) (h' : n' < cfg1.N) :
    acc V c n h = acc V c n' h' := by
  subst e; rfl

/-- The last point of half p is inside the grid. -/
theorem half_lt (p : Fin 2) : 8 * p.val + 7 < cfg1.N := by
  have hN : cfg1.N = 16 := N_1
  have := p.isLt
  omega

/-- The output array's final contents: half p holds the accumulator after the half's last point 8p + 7. -/
def fin4 (c : Dev nD) : Buf (Elt F) ((c : Thread nD τ).loc main_v71) := fun y =>
  acc V c (8 * (y 0).val + 7) (half_lt (y 0)) (ix3 0 (y 1) (y 2))

/-- Read at an index of half n / 8, for a point n that ends a half. -/
theorem fin4_apply (c : Dev nD) (n : ℕ) (h : n < cfg1.N) (h7 : n % 8 = 7) (k : S2x250x250.Idx) (x : S1x250x250.Idx)
    (hk0 : (k 0).val = n / 8) (hk1 : (k 1).val = (x 1).val) (hk2 : (k 2).val = (x 2).val) :
    fin4 V c k = acc V c n h x := by
  have e : 8 * (k 0).val + 7 = n := by omega
  have hx0 : (x 0).val < 1 := (x 0).isLt
  unfold fin4
  refine (congrFun (acc_congr V c e _ h) _).trans ?_
  congr 1
  funext a
  match a with
  | ⟨0, _⟩ => exact Fin.ext (by show 0 = (x 0).val; omega)
  | ⟨1, _⟩ => exact Fin.ext hk1
  | ⟨2, _⟩ => exact Fin.ext hk2

/-- The output window's block index at point t is (t / 8, 0, 0), and its block is never cut, at each of the 16 points. -/
theorem idx4 : ∀ t : Fin cfg1.N, (win1_4.index t (0 : Fin 3) = t.val / 8 ∧ win1_4.index t (1 : Fin 3) = 0
      ∧ win1_4.index t (2 : Fin 3) = 0) ∧ win1_4.xsize (grid1.coords t) (0 : Fin 3) = 1
      ∧ win1_4.xsize (grid1.coords t) (1 : Fin 3) = 250 ∧ win1_4.xsize (grid1.coords t) (2 : Fin 3) = 250 :=
  (by decide +kernel : ∀ t : Fin grid1.N, (win1_4.index t (0 : Fin 3) = t.val / 8 ∧ win1_4.index t (1 : Fin 3) = 0
      ∧ win1_4.index t (2 : Fin 3) = 0) ∧ win1_4.xsize (grid1.coords t) (0 : Fin 3) = 1
      ∧ win1_4.xsize (grid1.coords t) (1 : Fin 3) = 250 ∧ win1_4.xsize (grid1.coords t) (2 : Fin 3) = 250)

/-- What a write-back point (t % 8 = 7) writes is its block of the final contents: block (t / 8, 0, 0) holds the
    accumulator after point t. -/
theorem flushed4_eq (c : Dev nD) (t : Fin cfg1.N) (hf : (cfg1.win 4).flush t = true) :
    (dat1 V c).flushed 4 t = ((cfg1.win 4).blk t).view.read (Elt F) (fin4 V c) := by
  have h7 : t.val % 8 = 7 := (flush1_4 t).mp hf
  obtain ⟨⟨e0, e1, e2⟩, -⟩ := idx4 t
  show (cfg1.win 4).cut (grid1.coords t) ((dat1 V c).after 4 t) = _
  rw [after1_4, outsAt1_eq]
  funext y
  rw [View.read_apply]
  show acc V c t.val t.isLt _ = fin4 V c _
  have hy0 : (y 0).val < 1 := (y 0).isLt
  refine (fin4_apply V c t.val t.isLt h7 _ _ ?_ ?_ ?_).symm
  · show win1_4.index t (0 : Fin 3) * 1 + 1 * (y 0).val = t.val / 8
    rw [e0]; omega
  · show win1_4.index t (1 : Fin 3) * 250 + 1 * (y 1).val = (y 1).val
    rw [e1]; omega
  · show win1_4.index t (2 : Fin 3) * 250 + 1 * (y 2).val = (y 2).val
    rw [e2]; omega

/-- So the output array ends at the final contents: every index (p, i, j) lies in the block written back at point 8p + 7. -/
theorem final4 (c : Dev nD) : (dat1 V c).arrAt 4 cfg1.N = fin4 V c :=
  (dat1 V c).arrAt_eq_of_cover 4 (fin4 V c) (flushed4_eq V c) fun i => by
    have hN : cfg1.N = 16 := N_1
    have hi0 : (i 0).val < 2 := (i 0).isLt
    have hi1 : (i 1).val < 250 := (i 1).isLt
    have hi2 : (i 2).val < 250 := (i 2).isLt
    have ht : 8 * (i 0).val + 7 < cfg1.N := by omega
    refine ⟨⟨8 * (i 0).val + 7, ht⟩, (flush1_4 _).mpr (by dsimp only; omega), ?_⟩
    obtain ⟨⟨e0, e1, e2⟩, s0, s1, s2⟩ := idx4 ⟨8 * (i 0).val + 7, ht⟩
    show i ∈ ((View.whole main_v71).slice (win1_4.rect ⟨8 * (i 0).val + 7, ht⟩)).set
    rw [View.set_slice_whole, Rect.mem_set_unit]
    intro a
    match a with
    | ⟨0, _⟩ =>
      show win1_4.index ⟨8 * (i 0).val + 7, ht⟩ (0 : Fin 3) * 1 ≤ (i 0).val ∧ (i 0).val < win1_4.index ⟨8 * (i 0).val + 7, ht⟩ (0 : Fin 3) * 1 + win1_4.xsize (grid1.coords ⟨8 * (i 0).val + 7, ht⟩) (0 : Fin 3)
      rw [e0, s0]; dsimp only; omega
    | ⟨1, _⟩ =>
      show win1_4.index ⟨8 * (i 0).val + 7, ht⟩ (1 : Fin 3) * 250 ≤ (i 1).val ∧ (i 1).val < win1_4.index ⟨8 * (i 0).val + 7, ht⟩ (1 : Fin 3) * 250 + win1_4.xsize (grid1.coords ⟨8 * (i 0).val + 7, ht⟩) (1 : Fin 3)
      rw [e1, s1]; omega
    | ⟨2, _⟩ =>
      show win1_4.index ⟨8 * (i 0).val + 7, ht⟩ (2 : Fin 3) * 250 ≤ (i 2).val ∧ (i 2).val < win1_4.index ⟨8 * (i 0).val + 7, ht⟩ (2 : Fin 3) * 250 + win1_4.xsize (grid1.coords ⟨8 * (i 0).val + 7, ht⟩) (2 : Fin 3)
      rw [e2, s2]; omega

/-- The output array after the region: entry (p, i, j) is entry (0, i, j) of the accumulator after point 8p + 7. -/
theorem arr4 (c : Dev nD) (p : Fin 2) (h : 8 * p.val + 7 < cfg1.N) (i j : Fin 250) :
    (dat1 V c).arrAt 4 cfg1.N (ix3 p i j) = acc V c (8 * p.val + 7) h (ix3 0 i j) := by
  rw [final4 V c]
  rfl

/-- Window 0's block at point t is rows 1024 t … 1024 t + 1023 of its array. -/
theorem blk0_apply (c : Dev nD) (t : Fin cfg1.N) (r : Fin 1024) (d : Fin 2048) (h : 1024 * t.val + r.val < 16384) :
    iblk1 V c 0 t (ix2 r d) = V c (Pipeline.arrRef spec1 0) (ix2 ⟨1024 * t.val + r.val, h⟩ d) := by
  have hi : win1_0.index t (0 : Fin 2) = t.val ∧ win1_0.index t (1 : Fin 2) = 0 :=
    (by decide +kernel : ∀ t : Fin grid1.N, win1_0.index t (0 : Fin 2) = t.val ∧ win1_0.index t (1 : Fin 2) = 0) t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 1024 + 1 * r.val = 1024 * t.val + r.val; rw [hi.1]; omega
  | ⟨1, _⟩ => show win1_0.index t (1 : Fin 2) * 2048 + 1 * d.val = d.val; rw [hi.2]; omega

/-- Window 1's block at point t is columns 1024 t … 1024 t + 1023 of its one-row array. -/
theorem blk1_apply (c : Dev nD) (t : Fin cfg1.N) (r : Fin 1024) (h : 1024 * t.val + r.val < 16384) :
    iblk1 V c 1 t (ix2 0 r) = V c (Pipeline.arrRef spec1 1) (ix2 0 ⟨1024 * t.val + r.val, h⟩) := by
  have hi : win1_1.index t (0 : Fin 2) = 0 ∧ win1_1.index t (1 : Fin 2) = t.val :=
    (by decide +kernel : ∀ t : Fin grid1.N, win1_1.index t (0 : Fin 2) = 0 ∧ win1_1.index t (1 : Fin 2) = t.val) t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 1 + 1 * 0 = 0; rw [hi.1]
  | ⟨1, _⟩ => show win1_1.index t (1 : Fin 2) * 1024 + 1 * r.val = 1024 * t.val + r.val; rw [hi.2]; omega

/-- Window 2's block is its whole array at every point. -/
theorem blk2_eq (c : Dev nD) (t : Fin cfg1.N) :
    (iblk1 V c 2 t : Vec F S250x2048 .f32) = V c (Pipeline.arrRef spec1 2) := by
  have hi : win1_2.index t (0 : Fin 2) = 0 ∧ win1_2.index t (1 : Fin 2) = 0 :=
    (by decide +kernel : ∀ t : Fin grid1.N, win1_2.index t (0 : Fin 2) = 0 ∧ win1_2.index t (1 : Fin 2) = 0) t
  funext y
  unfold iblk1
  rw [View.read_apply]
  show V c (Pipeline.arrRef spec1 2) _ = V c (Pipeline.arrRef spec1 2) y
  congr 1
  funext a
  apply Fin.ext
  match a with
  | ⟨0, _⟩ => show win1_2.index t (0 : Fin 2) * 250 + 1 * (y 0).val = (y 0).val; rw [hi.1]; omega
  | ⟨1, _⟩ => show win1_2.index t (1 : Fin 2) * 2048 + 1 * (y 1).val = (y 1).val; rw [hi.2]; omega

/-- Window 3's block is its whole array at every point. -/
theorem blk3_eq (c : Dev nD) (t : Fin cfg1.N) :
    (iblk1 V c 3 t : Vec F S1x250 .f32) = V c (Pipeline.arrRef spec1 3) := by
  have hi : win1_3.index t (0 : Fin 2) = 0 ∧ win1_3.index t (1 : Fin 2) = 0 :=
    (by decide +kernel : ∀ t : Fin grid1.N, win1_3.index t (0 : Fin 2) = 0 ∧ win1_3.index t (1 : Fin 2) = 0) t
  funext y
  unfold iblk1
  rw [View.read_apply]
  show V c (Pipeline.arrRef spec1 3) _ = V c (Pipeline.arrRef spec1 3) y
  congr 1
  funext a
  apply Fin.ext
  match a with
  | ⟨0, _⟩ => show win1_3.index t (0 : Fin 2) * 1 + 1 * (y 0).val = (y 0).val; rw [hi.1]; omega
  | ⟨1, _⟩ => show win1_3.index t (1 : Fin 2) * 250 + 1 * (y 1).val = (y 1).val; rw [hi.2]; omega

end Cert.KernelIdeal.R1

end
-- ==== Proof.R1Math.lean ====
/-
  The arithmetic of the margin region's payloads at the ideal values, read at an index: the zero block, the
  accumulated one-hot product, and the hinge block as the hinge of a unit-length sample row against a centroid row.
-/
import proofs.«429416_j283467841734_3_alg».proof.Proof.Gen.KernelIdeal.Skeleton
import proofs.«429416_j283467841734_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open Idealize.ShloMosaic Idealize.ShloMosaic.ValueIdx Cert.KernelIdeal Cert.KernelIdeal.Gen Cert.Spec

namespace Cert.KernelIdeal.R1Math

/-! ## Real numbers among the extended reals -/

/-- A real number less itself is zero; at an infinity the difference is not zero, hence the hypothesis. -/
theorem sub_self_of_isReal {x : EReal} (hx : IsReal x) : x - x = 0 := by
  obtain ⟨r, rfl⟩ : ∃ r : ℝ, x = (r : EReal) := ⟨x.toReal, (EReal.coe_toReal hx.1 hx.2).symm⟩
  rw [← EReal.coe_sub, sub_self, EReal.coe_zero]

/-- A real number, written as the extended real it is, is real. -/
theorem isReal_coe (r : ℝ) : IsReal (r : EReal) := ⟨EReal.coe_ne_top r, EReal.coe_ne_bot r⟩

/-! ## The zero block -/

theorem pay2_apply (i j : Fin 250) : k1_pay2 (F := Ideal) (ix3 0 i j) = 0 := by
  unfold k1_pay2
  refine (shapeCast_ab_1ab_apply _ _ 0 i j).trans ?_
  exact Ideal.ofBits_zero_f32

/-! ## The one-hot product: a contraction of axis 1 of the left operand with axis 0 of the right -/

theorem lhs_oh_0 (i : S250x250.Idx) (q : dot_S250x1024_S1024x250_S250x250_1_0_0_1_n_n.contr.Idx) :
    (dot_S250x1024_S1024x250_S250x250_1_0_0_1_n_n.lhsIdx i q 0).val = (i 0).val := by
  unfold DotDims.lhsIdx
  rw [dif_neg (show ¬(0 : Fin S250x1024.rank) ∈ dot_S250x1024_S1024x250_S250x250_1_0_0_1_n_n.lhsBatch by decide),
    dif_pos (show (0 : Fin S250x1024.rank) ∈ dot_S250x1024_S1024x250_S250x250_1_0_0_1_n_n.lhsNonContracting by decide)]
  rfl
theorem lhs_oh_1 (i : S250x250.Idx) (q : dot_S250x1024_S1024x250_S250x250_1_0_0_1_n_n.contr.Idx) :
    (dot_S250x1024_S1024x250_S250x250_1_0_0_1_n_n.lhsIdx i q 1).val = (q ⟨0, by decide⟩).val :=
  dot_S250x1024_S1024x250_S250x250_1_0_0_1_n_n.lhsIdx_val_of_single rfl i q
theorem rhs_oh_0 (i : S250x250.Idx) (q : dot_S250x1024_S1024x250_S250x250_1_0_0_1_n_n.contr.Idx) :
    (dot_S250x1024_S1024x250_S250x250_1_0_0_1_n_n.rhsIdx i q 0).val = (q ⟨0, by decide⟩).val :=
  dot_S250x1024_S1024x250_S250x250_1_0_0_1_n_n.rhsIdx_val_of_single rfl i q
theorem rhs_oh_1 (i : S250x250.Idx) (q : dot_S250x1024_S1024x250_S250x250_1_0_0_1_n_n.contr.Idx) :
    (dot_S250x1024_S1024x250_S250x250_1_0_0_1_n_n.rhsIdx i q 1).val = (i 1).val := by
  unfold DotDims.rhsIdx
  rw [dif_neg (show ¬(1 : Fin S1024x250.rank) ∈ dot_S250x1024_S1024x250_S250x250_1_0_0_1_n_n.rhsBatch by decide),
    dif_pos (show (1 : Fin S1024x250.rank) ∈ dot_S250x1024_S1024x250_S250x250_1_0_0_1_n_n.rhsNonContracting by decide)]
  rfl

/-- The product into a zero accumulator at (i, j): the sum over the 1024 samples of left (i, r) times right (r, j). -/
theorem matmul_oh_apply (A : FVec Ideal S250x1024 .bf16) (B : FVec Ideal S1024x250 .bf16) (i j : Fin 250) :
    matmul dot_S250x1024_S1024x250_S250x250_1_0_0_1_n_n none A B (constant S250x250 .f32 0x00000000#32) (ix2 i j)
      = ∑ r : Fin 1024, A (ix2 i r) * B (ix2 r j) := by
  simp only [matmul]
  rw [Ideal.matmul_constant_zero_apply,
    ← Equiv.sum_comp (contrEquiv1 dot_S250x1024_S1024x250_S250x250_1_0_0_1_n_n 1024 rfl rfl).symm]
  refine Finset.sum_congr rfl fun k _ => ?_
  have hk := contrEquiv1_symm_val dot_S250x1024_S1024x250_S250x250_1_0_0_1_n_n 1024 rfl rfl k
  have el : dot_S250x1024_S1024x250_S250x250_1_0_0_1_n_n.lhsIdx (ix2 i j)
      ((contrEquiv1 dot_S250x1024_S1024x250_S250x250_1_0_0_1_n_n 1024 rfl rfl).symm k) = ix2 i k :=
    funext fun a => Fin.ext (by
      match a with
      | ⟨0, _⟩ => exact lhs_oh_0 _ _
      | ⟨1, _⟩ => exact (lhs_oh_1 _ _).trans hk)
  have er : dot_S250x1024_S1024x250_S250x250_1_0_0_1_n_n.rhsIdx (ix2 i j)
      ((contrEquiv1 dot_S250x1024_S1024x250_S250x250_1_0_0_1_n_n 1024 rfl rfl).symm k) = ix2 k j :=
    funext fun a => Fin.ext (by
      match a with
      | ⟨0, _⟩ => exact (rhs_oh_0 _ _).trans hk
      | ⟨1, _⟩ => exact rhs_oh_1 _ _)
  rw [el, er]

/-! ## The accumulated one-hot product -/

/-- The word comparison of a class number with a label, widened and converted, is the label's one-hot weight. -/
theorem onehot_word (l : BitVec 32) (k : ℕ) :
    (FloatOps.sitofp (F := Ideal) .f32 ((IntOp.cmpi .eq (BitVec.ofNat 32 k) l).setWidth 32) : EReal) = oh l k := by
  show ((((BitVec.ofBool (BitVec.ofNat 32 k == l)).setWidth 32).toInt : ℝ) : EReal) = _
  unfold oh
  by_cases h : l = BitVec.ofNat 32 k
  · have e1 : ((BitVec.ofBool true).setWidth 32).toInt = 1 := by decide
    rw [if_pos h, show (BitVec.ofNat 32 k == l) = true by rw [h]; exact beq_self_eq_true _, e1]
    norm_num
  · have e0 : ((BitVec.ofBool false).setWidth 32).toInt = 0 := by decide
    rw [if_neg h, show (BitVec.ofNat 32 k == l) = false from beq_eq_false_iff_ne.mpr fun e => h e.symm, e0]
    norm_num

/-- The one-hot operand at (i, r): the weight sample r's label gives class i. -/
theorem onehot_apply (x1 : Vec Ideal S1x1024 .i32) (hi : S250x1024.Iotas .tc 32 [0]) (hb : S1x1024.Broadcasts S250x1024)
    (hs : S1x1024.ShapeCasts S1x1024) (hlt : 1 < 32) (i : Fin 250) (r : Fin 1024) :
    (sitofp (F := Ideal) .f32 (extui 32 (cmpi .eq (iota .tc S250x1024 32 [0] hi)
      (broadcastTo S250x1024 (shapeCast S1x1024 x1 hs) hb)) hlt) : FVec Ideal S250x1024 .f32) (ix2 i r)
      = oh (x1 (ix2 0 r)) i.val := by
  show FloatOps.sitofp (F := Ideal) .f32 ((IntOp.cmpi .eq (iota .tc S250x1024 32 [0] hi (ix2 i r))
    (broadcastTo S250x1024 (shapeCast S1x1024 x1 hs) hb (ix2 i r))).setWidth 32) = _
  rw [iota_single_apply, broadcastTo_1b_ab_apply, shapeCast_self]
  exact onehot_word _ _

/-- A sum of products whose second factors are each a real number less itself is zero. -/
theorem sum_mul_sub_self {n : ℕ} (a b : Fin n → EReal) (hb : ∀ r, IsReal (b r)) : ∑ r, a r * (b r - b r) = 0 :=
  Finset.sum_eq_zero fun r _ => by rw [sub_self_of_isReal (hb r), mul_zero]

theorem pay1_apply (h : Vec Ideal S1024x250 .f32) (x1 : Vec Ideal S1x1024 .i32) (y : Vec Ideal S1x250x250 .f32)
    (hh : ∀ i, IsReal (h i)) (i j : Fin 250) :
    k1_pay1 (F := Ideal) h x1 y (ix3 0 i j) = y (ix3 0 i j) + ∑ r : Fin 1024, oh (x1 (ix2 0 r)) i.val * h (ix2 r j) := by
  unfold k1_pay1
  refine (shapeCast_ab_1ab_apply _ _ 0 i j).trans ?_
  rw [addf_apply, addf_apply, shapeCast_1ab_ab_apply, matmul_oh_apply, matmul_oh_apply]
  simp only [truncf_apply, subf_apply]
  rw [sum_mul_sub_self _ (fun r => h (ix2 r j)) (fun r => hh _), add_zero]
  exact congrArg (y (ix3 0 i j) + ·) (Finset.sum_congr rfl fun r _ =>
    congrArg (· * h (ix2 r j)) (onehot_apply x1 _ _ _ _ i r))

/-! ## The constants, and the hinge as a real number -/

/-- The floor under a length is a positive real number. -/
theorem eps_eq : ∃ r : ℝ, 0 < r ∧ eps = (r : EReal) := by
  unfold eps Ideal.ofBits Ideal.ieee
  simp
  exact ⟨_, by positivity, (EReal.coe_mul _ _).symm⟩

/-- The margin is a real number. -/
theorem margin_eq : ∃ m : ℝ, margin = (m : EReal) := by
  unfold margin Ideal.ofBits Ideal.ieee
  simp
  exact ⟨_, (EReal.coe_mul _ _).symm⟩

/-- The root of a quantity floored at zero is never the bottom: the floored quantity is a nonnegative real or the top. -/
theorem sqrt_max_zero_ne_bot (z : EReal) : Ideal.sqrt (max 0 z) ≠ ⊥ := by
  have h0 : (0 : EReal) ≤ max 0 z := le_max_left _ _
  generalize max 0 z = w at h0
  induction w using EReal.rec with
  | bot => exact absurd h0 (by simp)
  | top => rw [Ideal.sqrt_top]; simp
  | coe r =>
    rw [Ideal.sqrt_coe, if_neg (not_lt.mpr (EReal.coe_nonneg.mp h0))]
    exact EReal.coe_ne_bot _

/-- The margin less such a root, floored at zero, is a real number: it is at least zero, and it is the top only if
    the difference is, which for a real margin needs the root to be the bottom. -/
theorem hinge_core_isReal (z : EReal) : IsReal (max (margin - Ideal.sqrt (max 0 z)) 0) := by
  obtain ⟨m, hm⟩ := margin_eq
  have hs := sqrt_max_zero_ne_bot z
  refine ⟨fun h => ?_, ne_of_gt (lt_of_lt_of_le EReal.bot_lt_zero (le_max_right _ _))⟩
  have ht : margin - Ideal.sqrt (max 0 z) = ⊤ := by
    rcases max_choice (margin - Ideal.sqrt (max 0 z)) 0 with h' | h'
    · rw [h'] at h; exact h
    · rw [h'] at h; exact absurd h EReal.zero_ne_top
  rw [hm] at ht
  generalize Ideal.sqrt (max 0 z) = s at hs ht
  induction s using EReal.rec with
  | bot => exact hs rfl
  | top => simp at ht
  | coe r => rw [← EReal.coe_sub] at ht; exact EReal.coe_ne_top _ ht

/-- a hinge is always a real number: it lies between zero and the margin -/
theorem hinge_isReal {n : ℕ} (u cn : Fin n → EReal) (b2 : EReal) : IsReal (hinge u cn b2) :=
  hinge_core_isReal _

/-! ## A row of real numbers scaled to unit length is a row of real numbers -/

/-- A finite sum of real numbers, each written as an extended real, is their real sum. -/
theorem coe_finset_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The length of a row of real numbers is a positive real number: the root of a nonnegative real sum, floored at a
    positive real. -/
theorem len_eq {n : ℕ} (e : Fin n → EReal) (he : ∀ k, IsReal (e k)) : ∃ L : ℝ, 0 < L ∧ len e = (L : EReal) := by
  obtain ⟨ε, hε, hε'⟩ := eps_eq
  have hf : ∀ k, ((e k).toReal : EReal) = e k := fun k => EReal.coe_toReal (he k).1 (he k).2
  have hs : ∑ k, e k * e k = ((∑ k, (e k).toReal * (e k).toReal : ℝ) : EReal) := by
    rw [← coe_finset_sum]
    exact Finset.sum_congr rfl fun k _ => by rw [EReal.coe_mul, hf k]
  refine ⟨max (Real.sqrt (∑ k, (e k).toReal * (e k).toReal)) ε, lt_max_of_lt_right hε, ?_⟩
  unfold len
  rw [hs, Ideal.sqrt_coe, if_neg (not_lt.mpr (Finset.sum_nonneg fun k _ => mul_self_nonneg _)), hε']
  exact (EReal.coe_strictMono.monotone.map_max).symm

/-- So each entry of the row scaled to unit length is a real number: a real divided by a nonzero real. -/
theorem unit_isReal {n : ℕ} (e : Fin n → EReal) (he : ∀ k, IsReal (e k)) (k : Fin n) : IsReal (unit e k) := by
  obtain ⟨L, hL, hL'⟩ := len_eq e he
  unfold unit
  rw [hL', Ideal.div_coe hL.ne', ← EReal.coe_toReal (he k).1 (he k).2, ← EReal.coe_mul]
  exact isReal_coe _

/-- A sum of products whose first factors are each a real number less itself is zero. -/
theorem sum_sub_self_mul {n : ℕ} (a b : Fin n → EReal) (ha : ∀ r, IsReal (a r)) : ∑ r, (a r - a r) * b r = 0 :=
  Finset.sum_eq_zero fun r _ => by rw [sub_self_of_isReal (ha r), zero_mul]

/-! ## The hinge block: layout and reduction steps read at an index -/

/-- A vector cast to a column reads, at (i, 0), its entry i. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast over many columns reads, at (p, c), the column's entry p. -/
theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A root at an index is the root of the entry. -/
theorem sqrt_apply {s : Shape} {φ : FTy} (a : FVec Ideal s φ) (i : s.Idx) : sqrt a i = Ideal.sqrt (a i) := rfl

/-- The sum along a row: at r, the sum over the 2048 columns of the block's entries (r, k). -/
theorem rowsum_apply (v : FVec Ideal S1024x2048 .f32) (h : S1024x2048.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ k : Fin 2048, v (ix2 r k) := by
  refine (Ideal.multiReduction_add_single v _ h hφ hacc (ix1 r)).trans ?_
  refine Finset.sum_congr rfl fun k _ => congrArg v ?_
  funext a
  apply Fin.ext
  match a with
  | ⟨0, _⟩ => rfl
  | ⟨1, _⟩ => rfl

/-! ## The cross product: a contraction of axis 1 of both operands -/

theorem lhs_x_0 (i : S1024x250.Idx) (q : dot_S1024x2048_S250x2048_S1024x250_1_1_0_0_n_n.contr.Idx) :
    (dot_S1024x2048_S250x2048_S1024x250_1_1_0_0_n_n.lhsIdx i q 0).val = (i 0).val := by
  unfold DotDims.lhsIdx
  rw [dif_neg (show ¬(0 : Fin S1024x2048.rank) ∈ dot_S1024x2048_S250x2048_S1024x250_1_1_0_0_n_n.lhsBatch by decide),
    dif_pos (show (0 : Fin S1024x2048.rank) ∈ dot_S1024x2048_S250x2048_S1024x250_1_1_0_0_n_n.lhsNonContracting by decide)]
  rfl
theorem lhs_x_1 (i : S1024x250.Idx) (q : dot_S1024x2048_S250x2048_S1024x250_1_1_0_0_n_n.contr.Idx) :
    (dot_S1024x2048_S250x2048_S1024x250_1_1_0_0_n_n.lhsIdx i q 1).val = (q ⟨0, by decide⟩).val :=
  dot_S1024x2048_S250x2048_S1024x250_1_1_0_0_n_n.lhsIdx_val_of_single rfl i q
theorem rhs_x_0 (i : S1024x250.Idx) (q : dot_S1024x2048_S250x2048_S1024x250_1_1_0_0_n_n.contr.Idx) :
    (dot_S1024x2048_S250x2048_S1024x250_1_1_0_0_n_n.rhsIdx i q 0).val = (i 1).val := by
  unfold DotDims.rhsIdx
  rw [dif_neg (show ¬(0 : Fin S250x2048.rank) ∈ dot_S1024x2048_S250x2048_S1024x250_1_1_0_0_n_n.rhsBatch by decide),
    dif_pos (show (0 : Fin S250x2048.rank) ∈ dot_S1024x2048_S250x2048_S1024x250_1_1_0_0_n_n.rhsNonContracting by decide)]
  rfl
theorem rhs_x_1 (i : S1024x250.Idx) (q : dot_S1024x2048_S250x2048_S1024x250_1_1_0_0_n_n.contr.Idx) :
    (dot_S1024x2048_S250x2048_S1024x250_1_1_0_0_n_n.rhsIdx i q 1).val = (q ⟨0, by decide⟩).val :=
  dot_S1024x2048_S250x2048_S1024x250_1_1_0_0_n_n.rhsIdx_val_of_single rfl i q

/-- The product into a zero accumulator at (r, j): the sum over the 2048 features of left (r, k) times right (j, k). -/
theorem matmul_x_apply (A : FVec Ideal S1024x2048 .bf16) (B : FVec Ideal S250x2048 .bf16) (r : Fin 1024) (j : Fin 250) :
    matmul dot_S1024x2048_S250x2048_S1024x250_1_1_0_0_n_n none A B (constant S1024x250 .f32 0x00000000#32) (ix2 r j)
      = ∑ k : Fin 2048, A (ix2 r k) * B (ix2 j k) := by
  simp only [matmul]
  rw [Ideal.matmul_constant_zero_apply,
    ← Equiv.sum_comp (contrEquiv1 dot_S1024x2048_S250x2048_S1024x250_1_1_0_0_n_n 2048 rfl rfl).symm]
  refine Finset.sum_congr rfl fun k _ => ?_
  have hk := contrEquiv1_symm_val dot_S1024x2048_S250x2048_S1024x250_1_1_0_0_n_n 2048 rfl rfl k
  have el : dot_S1024x2048_S250x2048_S1024x250_1_1_0_0_n_n.lhsIdx (ix2 r j)
      ((contrEquiv1 dot_S1024x2048_S250x2048_S1024x250_1_1_0_0_n_n 2048 rfl rfl).symm k) = ix2 r k :=
    funext fun a => Fin.ext (by
      match a with
      | ⟨0, _⟩ => exact lhs_x_0 _ _
      | ⟨1, _⟩ => exact (lhs_x_1 _ _).trans hk)
  have er : dot_S1024x2048_S250x2048_S1024x250_1_1_0_0_n_n.rhsIdx (ix2 r j)
      ((contrEquiv1 dot_S1024x2048_S250x2048_S1024x250_1_1_0_0_n_n 2048 rfl rfl).symm k) = ix2 j k :=
    funext fun a => Fin.ext (by
      match a with
      | ⟨0, _⟩ => exact rhs_x_0 _ _
      | ⟨1, _⟩ => exact (rhs_x_1 _ _).trans hk)
  rw [el, er]

/-! ## The hinge block from the unit rows -/

/-- The floored length of row r: the column of floored roots of row sums of squares, at (r, 0). -/
theorem len_apply (x0 : Vec Ideal S1024x2048 .f32) (hred : S1024x2048.Reduces [1] S1024) (hφ : FKind.Formats .f32)
    (hacc : (0x00000000#32 : BitVec 32) = FKind.add.neutral .f32 hφ) (hsc : S1024.ShapeCasts S1024x1) (r : Fin 1024) :
    (maximumf (sqrt (shapeCast S1024x1 (multiReduction .add [1] S1024 (mulf x0 x0) 0x00000000#32 hred hφ hacc) hsc))
      (broadcast S1024x1 (Scalar.ofBits .f32 0x2B8CBCCC#32)) : FVec Ideal S1024x1 .f32) (ix2 r (0 : Fin 1))
      = len (fun k : Fin 2048 => x0 (ix2 r k)) := by
  rw [maximumf_apply, sqrt_apply, shapeCast_a_a1_apply, rowsum_apply]
  rfl

/-- The block of rows scaled to unit length, at (r, k): entry k of row r scaled to unit length. -/
theorem unit_apply (x0 : Vec Ideal S1024x2048 .f32) (V : FVec Ideal S1024x1 .f32) (hb : S1024x1.Broadcasts S1024x2048)
    (r : Fin 1024) (hV : V (ix2 r (0 : Fin 1)) = len (fun k : Fin 2048 => x0 (ix2 r k))) (k : Fin 2048) :
    (divf x0 (broadcastTo S1024x2048 V hb) : FVec Ideal S1024x2048 .f32) (ix2 r k)
      = unit (fun k : Fin 2048 => x0 (ix2 r k)) k := by
  rw [divf_apply, broadcastTo_a1_ab_apply, hV]
  rfl

/-- From a block U whose row r is the real row u: the hinge block at (r, j) is the hinge of u against centroid row j.
    The squared length is the row sum of squares; the cross term is the product with the centroid rows, and the second
    product, of U less itself, vanishes because u is real. -/
theorem hinge_of_unit (U : FVec Ideal S1024x2048 .f32) (x2 : Vec Ideal S250x2048 .f32) (x3 : Vec Ideal S1x250 .f32)
    (hred : S1024x2048.Reduces [1] S1024) (hφ : FKind.Formats .f32)
    (hacc : (0x00000000#32 : BitVec 32) = FKind.add.neutral .f32 hφ) (hsc : S1024.ShapeCasts S1024x1)
    (hb1 : S1024x1.Broadcasts S1024x250) (hb2 : S1x250.Broadcasts S1024x250) (hs2 : S250x2048.ShapeCasts S250x2048)
    (hs3 : S1x250.ShapeCasts S1x250) (hbits : FTy.bf16.bits < FTy.f32.bits) (r : Fin 1024) (j : Fin 250)
    (u : Fin 2048 → EReal) (hU : ∀ k, U (ix2 r k) = u k) (hu : ∀ k, IsReal (u k)) :
    (maximumf
      (subf (broadcast S1024x250 (Scalar.ofBits .f32 0x3F99999A#32))
        (sqrt (maximumf (broadcast S1024x250 (Scalar.ofBits .f32 0x00000000#32))
          (subf
            (addf
              (broadcastTo S1024x250
                (shapeCast S1024x1 (multiReduction .add [1] S1024 (mulf U U) 0x00000000#32 hred hφ hacc) hsc) hb1)
              (broadcastTo S1024x250 (shapeCast S1x250 x3 hs3) hb2))
            (mulf (broadcast S1024x250 (Scalar.ofBits .f32 0x40000000#32))
              (addf
                (matmul dot_S1024x2048_S250x2048_S1024x250_1_1_0_0_n_n none (truncf .bf16 U hbits)
                  (truncf .bf16 (shapeCast S250x2048 x2 hs2) hbits) (constant S1024x250 .f32 0x00000000#32))
                (matmul dot_S1024x2048_S250x2048_S1024x250_1_1_0_0_n_n none (truncf .bf16 (subf U U) hbits)
                  (truncf .bf16 (shapeCast S250x2048 x2 hs2) hbits) (constant S1024x250 .f32 0x00000000#32))))))))
      (broadcast S1024x250 (Scalar.ofBits .f32 0x00000000#32)) : FVec Ideal S1024x250 .f32) (ix2 r j)
      = hinge u (fun k : Fin 2048 => x2 (ix2 j k)) (x3 (ix2 0 j)) := by
  rw [maximumf_apply, subf_apply, sqrt_apply, maximumf_apply, subf_apply, addf_apply, mulf_apply, addf_apply,
    matmul_x_apply, matmul_x_apply, broadcastTo_a1_ab_apply, shapeCast_a_a1_apply, rowsum_apply,
    broadcastTo_1b_ab_apply]
  simp only [broadcast_apply, truncf_apply, subf_apply, mulf_apply, shapeCast_self, hU]
  rw [sum_sub_self_mul u _ hu, add_zero]
  show max (margin - Ideal.sqrt (max (Ideal.ofBits .f32 0x00000000#32) _)) (Ideal.ofBits .f32 0x00000000#32) = _
  rw [Ideal.ofBits_zero_f32]
  rfl

/-- the hinge block at (r, j): the hinge of row r, scaled to unit length, against centroid row j -/
theorem pay3_apply (x0 : Vec Ideal S1024x2048 .f32) (x2 : Vec Ideal S250x2048 .f32) (x3 : Vec Ideal S1x250 .f32)
    (hx0 : ∀ i, IsReal (x0 i)) (r : Fin 1024) (j : Fin 250) :
    k1_pay3 (F := Ideal) x0 x2 x3 (ix2 r j)
      = hinge (unit (fun k : Fin 2048 => x0 (ix2 r k))) (fun k : Fin 2048 => x2 (ix2 j k)) (x3 (ix2 0 j)) := by
  unfold k1_pay3
  exact hinge_of_unit _ x2 x3 _ _ _ _ _ _ _ _ _ r j _
    (fun k => unit_apply x0 _ _ r (len_apply x0 _ _ _ _ r) k)
    (fun k => unit_isReal _ (fun k => hx0 _) k)

end Cert.KernelIdeal.R1Math

end
-- ==== Proof.R1Sum.lean ====
/-
  Region 1's result array as sums over the whole batch, at the ideal instance. The output has one block per half of
  the batch; the block of half p is what the eight tiles 8p, …, 8p+7 of that half add up, from zero: entry (i, j)
  gains, from a tile, the sum over the tile's rows r of oh(label r, i) · hinge[r, j], the hinge block being the
  tile's embedding rows, scaled to unit length, against the unit centroids. Row r of tile n is row 1024 n + r of the
  batch, so the two halves' blocks together add up to the sum over all 16384 rows.
-/
import proofs.«429416_j283467841734_3_alg».proof.Proof.R1Fold
import proofs.«429416_j283467841734_3_alg».proof.Proof.R1Math
import proofs.«429416_j283467841734_3_alg».proof.Proof.SumBlocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.R1Sum

open Cert.KernelIdeal Cert.KernelIdeal.Gen Cert.Spec Cert.KernelIdeal.R1 Cert.KernelIdeal.R1Math

/-! ## Running totals restarted at every eighth index -/

/-- The running total of a sequence, restarted from zero at every index divisible by eight. -/
def tot (s : ℕ → EReal) : ℕ → EReal
  | 0 => 0 + s 0
  | n + 1 => (if (n + 1) % 8 = 0 then 0 else tot s n) + s (n + 1)

theorem tot_succ (s : ℕ → EReal) (n : ℕ) :
    tot s (n + 1) = (if (n + 1) % 8 = 0 then 0 else tot s n) + s (n + 1) := rfl

/-- At an index divisible by eight the total is the index's own term. -/
theorem tot_restart (s : ℕ → EReal) (n : ℕ) (h : n % 8 = 0) : tot s n = s n := by
  cases n with
  | zero => exact zero_add _
  | succ n => rw [tot_succ, if_pos h, zero_add]

/-- At any other index the total gains the index's term. -/
theorem tot_cont (s : ℕ → EReal) (n : ℕ) (h : ¬(n + 1) % 8 = 0) : tot s (n + 1) = tot s n + s (n + 1) := by
  rw [tot_succ, if_neg h]

/-- Inside the block of eight that starts at 8p, the total at place q is the sum of the block's terms up to q. -/
theorem tot_block (s : ℕ → EReal) (p : ℕ) :
    ∀ q : ℕ, q < 8 → tot s (8 * p + q) = ∑ q' ∈ Finset.range (q + 1), s (8 * p + q')
  | 0, _ => by
    rw [Finset.sum_range_succ, Finset.sum_range_zero, zero_add]
    exact tot_restart s _ (by omega)
  | q + 1, hq => by
    rw [Finset.sum_range_succ, ← tot_block s p q (by omega)]
    exact tot_cont s (8 * p + q) (by omega)

variable (V : (c : Dev nD) → (b : Ref sig .tc) → Buf (Elt Ideal) ((c : Thread nD τ).loc b))

/-- The four input blocks of tile t, at their literal types. -/
abbrev eb (c : Dev nD) (t : Fin cfg1.N) : Vec Ideal S1024x2048 .f32 := iblk1 V c 0 t
abbrev lb (c : Dev nD) (t : Fin cfg1.N) : Vec Ideal S1x1024 .i32 := iblk1 V c 1 t
abbrev cb (c : Dev nD) (t : Fin cfg1.N) : Vec Ideal S250x2048 .f32 := iblk1 V c 2 t
abbrev bb (c : Dev nD) (t : Fin cfg1.N) : Vec Ideal S1x250 .f32 := iblk1 V c 3 t

/-- The four whole input arrays, at their literal types: embeddings, labels row, unit centroids, their squared lengths. -/
abbrev ea (c : Dev nD) : Vec Ideal S16384x2048 .f32 := V c (Pipeline.arrRef spec1 0)
abbrev la (c : Dev nD) : Vec Ideal S1x16384 .i32 := V c (Pipeline.arrRef spec1 1)
abbrev ca (c : Dev nD) : Vec Ideal S250x2048 .f32 := V c (Pipeline.arrRef spec1 2)
abbrev ba (c : Dev nD) : Vec Ideal S1x250 .f32 := V c (Pipeline.arrRef spec1 3)

/-- The grid has sixteen tiles. -/
theorem hN : cfg1.N = 16 := N_1

/-- the arrays read at a row NUMBER (zero past the last row), so that sums carry no dependent bound -/
def labN (c : Dev nD) (n : ℕ) : BitVec 32 := if h : n < 16384 then la V c (ix2 0 ⟨n, h⟩) else 0
def embN (c : Dev nD) (n : ℕ) (k : Fin 2048) : EReal := if h : n < 16384 then ea V c (ix2 ⟨n, h⟩ k) else 0

/-- The hinge block of tile t. -/
abbrev hb (c : Dev nD) (t : Fin cfg1.N) : Vec Ideal S1024x250 .f32 :=
  k1_pay3 (F := Ideal) (eb V c t) (cb V c t) (bb V c t)

/-- What tile number n adds at (i, j) (zero past the last tile). -/
def s (c : Dev nD) (i j : Fin 250) (n : ℕ) : EReal :=
  if h : n < cfg1.N then ∑ r : Fin 1024, oh (lb V c ⟨n, h⟩ (ix2 0 r)) i.val * hb V c ⟨n, h⟩ (ix2 r j) else 0

/-- Row r of tile t is inside the batch. -/
theorem row_lt (t : Fin cfg1.N) (r : Fin 1024) : 1024 * t.val + r.val < 16384 := by
  have ht : t.val < 16 := hN ▸ t.isLt
  have hr : r.val < 1024 := r.isLt
  omega

/-- A block of a real array is real. -/
theorem eb_real (c : Dev nD) (he : ∀ i, IsReal (ea V c i)) (t : Fin cfg1.N) : ∀ i, IsReal (eb V c t i) := fun i => by
  rw [eq_ix2 i]
  refine (congrArg IsReal (blk0_apply V c t (i 0) (i 1) (row_lt t (i 0)))).mpr ?_
  exact he _

/-- Every hinge is a real number. -/
theorem hb_real (c : Dev nD) (he : ∀ i, IsReal (ea V c i)) (t : Fin cfg1.N) : ∀ i, IsReal (hb V c t i) := fun i => by
  rw [eq_ix2 i]
  refine (congrArg IsReal (pay3_apply (eb V c t) (cb V c t) (bb V c t) (eb_real V c he t) (i 0) (i 1))).mpr ?_
  exact hinge_isReal _ _ _

/-- One tile's update at (i, j): the old entry plus the tile's contribution. -/
theorem step (c : Dev nD) (he : ∀ i, IsReal (ea V c i)) (t : Fin cfg1.N) (y : Vec Ideal S1x250x250 .f32)
    (i j : Fin 250) :
    upd (eb V c t) (lb V c t) (cb V c t) (bb V c t) y (ix3 0 i j) = y (ix3 0 i j) + s V c i j t.val := by
  refine (pay1_apply (hb V c t) (lb V c t) y (hb_real V c he t) i j).trans ?_
  unfold s
  rw [dif_pos t.isLt]

/-- The accumulator after tile n, at (i, j), is the restarted running total of the tiles' contributions. -/
theorem acc_tot (c : Dev nD) (he : ∀ i, IsReal (ea V c i)) (i j : Fin 250) :
    ∀ (n : ℕ) (h : n < cfg1.N), acc V c n h (ix3 0 i j) = tot (s V c i j) n
  | 0, h => by
    show upd (eb V c ⟨0, h⟩) (lb V c ⟨0, h⟩) (cb V c ⟨0, h⟩) (bb V c ⟨0, h⟩) (k1_pay2 (F := Ideal)) (ix3 0 i j)
      = 0 + s V c i j 0
    refine (step V c he ⟨0, h⟩ _ i j).trans ?_
    rw [pay2_apply]
  | n + 1, h => by
    show upd (eb V c ⟨n + 1, h⟩) (lb V c ⟨n + 1, h⟩) (cb V c ⟨n + 1, h⟩) (bb V c ⟨n + 1, h⟩)
        (if (n + 1) % 8 = 0 then (k1_pay2 (F := Ideal)) else acc V c n (Nat.lt_of_succ_lt h)) (ix3 0 i j)
      = (if (n + 1) % 8 = 0 then 0 else tot (s V c i j) n) + s V c i j (n + 1)
    refine (step V c he ⟨n + 1, h⟩ _ i j).trans ?_
    by_cases h0 : (n + 1) % 8 = 0
    · rw [if_pos h0, if_pos h0, pay2_apply]
    · rw [if_neg h0, if_neg h0, acc_tot c he i j n (Nat.lt_of_succ_lt h)]

/-- The result array at an element: the eight tiles of the element's half. -/
theorem B4_apply (c : Dev nD) (he : ∀ i, IsReal (ea V c i)) (p : Fin 2) (i j : Fin 250) :
    @Eq EReal ((dat1 V c).arrAt 4 cfg1.N (ix3 p i j)) (∑ q ∈ Finset.range 8, s V c i j (8 * p.val + q)) := by
  rw [arr4 V c p (half_lt p) i j, acc_tot V c he i j, tot_block _ p.val 7 (by omega)]

/-- A row's term of the whole sum, by the row's number. -/
def term (c : Dev nD) (i j : Fin 250) (b : ℕ) : EReal :=
  oh (labN V c b) i.val * hinge (unit (embN V c b)) (fun k : Fin 2048 => ca V c (ix2 j k)) (ba V c (ix2 0 j))

/-- Tile n's contribution is the sum of the terms of its 1024 rows, the rows 1024 n, …, 1024 n + 1023 of the batch. -/
theorem s_eq (c : Dev nD) (he : ∀ i, IsReal (ea V c i)) (i j : Fin 250) (n : ℕ) (hn : n < 16) :
    s V c i j n = ∑ r : Fin 1024, term V c i j (1024 * n + r.val) := by
  have h : n < cfg1.N := hN ▸ hn
  unfold s
  rw [dif_pos h]
  refine Finset.sum_congr rfl fun r _ => ?_
  have hr : 1024 * n + r.val < 16384 := row_lt ⟨n, h⟩ r
  unfold term
  have e1 : lb V c ⟨n, h⟩ (ix2 0 r) = labN V c (1024 * n + r.val) := by
    unfold labN
    rw [dif_pos hr]
    exact blk1_apply V c ⟨n, h⟩ r hr
  have e2 : (fun k : Fin 2048 => eb V c ⟨n, h⟩ (ix2 r k)) = embN V c (1024 * n + r.val) := by
    funext k
    unfold embN
    rw [dif_pos hr]
    exact blk0_apply V c ⟨n, h⟩ r k hr
  have e3 : hb V c ⟨n, h⟩ (ix2 r j)
      = hinge (unit (embN V c (1024 * n + r.val))) (fun k : Fin 2048 => ca V c (ix2 j k)) (ba V c (ix2 0 j)) := by
    refine (pay3_apply (eb V c ⟨n, h⟩) (cb V c ⟨n, h⟩) (bb V c ⟨n, h⟩) (eb_real V c he ⟨n, h⟩) r j).trans ?_
    rw [e2, show cb V c ⟨n, h⟩ = ca V c from blk2_eq V c ⟨n, h⟩, show bb V c ⟨n, h⟩ = ba V c from blk3_eq V c ⟨n, h⟩]
  rw [e1, e3]

/-- the two halves' blocks added: the per-class sums of the hinge rows -/
theorem pairs_total (c : Dev nD) (he : ∀ i, IsReal (ea V c i)) (i j : Fin 250) :
    Finset.sum (M := EReal) Finset.univ (fun p : Fin 2 => (dat1 V c).arrAt 4 cfg1.N (ix3 p i j))
      = ∑ b : Fin 16384, oh (labN V c b.val) i.val * hinge (unit (embN V c b.val)) (fun k : Fin 2048 => ca V c (ix2 j k)) (ba V c (ix2 0 j)) := by
  have e : ∀ p : Fin 2, @Eq EReal ((dat1 V c).arrAt 4 cfg1.N (ix3 p i j))
      (∑ q : Fin 8, ∑ r : Fin 1024, term V c i j (1024 * (8 * p.val + q.val) + r.val)) := fun p =>
    (B4_apply V c he p i j).trans ((Cert.SumBlocks.sum_range_fin 8 _).trans
      (Finset.sum_congr rfl fun q _ =>
        s_eq V c he i j _ (by have hp : p.val < 2 := p.isLt; have hq : q.val < 8 := q.isLt; omega)))
  refine (Finset.sum_congr rfl fun p _ => e p).trans ?_
  exact (Cert.SumBlocks.sum_blocks2 2 8 1024 (term V c i j)).symm

end Cert.KernelIdeal.R1Sum

end
-- ==== Proof.RefHinge.lean ====
/-
  The reference's hinge array read at an index, at the ideal instance.

  Each row of the embeddings is scaled to unit length (the row divided by its length floored at `eps`); the
  squared distance of a sample's unit row `u` to a class's unit centroid row `c` is expanded as
  `|u|² + |c|² − 2·⟨u, c⟩`, floored at zero, and rooted; the hinge is the margin less that distance, floored at zero.
  Read element by element this is `Cert.Spec.hinge` of the sample's unit row against the centroid row. The unit
  centroids are carried as one opaque array: nothing here depends on how they were computed.
-/
import proofs.«429416_j283467841734_3_alg».proof.Proof.RefRead
import proofs.«429416_j283467841734_3_alg».proof.Proof.Spec
import Idealize.ShloMosaic.PureOps.Ideal.Laws
import Idealize.ShloMosaic.Lib.ValueIdx
import Idealize.ShloMosaic.Lib.Pipeline.Value
import Idealize.ShloMosaic.Lib.StableHlo.Predicate
import Idealize.ShloMosaic.Lib.ReduceAll

noncomputable section

namespace Cert.ReferenceIdeal.RefHinge

open Idealize.ShloMosaic Idealize.ShloMosaic.ValueIdx Cert.ReferenceIdeal Cert.ReferenceIdeal.Gen Cert.ReferenceIdeal.ReadP Cert.Spec

/-- The embeddings' row `b`, scaled to unit length, at column `k`. -/
theorem unitRow_apply (E : (⟨S16384x2048, .f32⟩ : BufTy).Contents (Elt Ideal)) (b : Fin 16384) (k : Fin 2048) :
    val_main_v72 (F := Ideal) E (ix2 b k) = unit (fun k : Fin 2048 => E (ix2 b k)) k := by
  rw [val_main_v72_apply, val_main_v71_apply, val_main_v70_apply, val_main_v68_apply, val_main_v67_apply,
    val_main_v66_apply, val_main_v69_apply, val_main_cst_22_apply, val_main_cst_21_apply]
  have e : ∀ k' : Fin 2048, idx_main_v66 (idx_main_v67 (idx_main_v71 (ix2 b k))) k' = ix2 b k' := fun k' =>
    funext fun a => Fin.ext (by match a with | ⟨0, _⟩ => rfl | ⟨1, _⟩ => rfl)
  unfold unit len eps
  simp only [e, val_main_v65_apply, Ideal.hostDivf_def, Ideal.maximumf_def, Ideal.hostUnary_sqrt_def, Ideal.ofBits_def,
    Ideal.ofBits_zero_f32, zero_add, Ideal.mulf_def]

/-- The squared length of the unit row of sample `b`. -/
theorem a2_apply (E : (⟨S16384x2048, .f32⟩ : BufTy).Contents (Elt Ideal)) (b : Fin 16384) :
    val_main_v82 (F := Ideal) E (ix1 b) = Cert.Spec.sq (unit (fun k : Fin 2048 => E (ix2 b k))) := by
  rw [val_main_v82_apply, val_main_cst_25_apply]
  have e : ∀ k : Fin 2048, idx_main_v82 (ix1 b) k = ix2 b k := fun k =>
    funext fun a => Fin.ext (by match a with | ⟨0, _⟩ => rfl | ⟨1, _⟩ => rfl)
  unfold Cert.Spec.sq
  simp only [e, val_main_v81_apply, unitRow_apply, Ideal.ofBits_def, Ideal.ofBits_zero_f32, zero_add, Ideal.mulf_def]

/-- The squared length of the unit centroid row of class `j`. -/
theorem b2_row_apply (L : (⟨S16384, .i32⟩ : BufTy).Contents (Elt Ideal)) (E : (⟨S16384x2048, .f32⟩ : BufTy).Contents (Elt Ideal)) (j : Fin 250) :
    val_main_v84 (F := Ideal) L E (ix1 j) = Cert.Spec.sq (fun k : Fin 2048 => val_main_v80 (F := Ideal) L E (ix2 j k)) := by
  rw [val_main_v84_apply, val_main_cst_26_apply]
  have e : ∀ k : Fin 2048, idx_main_v84 (ix1 j) k = ix2 j k := fun k =>
    funext fun a => Fin.ext (by match a with | ⟨0, _⟩ => rfl | ⟨1, _⟩ => rfl)
  unfold Cert.Spec.sq
  simp only [e, val_main_v83_apply, Ideal.ofBits_def, Ideal.ofBits_zero_f32, zero_add, Ideal.mulf_def]

/-- the squared lengths of the unit centroid rows, as the reference lays them out in a row -/
theorem b2_apply (L : (⟨S16384, .i32⟩ : BufTy).Contents (Elt Ideal)) (E : (⟨S16384x2048, .f32⟩ : BufTy).Contents (Elt Ideal)) (j : Fin 250) :
    val_main_v86 (F := Ideal) L E (ix2 0 j) = Cert.Spec.sq (fun k : Fin 2048 => val_main_v80 (F := Ideal) L E (ix2 j k)) := by
  have e : idx_main_v86 (ix2 0 j) = ix1 j :=
    funext fun a => Fin.ext (by match a with | ⟨0, _⟩ => rfl)
  rw [val_main_v86_apply, e]
  exact b2_row_apply L E j

/-- The inner product of the unit row of sample `b` with the unit centroid row of class `j`. -/
theorem cross_apply (L : (⟨S16384, .i32⟩ : BufTy).Contents (Elt Ideal)) (E : (⟨S16384x2048, .f32⟩ : BufTy).Contents (Elt Ideal)) (b : Fin 16384) (j : Fin 250) :
    val_main_v91 (F := Ideal) L E (ix2 b j)
      = ∑ k : Fin 2048, unit (fun k : Fin 2048 => E (ix2 b k)) k * val_main_v80 (F := Ideal) L E (ix2 j k) := by
  rw [val_main_v91_apply]
  refine Finset.sum_congr rfl fun k _ => ?_
  have el : lidx_main_v91 (ix2 b j) k = ix2 b k :=
    funext fun a => Fin.ext (by match a with | ⟨0, _⟩ => rfl | ⟨1, _⟩ => rfl)
  have er : idx_main_v90 (ridx_main_v91 (ix2 b j) k) = ix2 j k :=
    funext fun a => Fin.ext (by match a with | ⟨0, _⟩ => rfl | ⟨1, _⟩ => rfl)
  rw [val_main_v90_apply, el, er, unitRow_apply]

/-- the hinge of sample b against class j: the hinge of the sample's unit row against the class's unit centroid row, whose squared length is the sum of that row's squares -/
theorem hinge_apply (L : (⟨S16384, .i32⟩ : BufTy).Contents (Elt Ideal)) (E : (⟨S16384x2048, .f32⟩ : BufTy).Contents (Elt Ideal)) (b : Fin 16384) (j : Fin 250) :
    val_main_v99 (F := Ideal) L E (ix2 b j)
      = hinge (unit (fun k : Fin 2048 => E (ix2 b k))) (fun k : Fin 2048 => val_main_v80 (F := Ideal) L E (ix2 j k)) (Cert.Spec.sq (fun k : Fin 2048 => val_main_v80 (F := Ideal) L E (ix2 j k))) := by
  have e1 : idx_main_v85 (idx_main_v87 (ix2 b j)) = ix1 b :=
    funext fun a => Fin.ext (by match a with | ⟨0, _⟩ => rfl)
  have e2 : idx_main_v88 (ix2 b j) = ix2 0 j :=
    funext fun a => Fin.ext (by match a with | ⟨0, _⟩ => rfl | ⟨1, _⟩ => rfl)
  rw [val_main_v99_apply, val_main_v98_apply, val_main_v97_apply, val_main_cst_29_apply, val_main_v96_apply,
    val_main_v95_apply, val_main_call7_v1_apply, val_main_call7_v0_apply, val_main_cst_28_apply, val_main_v94_apply,
    val_main_v89_apply, val_main_v87_apply, val_main_v85_apply, val_main_v88_apply, val_main_v93_apply,
    val_main_v92_apply, val_main_cst_27_apply, val_main_call8_v0_apply, val_main_call8_cst_apply,
    e1, e2, a2_apply, b2_apply, cross_apply]
  unfold hinge margin two
  simp only [Ideal.maximumf_def, Ideal.subf_def, Ideal.addf_def, Ideal.mulf_def, Ideal.hostUnary_sqrt_def,
    Ideal.ofBits_def, Ideal.ofBits_zero_f32]

/-- The unit centroid of class `j`: the centroid row `j` scaled to unit length, at column `k`. -/
theorem unitCentroid_apply (L : (⟨S16384, .i32⟩ : BufTy).Contents (Elt Ideal)) (E : (⟨S16384x2048, .f32⟩ : BufTy).Contents (Elt Ideal)) (j : Fin 250) (k : Fin 2048) :
    val_main_v80 (F := Ideal) L E (ix2 j k) = unit (fun k' : Fin 2048 => val_main_v22 (F := Ideal) L E (ix2 j k')) k := by
  rw [val_main_v80_apply, val_main_v79_apply, val_main_v78_apply, val_main_v76_apply, val_main_v75_apply,
    val_main_v74_apply, val_main_v77_apply, val_main_cst_24_apply, val_main_cst_23_apply]
  have e : ∀ k' : Fin 2048, idx_main_v74 (idx_main_v75 (idx_main_v79 (ix2 j k))) k' = ix2 j k' := fun k' =>
    funext fun a => Fin.ext (by match a with | ⟨0, _⟩ => rfl | ⟨1, _⟩ => rfl)
  unfold unit len eps
  simp only [e, val_main_v73_apply, Ideal.hostDivf_def, Ideal.maximumf_def, Ideal.hostUnary_sqrt_def, Ideal.ofBits_def,
    Ideal.ofBits_zero_f32, zero_add, Ideal.mulf_def]

end Cert.ReferenceIdeal.RefHinge

end
-- ==== Proof.Bridge1.lean ====
/-
  The kernel's per-class hinge sums are the reference's stage. Entry (i, j) of the kernel's matrix is the two halves'
  blocks added from zero, which is the sum over all 16384 rows b of oh(label b, i) · hinge(unit row b, unit centroid j,
  its squared length). The reference's scatter-add reads, at (i, j), the same sum of its own hinge stage. Row by row
  the terms agree: the second region reads the labels through a recast of the label vector as a row, the embeddings as
  launched, the unit centroids as the reference's stage once the sums and the counts are the reference's, and each
  squared length from a row that is the vector of squared lengths set up as a column and recast.
-/
import proofs.«429416_j283467841734_3_alg».proof.Proof.HostChain
import proofs.«429416_j283467841734_3_alg».proof.Proof.R1Sum
import proofs.«429416_j283467841734_3_alg».proof.Proof.RefSums
import proofs.«429416_j283467841734_3_alg».proof.Proof.RefHinge
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.Bridge1

open Idealize.ShloMosaic Idealize.ShloMosaic.TcCoe Idealize.SL.Sem Idealize.ShloMosaic.StableHlo Idealize.ShloMosaic.ValueIdx

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The labels and the embeddings the program is launched with. -/
abbrev L : (⟨Cert.ReferenceIdeal.S16384, .i32⟩ : BufTy).Contents (Elt Ideal) :=
  m ((c.tc : Thread Cert.KernelIdeal.nD Cert.KernelIdeal.τ).loc Cert.KernelIdeal.main_arg1)
abbrev E : (⟨Cert.ReferenceIdeal.S16384x2048, .f32⟩ : BufTy).Contents (Elt Ideal) :=
  m ((c.tc : Thread Cert.KernelIdeal.nD Cert.KernelIdeal.τ).loc Cert.KernelIdeal.main_arg2)

/-- The sum of the two halves' blocks, from zero, at an entry. -/
theorem halves_apply (y0 : (⟨Cert.KernelIdeal.S2x250x250, .f32⟩ : BufTy).Contents (Elt Ideal)) (i j : Fin 250) :
    Host.reduceAdd (F := Ideal) y0 (constant (F := Ideal) Cert.KernelIdeal.S_ .f32 0x00000000#32)
        Cert.KernelIdeal.Gen.reducesTo_S2x250x250_S250x250_d0 Cert.KernelIdeal.Gen.h_S_ (ix2 i j)
      = ∑ p : Fin 2, y0 (ix3 p i j) := by
  simp only [Host.reduceAdd, Ideal.hostReduceAdd_def]
  rw [Ideal.hostReduceAdd_single Cert.KernelIdeal.Gen.reducesTo_S2x250x250_S250x250_d0 (by decide)]
  have z : (constant (F := Ideal) Cert.KernelIdeal.S_ .f32 0x00000000#32) (Shape.Idx.first Cert.KernelIdeal.Gen.h_S_) = 0 :=
    Ideal.ofBits_zero_f32
  rw [z, zero_add]
  refine Finset.sum_congr rfl fun p _ => ?_
  exact congrArg y0 (funext fun a => Fin.ext (by match a with | ⟨0, _⟩ => rfl | ⟨1, _⟩ => rfl | ⟨2, _⟩ => rfl))

/-- The label of row b, as the second region reads it. -/
theorem lab_read (b : Fin 16384) :
    Cert.KernelIdeal.R1Sum.labN (Cert.KernelIdeal.Gen.V13 m ρ) c b.val = L m c (ix1 b) := by
  have h : Cert.KernelIdeal.Gen.V13 m ρ c Cert.KernelIdeal.main_v0
      = fun i => shapeCast Cert.KernelIdeal.main_v0.ty.shape (L m c) Cert.KernelIdeal.Gen.shapeCasts_S16384_S1x16384 i :=
    (Cert.HostChain.V13_v0 m ρ c).trans (Cert.HostChain.V1_v0 m ρ c)
  unfold Cert.KernelIdeal.R1Sum.labN
  rw [dif_pos b.isLt]
  show Cert.KernelIdeal.Gen.V13 m ρ c Cert.KernelIdeal.main_v0 (ix2 0 ⟨b.val, b.isLt⟩) = _
  rw [h]
  exact shapeCast_a_1a_apply (L m c) Cert.KernelIdeal.Gen.shapeCasts_S16384_S1x16384 0 b

/-- The embedding row b, as the second region reads it. -/
theorem emb_read (b : Fin 16384) :
    Cert.KernelIdeal.R1Sum.embN (Cert.KernelIdeal.Gen.V13 m ρ) c b.val = fun k : Fin 2048 => E m c (ix2 b k) := by
  funext k
  unfold Cert.KernelIdeal.R1Sum.embN
  rw [dif_pos b.isLt]
  show Cert.KernelIdeal.Gen.V13 m ρ c Cert.KernelIdeal.main_arg2 (ix2 ⟨b.val, b.isLt⟩ k) = _
  rw [Cert.HostChain.V13_arg2 m ρ c]

/-- The unit centroids the second region reads are the reference's. -/
theorem cen_read
    (hs : Cert.KernelIdeal.Gen.W13 m ρ c (Proc.devRef .tc Cert.KernelIdeal.main_v4) = Cert.ReferenceIdeal.ReadP.val_main_v11 (F := Ideal) (L m c) (E m c))
    (hc : Cert.KernelIdeal.Gen.W13 m ρ c (Proc.devRef .tc Cert.KernelIdeal.main_v6) = Cert.ReferenceIdeal.ReadP.val_main_v15 (F := Ideal) (L m c)) :
    Cert.KernelIdeal.R1Sum.ca (Cert.KernelIdeal.Gen.V13 m ρ) c = Cert.ReferenceIdeal.ReadP.val_main_v80 (F := Ideal) (L m c) (E m c) :=
  Cert.HostChain.centn_eq m ρ c (L m c) (E m c) hs hc

/-- The squared length of unit centroid j, as the second region reads it from the row. -/
theorem b2_read
    (hs : Cert.KernelIdeal.Gen.W13 m ρ c (Proc.devRef .tc Cert.KernelIdeal.main_v4) = Cert.ReferenceIdeal.ReadP.val_main_v11 (F := Ideal) (L m c) (E m c))
    (hc : Cert.KernelIdeal.Gen.W13 m ρ c (Proc.devRef .tc Cert.KernelIdeal.main_v6) = Cert.ReferenceIdeal.ReadP.val_main_v15 (F := Ideal) (L m c))
    (j : Fin 250) :
    Cert.KernelIdeal.R1Sum.ba (Cert.KernelIdeal.Gen.V13 m ρ) c (ix2 0 j)
      = Cert.Spec.sq (fun k : Fin 2048 => Cert.ReferenceIdeal.ReadP.val_main_v80 (F := Ideal) (L m c) (E m c) (ix2 j k)) := by
  show Cert.KernelIdeal.Gen.W13 m ρ c (Proc.devRef .tc Cert.KernelIdeal.main_v70) (ix2 0 j) = _
  rw [Cert.HostChain.b2row_eq m ρ c, Cert.HostChain.b2vec_eq m ρ c (L m c) (E m c) hs hc]
  refine Eq.trans ?_ (Cert.ReferenceIdeal.RefHinge.b2_row_apply (L m c) (E m c) j)
  generalize Cert.ReferenceIdeal.ReadP.val_main_v84 (F := Ideal) (L m c) (E m c) = y
  show shapeCast Cert.KernelIdeal.S1x250 (broadcastInDim Cert.KernelIdeal.S250x1 ![0] Cert.KernelIdeal.Gen.bcast_S250_S250x1_0 y)
      Cert.KernelIdeal.Gen.shapeCasts_S250x1_S1x250 (ix2 0 j) = y (ix1 j)
  rw [shapeCast_apply _ Cert.KernelIdeal.Gen.shapeCasts_S250x1_S1x250 (ix2 0 j) (ix2 j 0) (by
    rw [Shape.rowMajor_val_two, Shape.rowMajor_val_two]
    show j.val * 1 + 0 = 0 * 250 + j.val
    omega)]
  exact broadcastInDim_apply _ Cert.KernelIdeal.Gen.bcast_S250_S250x1_0 y (ix2 j 0) (ix1 j) (fun a => match a with
    | ⟨0, _⟩ => by show j.val = if (250 : Nat) = 1 then 0 else j.val; rw [if_neg (by decide)])

/-- The kernel's per-class hinge sums are the reference's stage. -/
theorem pairs_eq
    (hE : ∀ i, Cert.Spec.IsReal (m ((c.tc : Thread Cert.KernelIdeal.nD Cert.KernelIdeal.τ).loc Cert.KernelIdeal.main_arg2) i))
    (hs : Cert.KernelIdeal.Gen.W13 m ρ c (Proc.devRef .tc Cert.KernelIdeal.main_v4)
      = Cert.ReferenceIdeal.ReadP.val_main_v11 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)))
    (hc : Cert.KernelIdeal.Gen.W13 m ρ c (Proc.devRef .tc Cert.KernelIdeal.main_v6)
      = Cert.ReferenceIdeal.ReadP.val_main_v15 (F := Ideal)
          (m ((c.tc : Thread Cert.KernelIdeal.nD Cert.KernelIdeal.τ).loc Cert.KernelIdeal.main_arg1))) :
    Cert.KernelIdeal.Gen.W19 m ρ c (Proc.devRef .tc Cert.KernelIdeal.main_v72)
      = Cert.ReferenceIdeal.ReadP.val_main_v102 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  have he : ∀ i, Cert.Spec.IsReal (Cert.KernelIdeal.R1Sum.ea (Cert.KernelIdeal.Gen.V13 m ρ) c i) := fun i => by
    rw [show Cert.KernelIdeal.R1Sum.ea (Cert.KernelIdeal.Gen.V13 m ρ) c = E m c from Cert.HostChain.V13_arg2 m ρ c]
    exact hE i
  refine funext fun idx => ?_
  obtain ⟨i, j, rfl⟩ : ∃ (i j : Fin 250), idx = ix2 i j := ⟨idx 0, idx 1, eq_ix2 idx⟩
  rw [Cert.HostChain.pairsum_read m ρ c, Cert.HostChain.pairs_arr m ρ c]
  refine (halves_apply _ i j).trans ?_
  refine (Cert.KernelIdeal.R1Sum.pairs_total (Cert.KernelIdeal.Gen.V13 m ρ) c he i j).trans ?_
  rw [Cert.ReferenceIdeal.RefSums.pair_apply]
  refine Finset.sum_congr rfl fun b _ => ?_
  rw [Cert.ReferenceIdeal.RefHinge.hinge_apply, lab_read m ρ c b, emb_read m ρ c b, cen_read m ρ c hs hc, b2_read m ρ c hs hc j]

end Cert.Bridge1

end
-- ==== Proof.PreFacts.lean ====
/-
  What the precondition says of the input arrays. The precondition is a conjunction of five "for all entries"
  tests: each entry of the logits, of the embeddings and of the topology matrix has absolute value below +∞,
  and each label word, read signed, is at least 0 and below 250. Over the extended reals |x| < ⊤ says that x is
  neither ⊤ nor ⊥, i.e. a real number; a signed comparison of words is the comparison of their integer values.
-/
import proofs.«429416_j283467841734_3_alg».proof.Pre_finite_inputs
import proofs.«429416_j283467841734_3_alg».proof.Proof.Gen.Pre_finite_inputs
import proofs.«429416_j283467841734_3_alg».proof.Proof.Spec
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx Cert.Pre_finite_inputs Cert.Spec

/-- The rank-0 shape has one index. -/
instance : Subsingleton S_.Idx := ⟨fun a b => funext fun d => d.elim0⟩

/-- The f32 word with all exponent bits set and no fraction bit is +∞. -/
theorem inf_word : Ideal.ofBits .f32 0x7F800000#32 = (⊤ : EReal) := by
  simp [Ideal.ofBits, Ideal.ieee]

/-- An extended real whose absolute value max x (-x) lies below ⊤ is a real number. -/
theorem isReal_of_abs_lt (x : EReal)
    (h : Ideal.cmp .olt (max x (-x)) (Ideal.ofBits .f32 0x7F800000#32) = 1#1) : IsReal x := by
  rw [inf_word] at h
  simp only [Ideal.cmp, StableHlo.Predicate.ofBool_eq_one_iff, decide_eq_true_eq] at h
  have h1 : x < ⊤ := lt_of_le_of_lt (le_max_left _ _) h
  have h2 : -x < ⊤ := lt_of_le_of_lt (le_max_right _ _) h
  refine ⟨ne_of_lt h1, ?_⟩
  rintro rfl
  rw [EReal.neg_bot] at h2
  exact lt_irrefl _ h2

/-- "Every entry has absolute value below +∞", when it holds, makes every entry a real number. -/
theorem real_of_all {S : Shape} {axes : List (Fin S.rank)} (x : FVec Ideal S .f32)
    (hb : S_.BroadcastsInDim S (![] : Fin 0 → Fin S.rank)) (hr : S.ReducesTo axes S_) (hS : 0 < S_.numel)
    (e : Host.reduce IntOp.andi
        (cmpf .olt (Host.absf x) (broadcastInDim S ![] hb (constant (F := Ideal) S_ .f32 0x7F800000#32)))
        (constantI S_ 1 1#1) hr hS ix0 = 1#1) (i : S.Idx) : IsReal (x i) := by
  have e1 := Host.reduce_andi_all _ _ hr hS ix0 e i
  rw [cmpf_apply, StableHlo.Predicate.bcast_scalar hb hS, constant_apply] at e1
  exact isReal_of_abs_lt _ e1

/-- "Every word is at least c, signed", when it holds, bounds every word's integer value below by c's. -/
theorem ge_of_all {S : Shape} {axes : List (Fin S.rank)} (x : IVec S 32) (c : BitVec 32)
    (hb : S_.BroadcastsInDim S (![] : Fin 0 → Fin S.rank)) (hr : S.ReducesTo axes S_) (hS : 0 < S_.numel)
    (e : Host.reduce IntOp.andi (cmpi .sge x (broadcastInDim S ![] hb (constantI S_ 32 c)))
        (constantI S_ 1 1#1) hr hS ix0 = 1#1) (i : S.Idx) : c.toInt ≤ (x i).toInt := by
  have e1 := Host.reduce_andi_all _ _ hr hS ix0 e i
  simp only [cmpi, StableHlo.Predicate.bcast_scalar hb hS, constantI, IntOp.cmpi,
    StableHlo.Predicate.ofBool_eq_one_iff, BitVec.sle, decide_eq_true_eq] at e1
  exact e1

/-- "Every word is below c, signed", when it holds, bounds every word's integer value above by c's. -/
theorem lt_of_all {S : Shape} {axes : List (Fin S.rank)} (x : IVec S 32) (c : BitVec 32)
    (hb : S_.BroadcastsInDim S (![] : Fin 0 → Fin S.rank)) (hr : S.ReducesTo axes S_) (hS : 0 < S_.numel)
    (e : Host.reduce IntOp.andi (cmpi .slt x (broadcastInDim S ![] hb (constantI S_ 32 c)))
        (constantI S_ 1 1#1) hr hS ix0 = 1#1) (i : S.Idx) : (x i).toInt < c.toInt := by
  have e1 := Host.reduce_andi_all _ _ hr hS ix0 e i
  simp only [cmpi, StableHlo.Predicate.bcast_scalar hb hS, constantI, IntOp.cmpi,
    StableHlo.Predicate.ofBool_eq_one_iff, BitVec.slt, decide_eq_true_eq] at e1
  exact e1

variable [Cert.Pre_finite_inputs.Facts]

/-- The precondition, decoded: the logits and the embeddings are real everywhere, and every label lies in [0, 250). -/
theorem of_pre (x0 : FVec Ideal S16384x250 .f32) (x1 : IVec S16384 32) (x2 : FVec Ideal S16384x2048 .f32)
    (x3 : FVec Ideal S250x250 .f32)
    (h : Cert.Pre_finite_inputs.fn (F := Ideal) x0 x1 x2 x3 = fun _ => 1#1) :
    (∀ i, IsReal (x0 i)) ∧ (∀ i, IsReal (x2 i)) ∧
      (∀ b : Fin 16384, 0 ≤ (x1 (ix1 b)).toInt ∧ (x1 (ix1 b)).toInt < 250) := by
  have h0 := congrFun h ix0
  dsimp only [fn, fn_part1] at h0
  simp only [andi, IntOp.andi_eq_one] at h0
  obtain ⟨⟨⟨⟨e0, e2⟩, _⟩, ege⟩, elt⟩ := h0
  refine ⟨fun i => real_of_all x0 _ _ _ e0 i, fun i => real_of_all x2 _ _ _ e2 i, fun b => ⟨?_, ?_⟩⟩
  · exact ge_of_all x1 0#32 _ _ _ ege (ix1 b)
  · exact lt_of_all x1 250#32 _ _ _ elt (ix1 b)

end Cert.PreFacts

end
-- ==== Proof.lean ====
/-
  The certificate of a topology-guided loss: four scalars — the total, the cross-entropy, the topology-alignment
  loss and the hard-negative margin loss — of logits x[16384, 250], labels l[16384] in [0, 250), embeddings
  e[16384, 2048] and a topology matrix M[250, 250].

  The kernel program computes them with two pipelined regions over sixteen tiles of 1024 samples (two halves of
  eight tiles, each half accumulating into its own block, the halves added afterwards):
    * region 0 accumulates, per class k, the embedding sums Σ_b oh(l_b, k)·e[b, ·] and the counts Σ_b oh(l_b, k)
      (a one-hot matrix times the tile, the tile split as e + (e − e)), and the cross-entropy's
      Σ_b (max_b + lse_b) − Σ_b x[b, l_b] (the selected logits as the diagonal of one-hot · x);
    * region 1 accumulates, per class i, the sums over the samples labelled i of the hinge rows
      max(margin − dist(unit e_b, unit centroid_j), 0);
  the reference computes the same sums by scatter-adds over the whole batch, the cross-entropy as minus the mean of
  the log-softmax at the label, and the hinge over the whole batch at once. Between and after the regions both
  programs run the same host arithmetic on these sums.

  Over the extended reals the two agree where every input float is a real number and every label is in range:
    * x − x = 0 for a real x, and 0 · y = 0 for every y, so the split products are the plain products;
    * a label word in [0, 250) selects exactly one class, so Σ_k oh(l, k) = 1, the gather of the log-softmax at the
      label is Σ_k oh(l, k)·logp[b, k], and with every row maximum and log-sum-exp a real number
      Σ_b (max_b + lse_b) − Σ_b Σ_k oh·x = −Σ_b Σ_k oh·((x − max_b) − lse_b);
    * a sum over the 16384 samples is the sum over the halves, the tiles and the tile's rows;
    * every later buffer of the kernel program is then the reference's stage, term for term (HostChain).
  The label range is the reference's own domain: outside it its take-along-axis wraps or fills with a NaN.
-/
import proofs.«429416_j283467841734_3_alg».proof.Defs
import proofs.«429416_j283467841734_3_alg».proof.Proof.Gen.Kernel
import proofs.«429416_j283467841734_3_alg».proof.Proof.Gen.Kernel.Frame
import proofs.«429416_j283467841734_3_alg».proof.Proof.Gen.KernelIdeal
import proofs.«429416_j283467841734_3_alg».proof.Proof.Gen.KernelIdeal.Frame
import proofs.«429416_j283467841734_3_alg».proof.Proof.Gen.ReferenceIdeal
import proofs.«429416_j283467841734_3_alg».proof.Proof.Gen.Pre_finite_inputs
import proofs.«429416_j283467841734_3_alg».proof.Proof.KernelRun
import proofs.«429416_j283467841734_3_alg».proof.Proof.HostChain
import proofs.«429416_j283467841734_3_alg».proof.Proof.RefChain
import proofs.«429416_j283467841734_3_alg».proof.Proof.Bridge0
import proofs.«429416_j283467841734_3_alg».proof.Proof.Bridge1
import proofs.«429416_j283467841734_3_alg».proof.Proof.PreFacts
import Idealize.ShloMosaic.Adequacy
import Idealize.ShloMosaic.Init

set_option maxRecDepth 16384

noncomputable section

namespace Cert.Proof

open Idealize.ShloMosaic Idealize.SL.Sem

/-- The three frames: the two kernel programs by their frame certificates; the reference by its run, no operation
    of which writes an argument. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono
    (fun r h c => ⟨(h c Cert.ReferenceIdeal.main_arg0).trans (Cert.RefChain.ref_arg0 _), (h c Cert.ReferenceIdeal.main_arg1).trans (Cert.RefChain.ref_arg1 _),
      (h c Cert.ReferenceIdeal.main_arg2).trans (Cert.RefChain.ref_arg2 _), (h c Cert.ReferenceIdeal.main_arg3).trans (Cert.RefChain.ref_arg3 _)⟩)
    (Cert.ReferenceIdeal.ValueP.run_all (F := Ideal) m ρ)

/-- The four round trips through bf16 the ideal pass removed: each is the identity at the ideal instance. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16⟩

/-- A buffer's contents at launch are the launch memory's at that buffer. -/
theorem launch_read (m' : (ℓ : Loc Cert.ReferenceIdeal.nD Cert.ReferenceIdeal.τ Cert.ReferenceIdeal.sig) → Buf (Elt Ideal) ℓ) (c : Dev Cert.ReferenceIdeal.nD)
    (b : Ref Cert.ReferenceIdeal.sig .tc) :
    StableHlo.launchContents m' c (Proc.devRef .tc b) = m' ((c.tc : Thread Cert.ReferenceIdeal.nD Cert.ReferenceIdeal.τ).loc b) := rfl

set_option maxHeartbeats 8000000 in
/-- Both programs end with the same four scalars: the kernel program's are what its last host stretch leaves; the
    reference's are its stages of arguments that agree; and the kernel's sums, counts, cross-entropy and hinge sums
    being the reference's, every later buffer is the reference's stage. -/
theorem algebraic : Cert.algebraic_KernelIdeal_ReferenceIdeal := by
  intro m ρ m' ρ' hpre hagree
  refine ⟨fun c => Cert.KernelIdeal.Gen.W19 m ρ c (Proc.devRef .tc Cert.KernelIdeal.main_v100),
    fun c => Cert.KernelIdeal.Gen.W19 m ρ c (Proc.devRef .tc Cert.KernelIdeal.main_v3),
    fun c => Cert.KernelIdeal.Gen.W19 m ρ c (Proc.devRef .tc Cert.KernelIdeal.main_v58),
    fun c => Cert.KernelIdeal.Gen.W19 m ρ c (Proc.devRef .tc Cert.KernelIdeal.main_v96),
    Cert.KernelIdeal.RunV.run (F := Ideal) m ρ, ?_⟩
  refine (θ_run Cert.ReferenceIdeal.defs _ _).mono (fun r h c => ?_) (Cert.ReferenceIdeal.ValueP.run_all (F := Ideal) m' ρ')
  obtain ⟨hX, hE, hL⟩ := Cert.PreFacts.of_pre _ _ _ _ (hpre c)
  obtain ⟨e0, e1, e2, e3⟩ := hagree c
  have hs := Cert.Bridge0.sums_eq m ρ c hE
  have hc := Cert.Bridge0.counts_eq m ρ c
  have hce := Cert.Bridge0.ce_eq m ρ c hX hL
  have hp := Cert.Bridge1.pairs_eq m ρ c hE hs hc
  have h3 := Cert.HostChain.W2_arg3 m ρ c
  have h18 := Cert.HostChain.present2_eq m ρ c _ hc
  have h21 := Cert.HostChain.gate_eq m ρ c _ hc
  have h24 := Cert.HostChain.topon_eq m ρ c _ h3
  have h58 := Cert.HostChain.topo_eq m ρ c _ _ _ hs hc h3
  refine ⟨(h c Cert.ReferenceIdeal.main_v130).trans ?_, (h c Cert.ReferenceIdeal.main_v8).trans ?_,
    (h c Cert.ReferenceIdeal.main_v64).trans ?_, (h c Cert.ReferenceIdeal.main_v126).trans ?_,
    (h c Cert.ReferenceIdeal.main_arg0).trans (Cert.RefChain.ref_arg0 _), (h c Cert.ReferenceIdeal.main_arg1).trans (Cert.RefChain.ref_arg1 _),
    (h c Cert.ReferenceIdeal.main_arg2).trans (Cert.RefChain.ref_arg2 _), (h c Cert.ReferenceIdeal.main_arg3).trans (Cert.RefChain.ref_arg3 _)⟩
  · rw [Cert.RefChain.ref_total, launch_read, launch_read, launch_read, launch_read, e0, e1, e2, e3]
    exact (Cert.HostChain.total_eq m ρ c _ _ _ _ hp hce hc h18 h21 h24 h58).symm
  · rw [Cert.RefChain.ref_ce, launch_read, launch_read, e0, e1]
    exact ((Cert.HostChain.ce_keep m ρ c).trans hce).symm
  · rw [Cert.RefChain.ref_topo, launch_read, launch_read, launch_read, e1, e2, e3]
    exact ((Cert.HostChain.topo_keep m ρ c).trans h58).symm
  · rw [Cert.RefChain.ref_margin, launch_read, launch_read, launch_read, e1, e2, e3]
    exact (Cert.HostChain.margin_eq m ρ c _ _ _ hp hc h18 h21 h24).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
